-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_exact_sig2" .f32 0x48F423FE#32 ((36893488147419103232 / 73786983304225 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_sig2" .f32 0x42480000#32 ((9007199254740992 / 180143990463529 : ℝ) : EReal)
  ∧ IdealRules.named_const.Statement Cert.KernelIdeal.κ "inv_two_exact_sig2" .f32 0x48F423FE#32 ((36893488147419103232 / 73786983304225 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x20 : Shape := ⟨2, ![1024, 20]⟩
abbrev S1024x200 : Shape := ⟨2, ![1024, 200]⟩
abbrev S100000x128 : Shape := ⟨2, ![100000, 128]⟩
abbrev S10x21 : Shape := ⟨2, ![10, 21]⟩
abbrev S10 : Shape := ⟨1, ![10]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10x21 : S_.BroadcastsInDim S10x21 (![] : Fin 0 → Fin S10x21.rank)
  reducesTo_S10x21_S_d0_1 : S10x21.ReducesTo [0, 1] S_
  bcast_S_S10 : S_.BroadcastsInDim S10 (![] : Fin 0 → Fin S10.rank)
  reducesTo_S10_S_d0 : S10.ReducesTo [0] S_
  bcast_S_S5x10 : S_.BroadcastsInDim S5x10 (![] : Fin 0 → Fin S5x10.rank)
  reducesTo_S5x10_S_d0_1 : S5x10.ReducesTo [0, 1] S_
  bcast_S_S5 : S_.BroadcastsInDim S5 (![] : Fin 0 → Fin S5.rank)
  reducesTo_S5_S_d0 : S5.ReducesTo [0] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg8 : FVec F S5 .f32) (main_arg9 : FVec F S1x5 .f32) (main_arg10 : FVec F S1 .f32) (main_v13 : IVec S_ 1) (main_v16 : IVec S5x10 1) : IVec S_ 1 :=
  let main_c_5 : IVec S_ 1 := constantI S_ 1 1#1
  let main_v17 : IVec S_ 1 := (fun x v => Host.reduce IntOp.andi x v reducesTo_S5x10_S_d0_1 h_S_) main_v16 main_c_5
  let main_v18 : IVec S_ 1 := andi main_v13 main_v17
  let main_v19 : FVec F S5 .f32 := Host.absf main_arg8
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S1x5 .f32 := Host.absf main_arg9
  let main_cst_8 : FVec F S_ .f32 := constant S_ .f32 0x7F800000#32
  let main_v25 : FVec F S1x5 .f32 := broadcastInDim S1x5 ![] bcast_S_S1x5 main_cst_8
  let main_v26 : IVec S1x5 1 := cmpf .olt main_v24 main_v25
  let main_c_9 : IVec S_ 1 := constantI S_ 1 1#1
  let main_v27 : IVec S_ 1 := (fun x v => Host.reduce IntOp.andi x v reducesTo_S1x5_S_d0_1 h_S_) main_v26 main_c_9
  let main_v28 : IVec S_ 1 := andi main_v23 main_v27
  let main_v29 : FVec F S1 .f32 := Host.absf main_arg10
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S1024x20 32) (main_arg1 : IVec S1024x200 32) (main_arg2 : IVec S1024x20 32) (main_arg3 : IVec S1024x200 32) (main_arg4 : FVec F S100000x128 .f32) (main_arg5 : FVec F S10x21 .f32) (main_arg6 : FVec F S10 .f32) (main_arg7 : FVec F S5x10 .f32) (main_arg8 : FVec F S5 .f32) (main_arg9 : FVec F S1x5 .f32) (main_arg10 : FVec F S1 .f32) : IVec S_ 1 :=
  let main_v0 : FVec F S100000x128 .f32 := Host.absf main_arg4
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10x21 .f32 := Host.absf main_arg5
  let main_cst_0 : FVec F S_ .f32 := constant S_ .f32 0x7F800000#32
  let main_v5 : FVec F S10x21 .f32 := broadcastInDim S10x21 ![] bcast_S_S10x21 main_cst_0
  let main_v6 : IVec S10x21 1 := cmpf .olt main_v4 main_v5
  let main_c_1 : IVec S_ 1 := constantI S_ 1 1#1
  let main_v7 : IVec S_ 1 := (fun x v => Host.reduce IntOp.andi x v reducesTo_S10x21_S_d0_1 h_S_) main_v6 main_c_1
  let main_v8 : IVec S_ 1 := andi main_v3 main_v7
  let main_v9 : FVec F S10 .f32 := Host.absf main_arg6
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S5x10 .f32 := Host.absf main_arg7
  let main_cst_4 : FVec F S_ .f32 := constant S_ .f32 0x7F800000#32
  let main_v15 : FVec F S5x10 .f32 := broadcastInDim S5x10 ![] bcast_S_S5x10 main_cst_4
  let main_v16 : IVec S5x10 1 := cmpf .olt main_v14 main_v15
  fn_part1 (F := F) main_arg8 main_arg9 main_arg10 main_v13 main_v16
-- ==== Kernel.lean ====
abbrev S1024x20 : Shape := ⟨2, ![1024, 20]⟩
abbrev S1024x200 : Shape := ⟨2, ![1024, 200]⟩
abbrev S100000x128 : Shape := ⟨2, ![100000, 128]⟩
abbrev S10x21 : Shape := ⟨2, ![10, 21]⟩
abbrev S10 : Shape := ⟨1, ![10]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩
abbrev S1024x20x1 : Shape := ⟨3, ![1024, 20, 1]⟩
abbrev S1024x20x128 : Shape := ⟨3, ![1024, 20, 128]⟩
abbrev S1024x200x1 : Shape := ⟨3, ![1024, 200, 1]⟩
abbrev S1024x200x128 : Shape := ⟨3, ![1024, 200, 128]⟩
abbrev S1024x1 : Shape := ⟨2, ![1024, 1]⟩
abbrev S32x20x128 : Shape := ⟨3, ![32, 20, 128]⟩
abbrev S32x200x128 : Shape := ⟨3, ![32, 200, 128]⟩
abbrev S32x1 : Shape := ⟨2, ![32, 1]⟩
abbrev S32x21 : Shape := ⟨2, ![32, 21]⟩
abbrev S32x20 : Shape := ⟨2, ![32, 20]⟩
abbrev S32x200 : Shape := ⟨2, ![32, 200]⟩
abbrev S32x20x200 : Shape := ⟨3, ![32, 20, 200]⟩
abbrev S32x20x1 : Shape := ⟨3, ![32, 20, 1]⟩
abbrev S32x1x200 : Shape := ⟨3, ![32, 1, 200]⟩
abbrev S32 : Shape := ⟨1, ![32]⟩
abbrev S1x10 : Shape := ⟨2, ![1, 10]⟩
abbrev S1x1 : Shape := ⟨2, ![1, 1]⟩
abbrev S21x10 : Shape := ⟨2, ![21, 10]⟩
abbrev S32x10 : Shape := ⟨2, ![32, 10]⟩
abbrev S10x5 : Shape := ⟨2, ![10, 5]⟩
abbrev S32x5 : Shape := ⟨2, ![32, 5]⟩
abbrev S5x1 : Shape := ⟨2, ![5, 1]⟩

abbrev nBuf : Space → Nat
  | .hbm => 52
  | .vmem => 18
  | .smem => 0
  | _ => 0

abbrev bufTy : (tb : Table) → Fin (tcTables nBuf tb) → BufTy
  | .hbm, ⟨0, _⟩ => ⟨S1024x20, .i32⟩
  | .hbm, ⟨1, _⟩ => ⟨S1024x200, .i32⟩
  | .hbm, ⟨2, _⟩ => ⟨S1024x20, .i32⟩
  | .hbm, ⟨3, _⟩ => ⟨S1024x200, .i32⟩
  | .hbm, ⟨4, _⟩ => ⟨S100000x128, .f32⟩
  | .hbm, ⟨5, _⟩ => ⟨S10x21, .f32⟩
  | .hbm, ⟨6, _⟩ => ⟨S10, .f32⟩
  | .hbm, ⟨7, _⟩ => ⟨S5x10, .f32⟩
  | .hbm, ⟨8, _⟩ => ⟨S5, .f32⟩
  | .hbm, ⟨9, _⟩ => ⟨S1x5, .f32⟩
  | .hbm, ⟨10, _⟩ => ⟨S1, .f32⟩
  | .hbm, ⟨11, _⟩ => ⟨S_, .i32⟩
  | .hbm, ⟨12, _⟩ => ⟨S1024x20, .i32⟩
  | .hbm, ⟨13, _⟩ => ⟨S1024x20, .i1⟩
  | .hbm, ⟨14, _⟩ => ⟨S_, .i32⟩
  | .hbm, ⟨15, _⟩ => ⟨S1024x20, .i32⟩
  | .hbm, ⟨16, _⟩ => ⟨S1024x20, .i32⟩
  | .hbm, ⟨17, _⟩ => ⟨S1024x20, .i32⟩
  | .hbm, ⟨18, _⟩ => ⟨S1024x20x1, .i32⟩
  | .hbm, ⟨19, _⟩ => ⟨S1024x20x128, .f32⟩
  | .hbm, ⟨20, _⟩ => ⟨S1024x20x128, .bf16⟩
  | .hbm, ⟨21, _⟩ => ⟨S_, .i32⟩
  | .hbm, ⟨22, _⟩ => ⟨S1024x200, .i32⟩
  | .hbm, ⟨23, _⟩ => ⟨S1024x200, .i1⟩
  | .hbm, ⟨24, _⟩ => ⟨S_, .i32⟩
  | .hbm, ⟨25, _⟩ => ⟨S1024x200, .i32⟩
  | .hbm, ⟨26, _⟩ => ⟨S1024x200, .i32⟩
  | .hbm, ⟨27, _⟩ => ⟨S1024x200, .i32⟩
  | .hbm, ⟨28, _⟩ => ⟨S1024x200x1, .i32⟩
  | .hbm, ⟨29, _⟩ => ⟨S1024x200x128, .f32⟩
  | .hbm, ⟨30, _⟩ => ⟨S1024x200x128, .bf16⟩
  | .hbm, ⟨31, _⟩ => ⟨S_, .i32⟩
  | .hbm, ⟨32, _⟩ => ⟨S1024x20, .i32⟩
  | .hbm, ⟨33, _⟩ => ⟨S1024x20, .i1⟩
  | .hbm, ⟨34, _⟩ => ⟨S_, .i32⟩
  | .hbm, ⟨35, _⟩ => ⟨S1024x20, .i32⟩
  | .hbm, ⟨36, _⟩ => ⟨S1024x20, .i32⟩
  | .hbm, ⟨37, _⟩ => ⟨S1024x20, .i32⟩
  | .hbm, ⟨38, _⟩ => ⟨S1024x20x1, .i32⟩
  | .hbm, ⟨39, _⟩ => ⟨S1024x20x128, .f32⟩
  | .hbm, ⟨40, _⟩ => ⟨S1024x20x128, .bf16⟩
  | .hbm, ⟨41, _⟩ => ⟨S_, .i32⟩
  | .hbm, ⟨42, _⟩ => ⟨S1024x200, .i32⟩
  | .hbm, ⟨43, _⟩ => ⟨S1024x200, .i1⟩
  | .hbm, ⟨44, _⟩ => ⟨S_, .i32⟩
  | .hbm, ⟨45, _⟩ => ⟨S1024x200, .i32⟩
  | .hbm, ⟨46, _⟩ => ⟨S1024x200, .i32⟩
  | .hbm, ⟨47, _⟩ => ⟨S1024x200, .i32⟩
  | .hbm, ⟨48, _⟩ => ⟨S1024x200x1, .i32⟩
  | .hbm, ⟨49, _⟩ => ⟨S1024x200x128, .f32⟩
  | .hbm, ⟨50, _⟩ => ⟨S1024x200x128, .bf16⟩
  | .hbm, ⟨51, _⟩ => ⟨S1024x1, .f32⟩
  | .local _ .vmem, ⟨0, _⟩ => ⟨S32x20x128, .bf16⟩
  | .local _ .vmem, ⟨1, _⟩ => ⟨S32x20x128, .bf16⟩
  | .local _ .vmem, ⟨2, _⟩ => ⟨S32x200x128, .bf16⟩
  | .local _ .vmem, ⟨3, _⟩ => ⟨S32x200x128, .bf16⟩
  | .local _ .vmem, ⟨4, _⟩ => ⟨S32x20x128, .bf16⟩
  | .local _ .vmem, ⟨5, _⟩ => ⟨S32x20x128, .bf16⟩
  | .local _ .vmem, ⟨6, _⟩ => ⟨S32x200x128, .bf16⟩
  | .local _ .vmem, ⟨7, _⟩ => ⟨S32x200x128, .bf16⟩
  | .local _ .vmem, ⟨8, _⟩ => ⟨S10x21, .f32⟩
  | .local _ .vmem, ⟨9, _⟩ => ⟨S10, .f32⟩
  | .local _ .vmem, ⟨10, _⟩ => ⟨S5x10, .f32⟩
  | .local _ .vmem, ⟨11, _⟩ => ⟨S5, .f32⟩
  | .local _ .vmem, ⟨12, _⟩ => ⟨S1x5, .f32⟩
  | .local _ .vmem, ⟨13, _⟩ => ⟨S1, .f32⟩
  | .local _ .vmem, ⟨14, _⟩ => ⟨S32x1, .f32⟩
  | .local _ .vmem, ⟨15, _⟩ => ⟨S32x1, .f32⟩
  | .local _ .vmem, ⟨16, _⟩ => ⟨S32x21, .f32⟩
  | .local _ .vmem, ⟨17, _⟩ => ⟨S32x21, .f32⟩
  | _, _ => ⟨S1024x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x20x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x20x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x200x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10x21 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S1024x20 : S_.BroadcastsInDim S1024x20 (![] : Fin 0 → Fin S1024x20.rank)
  bcast_S1024x20_S1024x20x1_0_1 : S1024x20.BroadcastsInDim S1024x20x1 (![0, 1] : Fin 2 → Fin S1024x20x1.rank)
  bitsLt_bf16_f32 : FTy.bits .bf16 < FTy.bits .f32
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  inb_S32x20x128_S32x20x128_0_0_0 : ∀ a, (![0, 0, 0] : Fin 3 → Nat) a + S32x20x128.size a ≤ S32x20x128.size a
  h_S32x20x128 : 0 < S32x20x128.numel
  shapeCasts_S32x20x128_S32x20x128 : S32x20x128.ShapeCasts S32x20x128
  inb_S32x200x128_S32x200x128_0_0_0 : ∀ a, (![0, 0, 0] : Fin 3 → Nat) a + S32x200x128.size a ≤ S32x200x128.size a
  h_S32x200x128 : 0 < S32x200x128.numel
  shapeCasts_S32x200x128_S32x200x128 : S32x200x128.ShapeCasts S32x200x128
  reduces_S32x20x128_S32x20 : S32x20x128.Reduces [2] S32x20
  reduces_S32x200x128_S32x200 : S32x200x128.Reduces [2] S32x200
  shapeCasts_S32x20_S32x20x1 : S32x20.ShapeCasts S32x20x1
  shapeCasts_S32x200_S32x1x200 : S32x200.ShapeCasts S32x1x200
  broadcasts_S32x20x1_S32x20x200 : S32x20x1.Broadcasts S32x20x200
  broadcasts_S32x1x200_S32x20x200 : S32x1x200.Broadcasts S32x20x200
  reduces_S32x20x200_S32x20 : S32x20x200.Reduces [2] S32x20
  reduces_S32x20_S32 : S32x20.Reduces [1] S32
  shapeCasts_S32_S32x1 : S32.ShapeCasts S32x1
  inb_S32x21_S32x1_0_0 : ∀ a, (![0, 0] : Fin 2 → Nat) a + S32x1.size a ≤ S32x21.size a
  h_S32x1 : 0 < S32x1.numel
  shapeCasts_S32x1_S32x1 : S32x1.ShapeCasts S32x1
  inb_S32x21_S32x1_0_1 : ∀ a, (![0, 1] : Fin 2 → Nat) a + S32x1.size a ≤ S32x21.size a
  inb_S32x21_S32x1_0_2 : ∀ a, (![0, 2] : Fin 2 → Nat) a + S32x1.size a ≤ S32x21.size a
  inb_S32x21_S32x1_0_3 : ∀ a, (![0, 3] : Fin 2 → Nat) a + S32x1.size a ≤ S32x21.size a
  inb_S32x21_S32x1_0_4 : ∀ a, (![0, 4] : Fin 2 → Nat) a + S32x1.size a ≤ S32x21.size a
  inb_S32x21_S32x1_0_5 : ∀ a, (![0, 5] : Fin 2 → Nat) a + S32x1.size a ≤ S32x21.size a
  inb_S32x21_S32x1_0_6 : ∀ a, (![0, 6] : Fin 2 → Nat) a + S32x1.size a ≤ S32x21.size a
  inb_S32x21_S32x1_0_7 : ∀ a, (![0, 7] : Fin 2 → Nat) a + S32x1.size a ≤ S32x21.size a
  inb_S32x21_S32x1_0_8 : ∀ a, (![0, 8] : Fin 2 → Nat) a + S32x1.size a ≤ S32x21.size a
  inb_S32x21_S32x1_0_9 : ∀ a, (![0, 9] : Fin 2 → Nat) a + S32x1.size a ≤ S32x21.size a
  inb_S32x21_S32x1_0_10 : ∀ a, (![0, 10] : Fin 2 → Nat) a + S32x1.size a ≤ S32x21.size a
  inb_S32x21_S32x1_0_11 : ∀ a, (![0, 11] : Fin 2 → Nat) a + S32x1.size a ≤ S32x21.size a
  inb_S32x21_S32x1_0_12 : ∀ a, (![0, 12] : Fin 2 → Nat) a + S32x1.size a ≤ S32x21.size a
  inb_S32x21_S32x1_0_13 : ∀ a, (![0, 13] : Fin 2 → Nat) a + S32x1.size a ≤ S32x21.size a
  inb_S32x21_S32x1_0_14 : ∀ a, (![0, 14] : Fin 2 → Nat) a + S32x1.size a ≤ S32x21.size a
  inb_S32x21_S32x1_0_15 : ∀ a, (![0, 15] : Fin 2 → Nat) a + S32x1.size a ≤ S32x21.size a
  inb_S32x21_S32x1_0_16 : ∀ a, (![0, 16] : Fin 2 → Nat) a + S32x1.size a ≤ S32x21.size a
  inb_S32x21_S32x1_0_17 : ∀ a, (![0, 17] : Fin 2 → Nat) a + S32x1.size a ≤ S32x21.size a
  inb_S32x21_S32x1_0_18 : ∀ a, (![0, 18] : Fin 2 → Nat) a + S32x1.size a ≤ S32x21.size a
  inb_S32x21_S32x1_0_19 : ∀ a, (![0, 19] : Fin 2 → Nat) a + S32x1.size a ≤ S32x21.size a
  inb_S32x21_S32x1_0_20 : ∀ a, (![0, 20] : Fin 2 → Nat) a + S32x1.size a ≤ S32x21.size a
  inb_S32x21_S32x21_0_0 : ∀ a, (![0, 0] : Fin 2 → Nat) a + S32x21.size a ≤ S32x21.size a
  h_S32x21 : 0 < S32x21.numel
  inb_S10x21_S10x21_0_0 : ∀ a, (![0, 0] : Fin 2 → Nat) a + S10x21.size a ≤ S10x21.size a
  h_S10x21 : 0 < S10x21.numel
  inb_S10_S10_0 : ∀ a, (![0] : Fin 1 → Nat) a + S10.size a ≤ S10.size a
  h_S10 : 0 < S10.numel
  shapeCasts_S10_S1x10 : S10.ShapeCasts S1x10
  inb_S5x10_S5x10_0_0 : ∀ a, (![0, 0] : Fin 2 → Nat) a + S5x10.size a ≤ S5x10.size a
  h_S5x10 : 0 < S5x10.numel
  inb_S5_S5_0 : ∀ a, (![0] : Fin 1 → Nat) a + S5.size a ≤ S5.size a
  h_S5 : 0 < S5.numel
  shapeCasts_S5_S1x5 : S5.ShapeCasts S1x5
  inb_S1x5_S1x5_0_0 : ∀ a, (![0, 0] : Fin 2 → Nat) a + S1x5.size a ≤ S1x5.size a
  h_S1x5 : 0 < S1x5.numel
  inb_S1_S1_0 : ∀ a, (![0] : Fin 1 → Nat) a + S1.size a ≤ S1.size a
  h_S1 : 0 < S1.numel
  shapeCasts_S1_S1x1 : S1.ShapeCasts S1x1
  transposes_S10x21_p1_0_S21x10 : S10x21.Transposes [1, 0] S21x10
  broadcasts_S1x10_S32x10 : S1x10.Broadcasts S32x10
  transposes_S5x10_p1_0_S10x5 : S5x10.Transposes [1, 0] S10x5
  broadcasts_S1x5_S32x5 : S1x5.Broadcasts S32x5
  transposes_S1x5_p1_0_S5x1 : S1x5.Transposes [1, 0] S5x1
  broadcasts_S1x1_S32x1 : S1x1.Broadcasts S32x1
  inb_S32x1_S32x1_0_0 : ∀ a, (![0, 0] : Fin 2 → Nat) a + S32x1.size a ≤ S32x1.size a
  gather_S100000x128_S1024x20x1_S1024x20x128_2_0_n_n_0_2_1128_wf : GatherDims.WF S100000x128 S1024x20x1 S1024x20x128 [2] [0] [] [0] [] 2 ![1, 128]
  gather_S100000x128_S1024x200x1_S1024x200x128_2_0_n_n_0_2_1128_wf : GatherDims.WF S100000x128 S1024x200x1 S1024x200x128 [2] [0] [] [0] [] 2 ![1, 128]
  dot_S32x20x128_S32x200x128_S32x20x200_2_2_1_1_0_0_wf : DotDims.WF S32x20x128 S32x200x128 S32x20x200 [2] [2] [1] [1] [0] [0]
  dot_S32x21_S21x10_S32x10_1_0_0_1_n_n_wf : DotDims.WF S32x21 S21x10 S32x10 [1] [0] [0] [1] [] []
  dot_S32x10_S10x5_S32x5_1_0_0_1_n_n_wf : DotDims.WF S32x10 S10x5 S32x5 [1] [0] [0] [1] [] []
  dot_S32x5_S5x1_S32x1_1_0_0_1_n_n_wf : DotDims.WF S32x5 S5x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x20x128.size a ≤ S1024x20x128.size a
  hwx0_0 : ∀ i : grid0.Coords, EltTy.bits .bf16 = 32 ∨ (Rect.block (s := S1024x20x128) S32x20x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x128.size a ≤ S1024x200x128.size a
  hwx0_1 : ∀ i : grid0.Coords, EltTy.bits .bf16 = 32 ∨ (Rect.block (s := S1024x200x128) S32x200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x20x128.size a ≤ S1024x20x128.size a
  hwx0_2 : ∀ i : grid0.Coords, EltTy.bits .bf16 = 32 ∨ (Rect.block (s := S1024x20x128) S32x20x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x200x128.size a ≤ S1024x200x128.size a
  hwx0_3 : ∀ i : grid0.Coords, EltTy.bits .bf16 = 32 ∨ (Rect.block (s := S1024x200x128) S32x200x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x21.size a ≤ S10x21.size a
  hwx0_4 : ∀ i : grid0.Coords, EltTy.bits .f32 = 32 ∨ (Rect.block (s := S10x21) S10x21.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10.size a ≤ S10.size a
  hwx0_5 : ∀ i : grid0.Coords, EltTy.bits .f32 = 32 ∨ (Rect.block (s := S10) S10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x10.size a ≤ S5x10.size a
  hwx0_6 : ∀ i : grid0.Coords, EltTy.bits .f32 = 32 ∨ (Rect.block (s := S5x10) S5x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5.size a ≤ S5.size a
  hwx0_7 : ∀ i : grid0.Coords, EltTy.bits .f32 = 32 ∨ (Rect.block (s := S5) S5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x5.size a ≤ S1x5.size a
  hwx0_8 : ∀ i : grid0.Coords, EltTy.bits .f32 = 32 ∨ (Rect.block (s := S1x5) S1x5.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x1.size a ≤ S1024x1.size a
  hwx0_10 : ∀ i : grid0.Coords, EltTy.bits .f32 = 32 ∨ (Rect.block (s := S1024x1) S32x1.size (cc0_transform_10 i) (hinb0_10 i)).WholeWords (EltTy.packing .f32)

variable [Facts₀]

def gather_S100000x128_S1024x20x1_S1024x20x128_2_0_n_n_0_2_1128 : GatherDims S100000x128 S1024x20x1 S1024x20x128 where
  offsetDims := [2]
  collapsedSliceDims := [0]
  operandBatchingDims := []
  startIndicesBatchingDims := []
  startIndexMap := [0]
  indexVectorDim := 2
  sliceSizes := ![1, 128]
  wf := gather_S100000x128_S1024x20x1_S1024x20x128_2_0_n_n_0_2_1128_wf
def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf
def dot_S32x20x128_S32x200x128_S32x20x200_2_2_1_1_0_0 : DotDims S32x20x128 S32x200x128 S32x20x200 where
  lhsContracting := [2]
  rhsContracting := [2]
  lhsNonContracting := [1]
  rhsNonContracting := [1]
  lhsBatch := [0]
  rhsBatch := [0]
  wf := dot_S32x20x128_S32x200x128_S32x20x200_2_2_1_1_0_0_wf
def dot_S32x21_S21x10_S32x10_1_0_0_1_n_n : DotDims S32x21 S21x10 S32x10 where
  lhsContracting := [1]
  rhsContracting := [0]
  lhsNonContracting := [0]
  rhsNonContracting := [1]
  lhsBatch := []
  rhsBatch := []
  wf := dot_S32x21_S21x10_S32x10_1_0_0_1_n_n_wf
def dot_S32x10_S10x5_S32x5_1_0_0_1_n_n : DotDims S32x10 S10x5 S32x5 where
  lhsContracting := [1]
  rhsContracting := [0]
  lhsNonContracting := [0]
  rhsNonContracting := [1]
  lhsBatch := []
  rhsBatch := []
  wf := dot_S32x10_S10x5_S32x5_1_0_0_1_n_n_wf
def dot_S32x5_S5x1_S32x1_1_0_0_1_n_n : DotDims S32x5 S5x1 S32x1 where
  lhsContracting := [1]
  rhsContracting := [0]
  lhsNonContracting := [0]
  rhsNonContracting := [1]
  lhsBatch := []
  rhsBatch := []
  wf := dot_S32x5_S5x1_S32x1_1_0_0_1_n_n_wf

abbrev win0_0 : Pipeline.Window sig grid0 :=
  Pipeline.Window.ofSpec (Memref.whole main_v7) S32x20x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S32x200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S32x20x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S32x200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S10x21.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S5x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S32x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1024x20 : Shape := ⟨2, ![1024, 20]⟩
abbrev S1024x200 : Shape := ⟨2, ![1024, 200]⟩
abbrev S100000x128 : Shape := ⟨2, ![100000, 128]⟩
abbrev S10x21 : Shape := ⟨2, ![10, 21]⟩
abbrev S10 : Shape := ⟨1, ![10]⟩
abbrev S5x10 : Shape := ⟨2, ![5, 10]⟩
abbrev S5 : Shape := ⟨1, ![5]⟩
abbrev S1x5 : Shape := ⟨2, ![1, 5]⟩
abbrev S1 : Shape := ⟨1, ![1]⟩
abbrev S21 : Shape := ⟨1, ![21]⟩
abbrev S_ : Shape := ⟨0, ![]⟩
abbrev S1024x20x1 : Shape := ⟨3, ![1024, 20, 1]⟩
abbrev S1024x20x128 : Shape := ⟨3, ![1024, 20, 128]⟩
abbrev S1024x200x1 : Shape := ⟨3, ![1024, 200, 1]⟩
abbrev S1024x200x128 : Shape := ⟨3, ![1024, 200, 128]⟩
abbrev S1024x20x200 : Shape := ⟨3, ![1024, 20, 200]⟩
abbrev S1024x1x200 : Shape := ⟨3, ![1024, 1, 200]⟩
abbrev S1024x20x200x1 : Shape := ⟨4, ![1024, 20, 200, 1]⟩
abbrev S1x1x1x21 : Shape := ⟨4, ![1, 1, 1, 21]⟩
abbrev S1024x20x200x21 : Shape := ⟨4, ![1024, 20, 200, 21]⟩
abbrev S1024x20x21 : Shape := ⟨3, ![1024, 20, 21]⟩
abbrev S1024x21 : Shape := ⟨2, ![1024, 21]⟩
abbrev S21x10 : Shape := ⟨2, ![21, 10]⟩
abbrev S1024x10 : Shape := ⟨2, ![1024, 10]⟩
abbrev S1x10 : Shape := ⟨2, ![1, 10]⟩
abbrev S10x5 : Shape := ⟨2, ![10, 5]⟩
abbrev S1024x5 : Shape := ⟨2, ![1024, 5]⟩
abbrev S5x1 : Shape := ⟨2, ![5, 1]⟩
abbrev S1024x1 : Shape := ⟨2, ![1024, 1]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S1024x20, .i32⟩
  | 1 => ⟨S1024x200, .i32⟩
  | 2 => ⟨S1024x20, .i32⟩
  | 3 => ⟨S1024x200, .i32⟩
  | 4 => ⟨S100000x128, .f32⟩
  | 5 => ⟨S10x21, .f32⟩
  | 6 => ⟨S10, .f32⟩
  | 7 => ⟨S5x10, .f32⟩
  | 8 => ⟨S5, .f32⟩
  | 9 => ⟨S1x5, .f32⟩
  | 10 => ⟨S1, .f32⟩
  | 11 => ⟨S21, .f32⟩
  | 12 => ⟨S21, .f32⟩
  | 13 => ⟨S_, .i32⟩
  | 14 => ⟨S1024x20, .i32⟩
  | 15 => ⟨S1024x20, .i1⟩
  | 16 => ⟨S_, .i32⟩
  | 17 => ⟨S1024x20, .i32⟩
  | 18 => ⟨S1024x20, .i32⟩
  | 19 => ⟨S1024x20, .i32⟩
  | 20 => ⟨S1024x20x1, .i32⟩
  | 21 => ⟨S1024x20x128, .f32⟩
  | 22 => ⟨S_, .i32⟩
  | 23 => ⟨S1024x200, .i32⟩
  | 24 => ⟨S1024x200, .i1⟩
  | 25 => ⟨S_, .i32⟩
  | 26 => ⟨S1024x200, .i32⟩
  | 27 => ⟨S1024x200, .i32⟩
  | 28 => ⟨S1024x200, .i32⟩
  | 29 => ⟨S1024x200x1, .i32⟩
  | 30 => ⟨S1024x200x128, .f32⟩
  | 31 => ⟨S1024x20x200, .f32⟩
  | 32 => ⟨S1024x20x128, .f32⟩
  | 33 => ⟨S_, .f32⟩
  | 34 => ⟨S1024x20, .f32⟩
  | 35 => ⟨S_, .f32⟩
  | 36 => ⟨S1024x20, .f32⟩
  | 37 => ⟨S1024x20, .f32⟩
  | 38 => ⟨S1024x20, .f32⟩
  | 39 => ⟨S1024x200x128, .f32⟩
  | 40 => ⟨S_, .f32⟩
  | 41 => ⟨S1024x200, .f32⟩
  | 42 => ⟨S_, .f32⟩
  | 43 => ⟨S1024x200, .f32⟩
  | 44 => ⟨S1024x200, .f32⟩
  | 45 => ⟨S1024x200, .f32⟩
  | 46 => ⟨S1024x20x1, .f32⟩
  | 47 => ⟨S1024x1x200, .f32⟩
  | 48 => ⟨S1024x20x200, .f32⟩
  | 49 => ⟨S1024x20x200, .f32⟩
  | 50 => ⟨S1024x20x200, .f32⟩
  | 51 => ⟨S1024x20x200, .f32⟩
  | 52 => ⟨S1024x20x200x1, .f32⟩
  | 53 => ⟨S1x1x1x21, .f32⟩
  | 54 => ⟨S1024x20x200x21, .f32⟩
  | 55 => ⟨S1024x20x200x21, .f32⟩
  | 56 => ⟨S1024x20x200x21, .f32⟩
  | 57 => ⟨S1024x20x200x21, .f32⟩
  | 58 => ⟨S1024x20x200x21, .f32⟩
  | 59 => ⟨S_, .f32⟩
  | 60 => ⟨S21, .f32⟩
  | 61 => ⟨S21, .f32⟩
  | 62 => ⟨S21, .f32⟩
  | 63 => ⟨S1x1x1x21, .f32⟩
  | 64 => ⟨S1024x20x200x21, .f32⟩
  | 65 => ⟨S1024x20x200x21, .f32⟩
  | 66 => ⟨S1024x20x200x21, .f32⟩
  | 67 => ⟨S_, .f32⟩
  | 68 => ⟨S1024x20x21, .f32⟩
  | 69 => ⟨S1024x20x21, .f32⟩
  | 70 => ⟨S_, .f32⟩
  | 71 => ⟨S1024x21, .f32⟩
  | 72 => ⟨S_, .f32⟩
  | 73 => ⟨S1024x21, .f32⟩
  | 74 => ⟨S1024x21, .f32⟩
  | 75 => ⟨S21x10, .f32⟩
  | 76 => ⟨S1024x10, .f32⟩
  | 77 => ⟨S1x10, .f32⟩
  | 78 => ⟨S1024x10, .f32⟩
  | 79 => ⟨S1024x10, .f32⟩
  | 80 => ⟨S_, .f32⟩
  | 81 => ⟨S1024x10, .f32⟩
  | 82 => ⟨S1024x10, .f32⟩
  | 83 => ⟨S10x5, .f32⟩
  | 84 => ⟨S1024x5, .f32⟩
  | 85 => ⟨S1x5, .f32⟩
  | 86 => ⟨S1024x5, .f32⟩
  | 87 => ⟨S1024x5, .f32⟩
  | 88 => ⟨S_, .f32⟩
  | 89 => ⟨S1024x5, .f32⟩
  | 90 => ⟨S1024x5, .f32⟩
  | 91 => ⟨S5x1, .f32⟩
  | 92 => ⟨S1024x1, .f32⟩
  | 93 => ⟨S1x1, .f32⟩
  | 94 => ⟨S1024x1, .f32⟩
  | 95 => ⟨S1024x1, .f32⟩
  | 96 => ⟨S_, .i32⟩
  | 97 => ⟨S1024x20, .i32⟩
  | 98 => ⟨S1024x20, .i1⟩
  | 99 => ⟨S_, .i32⟩
  | 100 => ⟨S1024x20, .i32⟩
  | 101 => ⟨S1024x20, .i32⟩
  | 102 => ⟨S1024x20, .i32⟩
  | 103 => ⟨S1024x20x1, .i32⟩
  | 104 => ⟨S1024x20x128, .f32⟩
  | 105 => ⟨S_, .i32⟩
  | 106 => ⟨S1024x200, .i32⟩
  | 107 => ⟨S1024x200, .i1⟩
  | 108 => ⟨S_, .i32⟩
  | 109 => ⟨S1024x200, .i32⟩
  | 110 => ⟨S1024x200, .i32⟩
  | 111 => ⟨S1024x200, .i32⟩
  | 112 => ⟨S1024x200x1, .i32⟩
  | 113 => ⟨S1024x200x128, .f32⟩
  | 114 => ⟨S1024x20x200, .f32⟩
  | 115 => ⟨S1024x20x128, .f32⟩
  | 116 => ⟨S_, .f32⟩
  | 117 => ⟨S1024x20, .f32⟩
  | 118 => ⟨S_, .f32⟩
  | 119 => ⟨S1024x20, .f32⟩
  | 120 => ⟨S1024x20, .f32⟩
  | 121 => ⟨S1024x20, .f32⟩
  | 122 => ⟨S1024x200x128, .f32⟩
  | 123 => ⟨S_, .f32⟩
  | 124 => ⟨S1024x200, .f32⟩
  | 125 => ⟨S_, .f32⟩
  | 126 => ⟨S1024x200, .f32⟩
  | 127 => ⟨S1024x200, .f32⟩
  | _ => ⟨S1024x20, .i32⟩

abbrev hbmTy0_1 (i : Nat) : BufTy := match i % 128 with
  | 0 => ⟨S1024x200, .f32⟩
  | 1 => ⟨S1024x20x1, .f32⟩
  | 2 => ⟨S1024x1x200, .f32⟩
  | 3 => ⟨S1024x20x200, .f32⟩
  | 4 => ⟨S1024x20x200, .f32⟩
  | 5 => ⟨S1024x20x200, .f32⟩
  | 6 => ⟨S1024x20x200, .f32⟩
  | 7 => ⟨S1024x20x200x1, .f32⟩
  | 8 => ⟨S1x1x1x21, .f32⟩
  | 9 => ⟨S1024x20x200x21, .f32⟩
  | 10 => ⟨S1024x20x200x21, .f32⟩
  | 11 => ⟨S1024x20x200x21, .f32⟩
  | 12 => ⟨S1024x20x200x21, .f32⟩
  | 13 => ⟨S1024x20x200x21, .f32⟩
  | 14 => ⟨S_, .f32⟩
  | 15 => ⟨S21, .f32⟩
  | 16 => ⟨S21, .f32⟩
  | 17 => ⟨S21, .f32⟩
  | 18 => ⟨S1x1x1x21, .f32⟩
  | 19 => ⟨S1024x20x200x21, .f32⟩
  | 20 => ⟨S1024x20x200x21, .f32⟩
  | 21 => ⟨S1024x20x200x21, .f32⟩
  | 22 => ⟨S_, .f32⟩
  | 23 => ⟨S1024x20x21, .f32⟩
  | 24 => ⟨S1024x20x21, .f32⟩
  | 25 => ⟨S_, .f32⟩
  | 26 => ⟨S1024x21, .f32⟩
  | 27 => ⟨S_, .f32⟩
  | 28 => ⟨S1024x21, .f32⟩
  | 29 => ⟨S1024x21, .f32⟩
  | 30 => ⟨S21x10, .f32⟩
  | 31 => ⟨S1024x10, .f32⟩
  | 32 => ⟨S1x10, .f32⟩
  | 33 => ⟨S1024x10, .f32⟩
  | 34 => ⟨S1024x10, .f32⟩
  | 35 => ⟨S_, .f32⟩
  | 36 => ⟨S1024x10, .f32⟩
  | 37 => ⟨S1024x10, .f32⟩
  | 38 => ⟨S10x5, .f32⟩
  | 39 => ⟨S1024x5, .f32⟩
  | 40 => ⟨S1x5, .f32⟩
  | 41 => ⟨S1024x5, .f32⟩
  | 42 => ⟨S1024x5, .f32⟩
  | 43 => ⟨S_, .f32⟩
  | 44 => ⟨S1024x5, .f32⟩
  | 45 => ⟨S1024x5, .f32⟩
  | 46 => ⟨S5x1, .f32⟩
  | 47 => ⟨S1024x1, .f32⟩
  | 48 => ⟨S1x1, .f32⟩
  | 49 => ⟨S1024x1, .f32⟩
  | 50 => ⟨S1024x1, .f32⟩
  | 51 => ⟨S1024x1, .f32⟩
  | 52 => ⟨S1024x1, .f32⟩
  | 53 => ⟨S1024x1, .f32⟩
  | 54 => ⟨S_, .f32⟩
  | 55 => ⟨S1024x1, .f32⟩
  | 56 => ⟨S1024x1, .f32⟩
  | 57 => ⟨S_, .f32⟩
  | 58 => ⟨S1024x1, .f32⟩
  | 59 => ⟨S1024x1, .f32⟩
  | _ => ⟨S1024x20, .i32⟩

abbrev hbmTy (i : Nat) : BufTy := match i / 128 with
  | 0 => hbmTy0_0 i
  | 1 => hbmTy0_1 i
  | _ => ⟨S1024x20, .i32⟩

abbrev bufTy : (tb : Table) → Fin (tcTables nBuf tb) → BufTy
  | .hbm, ⟨i, _⟩ => hbmTy i
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_cst : Ref sig .tc := ⟨.hbm, 88, rfl⟩
abbrev main_call2_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_c_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_c_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_19 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_20 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_call3_cst : Ref sig .tc := ⟨.hbm, 155, rfl⟩
abbrev main_call3_v0 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_call4_cst : Ref sig .tc := ⟨.hbm, 163, rfl⟩
abbrev main_call4_v0 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_call5_cst : Ref sig .tc := ⟨.hbm, 171, rfl⟩
abbrev main_call5_v0 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_22 : Ref sig .tc := ⟨.hbm, 182, rfl⟩
abbrev main_v135 : Ref sig .tc := ⟨.hbm, 183, rfl⟩
abbrev main_v136 : Ref sig .tc := ⟨.hbm, 184, rfl⟩
abbrev main_cst_23 : Ref sig .tc := ⟨.hbm, 185, rfl⟩
abbrev main_v137 : Ref sig .tc := ⟨.hbm, 186, rfl⟩
abbrev main_v138 : Ref sig .tc := ⟨.hbm, 187, rfl⟩

abbrev nD : Nat := 1
abbrev τ : Topo := Topo.v7x

variable {F : FTy → Type} [FloatOps F]

class Facts₀ : Prop where
  bcast_S_S1024x20 : S_.BroadcastsInDim S1024x20 (![] : Fin 0 → Fin S1024x20.rank)
  bcast_S1024x20_S1024x20x1_0_1 : S1024x20.BroadcastsInDim S1024x20x1 (![0, 1] : Fin 2 → Fin S1024x20x1.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  reducesTo_S1024x20x128_S1024x20_d2 : S1024x20x128.ReducesTo [2] S1024x20
  h_S_ : 0 < S_.numel
  reducesTo_S1024x200x128_S1024x200_d2 : S1024x200x128.ReducesTo [2] S1024x200
  bcast_S1024x200_S1024x1x200_0_2 : S1024x200.BroadcastsInDim S1024x1x200 (![0, 2] : Fin 2 → Fin S1024x1x200.rank)
  bcast_S1024x20x1_S1024x20x200_0_1_2 : S1024x20x1.BroadcastsInDim S1024x20x200 (![0, 1, 2] : Fin 3 → Fin S1024x20x200.rank)
  bcast_S1024x1x200_S1024x20x200_0_1_2 : S1024x1x200.BroadcastsInDim S1024x20x200 (![0, 1, 2] : Fin 3 → Fin S1024x20x200.rank)
  bcast_S1024x20x200_S1024x20x200x1_0_1_2 : S1024x20x200.BroadcastsInDim S1024x20x200x1 (![0, 1, 2] : Fin 3 → Fin S1024x20x200x1.rank)
  bcast_S21_S1x1x1x21_3 : S21.BroadcastsInDim S1x1x1x21 (![3] : Fin 1 → Fin S1x1x1x21.rank)
  bcast_S1024x20x200x1_S1024x20x200x21_0_1_2_3 : S1024x20x200x1.BroadcastsInDim S1024x20x200x21 (![0, 1, 2, 3] : Fin 4 → Fin S1024x20x200x21.rank)
  bcast_S1x1x1x21_S1024x20x200x21_0_1_2_3 : S1x1x1x21.BroadcastsInDim S1024x20x200x21 (![0, 1, 2, 3] : Fin 4 → Fin S1024x20x200x21.rank)
  bcast_S_S21 : S_.BroadcastsInDim S21 (![] : Fin 0 → Fin S21.rank)
  reducesTo_S1024x20x200x21_S1024x20x21_d2 : S1024x20x200x21.ReducesTo [2] S1024x20x21
  reducesTo_S1024x20x21_S1024x21_d1 : S1024x20x21.ReducesTo [1] S1024x21
  bcast_S_S1024x21 : S_.BroadcastsInDim S1024x21 (![] : Fin 0 → Fin S1024x21.rank)
  transposes_S10x21_S21x10_1_0 : S10x21.Transposes [1, 0] S21x10
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  transposes_S5x10_S10x5_1_0 : S5x10.Transposes [1, 0] S10x5
  bcast_S5_S1x5_1 : S5.BroadcastsInDim S1x5 (![1] : Fin 1 → Fin S1x5.rank)
  bcast_S1x5_S1024x5_0_1 : S1x5.BroadcastsInDim S1024x5 (![0, 1] : Fin 2 → Fin S1024x5.rank)
  bcast_S_S1024x5 : S_.BroadcastsInDim S1024x5 (![] : Fin 0 → Fin S1024x5.rank)
  transposes_S1x5_S5x1_1_0 : S1x5.Transposes [1, 0] S5x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  gather_S100000x128_S1024x20x1_S1024x20x128_2_0_n_n_0_2_1128_wf : GatherDims.WF S100000x128 S1024x20x1 S1024x20x128 [2] [0] [] [0] [] 2 ![1, 128]
  gather_S100000x128_S1024x200x1_S1024x200x128_2_0_n_n_0_2_1128_wf : GatherDims.WF S100000x128 S1024x200x1 S1024x200x128 [2] [0] [] [0] [] 2 ![1, 128]
  dot_S1024x20x128_S1024x200x128_S1024x20x200_2_2_1_1_0_0_wf : DotDims.WF S1024x20x128 S1024x200x128 S1024x20x200 [2] [2] [1] [1] [0] [0]
  dot_S1024x21_S21x10_S1024x10_1_0_0_1_n_n_wf : DotDims.WF S1024x21 S21x10 S1024x10 [1] [0] [0] [1] [] []
  dot_S1024x10_S10x5_S1024x5_1_0_0_1_n_n_wf : DotDims.WF S1024x10 S10x5 S1024x5 [1] [0] [0] [1] [] []
  dot_S1024x5_S5x1_S1024x1_1_0_0_1_n_n_wf : DotDims.WF S1024x5 S5x1 S1024x1 [1] [0] [0] [1] [] []

variable [Facts₀]

def gather_S100000x128_S1024x20x1_S1024x20x128_2_0_n_n_0_2_1128 : GatherDims S100000x128 S1024x20x1 S1024x20x128 where
  offsetDims := [2]
  collapsedSliceDims := [0]
  operandBatchingDims := []
  startIndicesBatchingDims := []
  startIndexMap := [0]
  indexVectorDim := 2
  sliceSizes := ![1, 128]
  wf := gather_S100000x128_S1024x20x1_S1024x20x128_2_0_n_n_0_2_1128_wf
def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf
def dot_S1024x20x128_S1024x200x128_S1024x20x200_2_2_1_1_0_0 : DotDims S1024x20x128 S1024x200x128 S1024x20x200 where
  lhsContracting := [2]
  rhsContracting := [2]
  lhsNonContracting := [1]
  rhsNonContracting := [1]
  lhsBatch := [0]
  rhsBatch := [0]
  wf := dot_S1024x20x128_S1024x200x128_S1024x20x200_2_2_1_1_0_0_wf
def dot_S1024x21_S21x10_S1024x10_1_0_0_1_n_n : DotDims S1024x21 S21x10 S1024x10 where
  lhsContracting := [1]
  rhsContracting := [0]
  lhsNonContracting := [0]
  rhsNonContracting := [1]
  lhsBatch := []
  rhsBatch := []
  wf := dot_S1024x21_S21x10_S1024x10_1_0_0_1_n_n_wf
def dot_S1024x10_S10x5_S1024x5_1_0_0_1_n_n : DotDims S1024x10 S10x5 S1024x5 where
  lhsContracting := [1]
  rhsContracting := [0]
  lhsNonContracting := [0]
  rhsNonContracting := [1]
  lhsBatch := []
  rhsBatch := []
  wf := dot_S1024x10_S10x5_S1024x5_1_0_0_1_n_n_wf
def dot_S1024x5_S5x1_S1024x1_1_0_0_1_n_n : DotDims S1024x5 S5x1 S1024x1 where
  lhsContracting := [1]
  rhsContracting := [0]
  lhsNonContracting := [0]
  rhsNonContracting := [1]
  lhsBatch := []
  rhsBatch := []
  wf := dot_S1024x5_S5x1_S1024x1_1_0_0_1_n_n_wf

class Facts : Prop extends Facts₀ where

variable [Facts]
-- ==== Proof.Spec.lean ====
/-
  The mathematics both programs compute, one batch row at a time, on the extended reals.

  A query row `Q : 20 × 128` and a document row `D : 200 × 128` of embedded tokens give the matrix of cosine
  similarities `cosSim (Q i) (D j)` (each length floored by `eps` under the root). Twenty-one Gaussian bumps,
  centred at `mu k` with inverse widths `width k = 1 / (2 σ_k²)`, are pooled: over the document by a sum, through
  `log1p`, over the query by a sum (`softTF`). The 21 pooled features go through three dense layers with `relu`
  in front of each (`logit`), and the score of a pair of (query, document) pairs is the logistic of the
  difference of their logits.
-/
import Idealize.ShloMosaic.PureOps.Ideal
import Idealize.ShloMosaic.PureOps.Ideal.Laws
import Idealize.ShloMosaic.Lib.ValueIdx

noncomputable section

namespace Cert.Knrm

open Idealize.ShloMosaic Idealize.ShloMosaic.ValueIdx

/-- The floor added under each square root: the f32 word `0x358637BD` both programs carry. -/
def eps : EReal := Ideal.ofBits .f32 0x358637BD#32

/-- The floored Euclidean length of an embedded token. -/
def rowNorm (v : Fin 128 → EReal) : EReal := Ideal.sqrt ((∑ e, v e * v e) + eps)

/-- Cosine similarity of two embedded tokens. -/
def cosSim (q d : Fin 128 → EReal) : EReal := Ideal.div (∑ e, q e * d e) (rowNorm q * rowNorm d)

/-- One Gaussian bump pooled over a (query, document) pair: `Σ_i log1p (Σ_j exp (-(M i j - μ)² · c))`. -/
def softTF (Q : Fin 20 → Fin 128 → EReal) (D : Fin 200 → Fin 128 → EReal) (μ c : EReal) : EReal :=
  ∑ i, Ideal.log1p (∑ j, Ideal.exp (-((cosSim (Q i) (D j) - μ) * (cosSim (Q i) (D j) - μ)) * c))

/-- The bumps' centres as the f32 words both programs carry: -0.95, -0.85, …, 0.95, 1.0. -/
def muBits : Fin 21 → BitVec 32 := fun
  | 0 => 0xBF733333#32 | 1 => 0xBF59999A#32 | 2 => 0xBF400000#32 | 3 => 0xBF266666#32 | 4 => 0xBF0CCCCD#32 | 5 => 0xBEE66666#32 | 6 => 0xBEB33333#32 | 7 => 0xBE800000#32
  | 8 => 0xBE19999A#32 | 9 => 0xBD4CCCCD#32 | 10 => 0x3D4CCCCD#32 | 11 => 0x3E19999A#32 | 12 => 0x3E800000#32 | 13 => 0x3EB33333#32 | 14 => 0x3EE66666#32 | 15 => 0x3F0CCCCD#32
  | 16 => 0x3F266666#32 | 17 => 0x3F400000#32 | 18 => 0x3F59999A#32 | 19 => 0x3F733333#32 | 20 => 0x3F800000#32
  | _ => 0#32

/-- The centre of bump `k`. -/
def mu (k : Fin 21) : EReal := Ideal.ofBits .f32 (muBits k)

/-- `1 / (2 σ²)` for σ the f32 word of 0.1 (`13421773 / 2^27`): `2^53 / 13421773²`. -/
def widthWide : EReal := ((9007199254740992 / 180143990463529 : ℝ) : EReal)

/-- `1 / (2 σ²)` for σ the f32 word of 0.001 (`8589935 / 2^33`): `2^65 / 8589935²`. -/
def widthExact : EReal := ((36893488147419103232 / 73786983304225 : ℝ) : EReal)

/-- The inverse width of bump `k`: the last bump (centre 1.0) is the narrow exact-match one. -/
def width (k : Fin 21) : EReal := if k = 20 then widthExact else widthWide

/-- The 21 pooled features of a (query, document) pair. -/
def feat (Q : Fin 20 → Fin 128 → EReal) (D : Fin 200 → Fin 128 → EReal) (k : Fin 21) : EReal :=
  softTF Q D (mu k) (width k)

/-- A dense layer with `relu` in front: `(Σ_k max (x k) 0 · W a k) + b a`. -/
def dense {n p : ℕ} (x : Fin n → EReal) (W : Fin p → Fin n → EReal) (b : Fin p → EReal) (a : Fin p) : EReal :=
  (∑ k, max (x k) 0 * W a k) + b a

/-- The three layers 21 → 10 → 5 → 1. -/
def logit (x : Fin 21 → EReal) (W1 : Fin 10 → Fin 21 → EReal) (b1 : Fin 10 → EReal) (W2 : Fin 5 → Fin 10 → EReal)
    (b2 : Fin 5 → EReal) (W3 : Fin 1 → Fin 5 → EReal) (b3 : Fin 1 → EReal) : EReal :=
  dense (dense (dense x W1 b1) W2 b2) W3 b3 0

/-- The score of a pair of (query, document) pairs. -/
def score (Q1 : Fin 20 → Fin 128 → EReal) (D1 : Fin 200 → Fin 128 → EReal) (Q2 : Fin 20 → Fin 128 → EReal)
    (D2 : Fin 200 → Fin 128 → EReal) (W1 : Fin 10 → Fin 21 → EReal) (b1 : Fin 10 → EReal) (W2 : Fin 5 → Fin 10 → EReal)
    (b2 : Fin 5 → EReal) (W3 : Fin 1 → Fin 5 → EReal) (b3 : Fin 1 → EReal) : EReal :=
  Ideal.logistic (logit (feat Q1 D1) W1 b1 W2 b2 W3 b3 - logit (feat Q2 D2) W1 b1 W2 b2 W3 b3)

/-- The whole result over a batch of `n` rows, as one function of the embedded queries and documents and the
    weights: row `b` of the column is the score of row `b`'s two pairs. Both programs are read against this one
    function, the kernel's block at `n = 32` and the arrays at `n = 1024`. -/
def G (n : ℕ) (q1 : (⟨3, ![n, 20, 128]⟩ : Shape).Idx → EReal) (d1 : (⟨3, ![n, 200, 128]⟩ : Shape).Idx → EReal)
    (q2 : (⟨3, ![n, 20, 128]⟩ : Shape).Idx → EReal) (d2 : (⟨3, ![n, 200, 128]⟩ : Shape).Idx → EReal)
    (W1 : (⟨2, ![10, 21]⟩ : Shape).Idx → EReal) (b1 : (⟨1, ![10]⟩ : Shape).Idx → EReal)
    (W2 : (⟨2, ![5, 10]⟩ : Shape).Idx → EReal) (b2 : (⟨1, ![5]⟩ : Shape).Idx → EReal)
    (W3 : (⟨2, ![1, 5]⟩ : Shape).Idx → EReal) (b3 : (⟨1, ![1]⟩ : Shape).Idx → EReal) :
    (⟨2, ![n, 1]⟩ : Shape).Idx → EReal := fun j =>
  score (fun i e => q1 (ix3 (j 0) i e)) (fun i e => d1 (ix3 (j 0) i e)) (fun i e => q2 (ix3 (j 0) i e))
    (fun i e => d2 (ix3 (j 0) i e)) (fun a k => W1 (ix2 a k)) (fun a => b1 (ix1 a)) (fun a k => W2 (ix2 a k))
    (fun a => b2 (ix1 a)) (fun a k => W3 (ix2 a k)) (fun a => b3 (ix1 a))

/-! ## The two spellings of a bump's exponent -/

/-- `0 - x` is `-x` on the extended reals. -/
theorem zero_sub' (x : EReal) : 0 - x = -x := by
  rw [sub_eq_add_neg, zero_add]

/-- Dividing by the real `2 σ σ` is multiplying by `1 / (2 σ²)`, at every extended real. -/
theorem div_two_sq (x : EReal) (s : ℝ) (hs : s ≠ 0) :
    Ideal.div x (((2 : ℝ) : EReal) * (s : EReal) * (s : EReal)) = x * ((1 / (2 * s * s) : ℝ) : EReal) := by
  rw [← EReal.coe_mul, ← EReal.coe_mul]
  exact Ideal.div_coe (by positivity) x

end Cert.Knrm

end
-- ==== Proof.KerTerms.lean ====
/-
  The kernel body's arithmetic as named functions of the blocks it loads, each written with the body's own operations
  in the body's own order:
    simBlk     the cosine-similarity matrices of the block's 32 batch rows;
    bump       one Gaussian bump of a similarity block, pooled over the document (sum), through log1p, over the query
               (sum): the column the body stores into its scratch for that bump;
    feats      the scratch after the 21 column stores, as ONE function of its index: column `k` is bump `k`;
    hidden     the first two dense layers (a relu in front of each, and one after) of the 32 feature rows;
    logitBlk   the last dense layer;
    outBlk     the logistic of the difference of the two pairs' logits: what the body stores into its output block.
-/
import proofs.«136225_j57483842290258_1_alg».proof.Proof.Gen.KernelIdeal.Skeleton
import proofs.«136225_j57483842290258_1_alg».proof.Proof.Spec

noncomputable section

namespace Cert.KernelIdeal.Terms

open Cert.KernelIdeal Cert.KernelIdeal.Gen Idealize.ShloMosaic Idealize.ShloMosaic.TcCoe Idealize.ShloMosaic.ValueIdx

variable {F : FTy → Type} [FloatOps F] [Named F]

/-- A query's token ids (a negative one wrapped by the table's height) as gather start indices: the host operations
    in front of the kernel. -/
def starts20 (ids : (⟨S1024x20, .i32⟩ : BufTy).Contents (Elt F)) : (⟨S1024x20x1, .i32⟩ : BufTy).Contents (Elt F) :=
  broadcastInDim S1024x20x1 ![0, 1] bcast_S1024x20_S1024x20x1_0_1 (select (cmpi .slt ids (broadcastInDim S1024x20 ![] bcast_S_S1024x20 (constantI S_ 32 0#32))) (addi ids (broadcastInDim S1024x20 ![] bcast_S_S1024x20 (constantI S_ 32 100000#32))) ids)

/-- A document's token ids as gather start indices. -/
def starts200 (ids : (⟨S1024x200, .i32⟩ : BufTy).Contents (Elt F)) : (⟨S1024x200x1, .i32⟩ : BufTy).Contents (Elt F) :=
  broadcastInDim S1024x200x1 ![0, 1] bcast_S1024x200_S1024x200x1_0_1 (select (cmpi .slt ids (broadcastInDim S1024x200 ![] bcast_S_S1024x200 (constantI S_ 32 0#32))) (addi ids (broadcastInDim S1024x200 ![] bcast_S_S1024x200 (constantI S_ 32 100000#32))) ids)

/-- The embedding rows of a query's tokens. -/
def rows20 (emb : (⟨S100000x128, .f32⟩ : BufTy).Contents (Elt F)) (ids : (⟨S1024x20, .i32⟩ : BufTy).Contents (Elt F)) :
    (⟨S1024x20x128, .f32⟩ : BufTy).Contents (Elt F) :=
  Host.gather gather_S100000x128_S1024x20x1_S1024x20x128_2_0_n_n_0_2_1128 emb (starts20 ids)

/-- The embedding rows of a document's tokens. -/
def rows200 (emb : (⟨S100000x128, .f32⟩ : BufTy).Contents (Elt F)) (ids : (⟨S1024x200, .i32⟩ : BufTy).Contents (Elt F)) :
    (⟨S1024x200x128, .f32⟩ : BufTy).Contents (Elt F) :=
  Host.gather gather_S100000x128_S1024x200x1_S1024x200x128_2_0_n_n_0_2_1128 emb (starts200 ids)

/-- The cosine similarities of a block of queries' and documents' embedded tokens. -/
def simBlk (q : Vec F S32x20x128 .bf16) (d : Vec F S32x200x128 .bf16) : FVec F S32x20x200 .f32 := k0_pay2 q d

/-- One pooled Gaussian bump of a similarity block, centre `μ`, inverse width `c`. -/
def bump (M : FVec F S32x20x200 .f32) (μ c : F .f32) : FVec F S32x1 .f32 :=
  shapeCast S32x1 (shapeCast S32x1
    (multiReduction .add [1] S32
      (log1p (multiReduction .add [2] S32x20
        (exp (mulf (subf (broadcast S32x20x200 (Scalar.ofBits .f32 0x00000000#32))
                (mulf (subf M (broadcast S32x20x200 μ)) (subf M (broadcast S32x20x200 μ))))
              (broadcast S32x20x200 c)))
        0x00000000#32 reduces_S32x20x200_S32x20 (.inl rfl) rfl))
      0x00000000#32 reduces_S32x20_S32 (.inl rfl) rfl)
    shapeCasts_S32_S32x1) shapeCasts_S32x1_S32x1

/-- The inverse width the body multiplies bump `k`'s exponent by: a named constant of the program. -/
def widthConst (k : Fin 21) : F .f32 :=
  if k = 20 then Named.named κ "inv_two_exact_sig2" 0x48F423FE#32 else Named.named κ "inv_two_sig2" 0x42480000#32

/-- Column `k` of the scratch: bump `k` of the block's similarities. -/
def column (q : Vec F S32x20x128 .bf16) (d : Vec F S32x200x128 .bf16) (k : Fin 21) : FVec F S32x1 .f32 :=
  bump (simBlk q d) (Scalar.ofBits .f32 (Cert.Knrm.muBits k)) (widthConst k)

/-- The scratch after the 21 column stores, as one function of its index. -/
def feats (q : Vec F S32x20x128 .bf16) (d : Vec F S32x200x128 .bf16) : Vec F S32x21 .f32 :=
  fun j => column q d (j 1) (ix2 (j 0) 0)

/-- The first two dense layers over the 32 feature rows. -/
def hidden (K : Vec F S32x21 .f32) (W1 : Vec F S10x21 .f32) (b1 : Vec F S10 .f32) (W2 : Vec F S5x10 .f32)
    (b2 : Vec F S5 .f32) : FVec F S32x5 .f32 := k0_pay67 K W1 b1 W2 b2

/-- The last dense layer. -/
def logitBlk (h : FVec F S32x5 .f32) (W3 : Vec F S1x5 .f32) (b3 : Vec F S1 .f32) : FVec F S32x1 .f32 :=
  k0_pay69 (k0_pay66 b3) h (k0_pay68 W3) (constant S32x1 .f32 0x00000000#32)

/-- What the body stores into its output block. -/
def outBlk (x0 : Vec F S32x20x128 .bf16) (x1 : Vec F S32x200x128 .bf16) (x2 : Vec F S32x20x128 .bf16)
    (x3 : Vec F S32x200x128 .bf16) (x4 : Vec F S10x21 .f32) (x5 : Vec F S10 .f32) (x6 : Vec F S5x10 .f32)
    (x7 : Vec F S5 .f32) (x8 : Vec F S1x5 .f32) (x9 : Vec F S1 .f32) : Vec F S32x1 .f32 :=
  logistic (subf (logitBlk (hidden (feats x0 x1) x4 x5 x6 x7) x8 x9) (logitBlk (hidden (feats x2 x3) x4 x5 x6 x7) x8 x9))

end Cert.KernelIdeal.Terms

end
-- ==== Proof.KerPieces.lean ====
/-
  What the body's run leaves in its output block: the one whole-block store's payload, read back, is `Terms.outBlk` of the
  loaded blocks. On the way: each of the 42 column stores into the two scratch buffers stores a `Terms.bump` of the block's
  similarities, so each scratch, read back whole after its 21 column stores, is `Terms.feats`.
-/
import proofs.«136225_j57483842290258_1_alg».proof.Proof.Gen.KernelIdeal.Frame
import proofs.«136225_j57483842290258_1_alg».proof.Proof.KerTerms
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.ShloMosaic.ValueIdx
open Idealize.SL Idealize.SL.Sem

variable {F : FTy → Type} [FloatOps F] [Named F]

/-- The zero offsets of a whole-block access, at ranks one to three. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A whole-buffer load after stores whose payloads are all blocks of one function `G` of the buffer's index, and which
    cover the buffer, reads `G`. -/
theorem readCov_whole_of_pieces {sig : RefSig} {κ : Kind} {sp : Space} {S : Shape} {e : EltTy}
    (v : View sig κ sp S e) (L : List (View.Piece (Elt F) S e)) {off : Fin S.rank → Nat} (hz : off = fun _ => 0)
    (inb : ∀ a, off a + S.size a ≤ S.size a) (G : S.Idx → Elt F e)
    (hp : ∀ p ∈ L, ∀ x : p.1.shape.Idx, p.2 x = G (p.1.emb x)) (hc : ∀ y : S.Idx, ∃ p ∈ L, y ∈ p.1.set) :
    v.readCov L (Rect.unit off S.size inb).toLoadRect = G := by
  rw [View.readCov_eq_canon_ld v L _ hc, View.ld_unit_zero hz]
  funext y
  exact View.canon_apply_of_pieces G L hp y (hc y)

/-- The scratch's function at column `n`'s rectangle is column `n`. -/
theorem feats_emb (q : Vec F S32x20x128 .bf16) (d : Vec F S32x200x128 .bf16) (n : ℕ) (hn : n < 21)
    (inb : ∀ a, (![0, n] : Fin 2 → Nat) a + S32x1.size a ≤ S32x21.size a) (x : S32x1.Idx) :
    Terms.feats q d ((Rect.unit (s := S32x21) ![0, n] S32x1.size inb).emb x) = Terms.column q d ⟨n, hn⟩ x := by
  have hx1 : (x 1).val < 1 := (x 1).isLt
  have h1 : ((Rect.unit (s := S32x21) ![0, n] S32x1.size inb).emb x) 1 = (⟨n, hn⟩ : Fin 21) :=
    Fin.ext (by show n + 1 * (x 1).val = n; omega)
  have h0 : (ix2 (((Rect.unit (s := S32x21) ![0, n] S32x1.size inb).emb x) 0) (0 : Fin 1) : S32x1.Idx) = x := by
    funext a
    match a with
    | ⟨0, _⟩ => exact Fin.ext (by show 0 + 1 * (x 0).val = (x 0).val; omega)
    | ⟨1, _⟩ => exact Fin.ext (by show (0 : ℕ) = (x 1).val; omega)
  show Terms.column q d (((Rect.unit (s := S32x21) ![0, n] S32x1.size inb).emb x) 1) (ix2 (((Rect.unit (s := S32x21) ![0, n] S32x1.size inb).emb x) 0) 0) = _
  rw [h1]
  exact congrArg (Terms.column q d ⟨n, hn⟩) h0

/-! Each column store's payload is the uniform bump at its own centre and width. -/

/-- The second pair's similarity block, as the body splits it across its statements. -/
theorem sim2 (q : Vec F S32x20x128 .bf16) (d : Vec F S32x200x128 .bf16) :
    k0_pay36 (k0_pay32 q) (k0_pay33 d) (k0_pay34 q) (k0_pay35 d) = Terms.simBlk q d := rfl

theorem colA_0 (q : Vec F S32x20x128 .bf16) (d : Vec F S32x200x128 .bf16) :
    k0_pay3 q d = Terms.column q d ⟨0, by decide⟩ := rfl
theorem colA_1 (M : FVec F S32x20x200 .f32) :
    k0_pay5 M k0_pay4 = Terms.bump M (Scalar.ofBits .f32 (Cert.Knrm.muBits ⟨1, by decide⟩)) (Terms.widthConst ⟨1, by decide⟩) := rfl
theorem colA_2 (M : FVec F S32x20x200 .f32) :
    k0_pay6 M = Terms.bump M (Scalar.ofBits .f32 (Cert.Knrm.muBits ⟨2, by decide⟩)) (Terms.widthConst ⟨2, by decide⟩) := rfl
theorem colA_3 (M : FVec F S32x20x200 .f32) :
    k0_pay8 (k0_pay7 M) = Terms.bump M (Scalar.ofBits .f32 (Cert.Knrm.muBits ⟨3, by decide⟩)) (Terms.widthConst ⟨3, by decide⟩) := rfl
theorem colA_4 (M : FVec F S32x20x200 .f32) :
    k0_pay9 M = Terms.bump M (Scalar.ofBits .f32 (Cert.Knrm.muBits ⟨4, by decide⟩)) (Terms.widthConst ⟨4, by decide⟩) := rfl
theorem colA_5 (M : FVec F S32x20x200 .f32) :
    k0_pay10 M = Terms.bump M (Scalar.ofBits .f32 (Cert.Knrm.muBits ⟨5, by decide⟩)) (Terms.widthConst ⟨5, by decide⟩) := rfl
theorem colA_6 (M : FVec F S32x20x200 .f32) :
    k0_pay12 (k0_pay11 M) = Terms.bump M (Scalar.ofBits .f32 (Cert.Knrm.muBits ⟨6, by decide⟩)) (Terms.widthConst ⟨6, by decide⟩) := rfl
theorem colA_7 (M : FVec F S32x20x200 .f32) :
    k0_pay13 M = Terms.bump M (Scalar.ofBits .f32 (Cert.Knrm.muBits ⟨7, by decide⟩)) (Terms.widthConst ⟨7, by decide⟩) := rfl
theorem colA_8 (M : FVec F S32x20x200 .f32) :
    k0_pay15 (k0_pay14 M) = Terms.bump M (Scalar.ofBits .f32 (Cert.Knrm.muBits ⟨8, by decide⟩)) (Terms.widthConst ⟨8, by decide⟩) := rfl
theorem colA_9 (M : FVec F S32x20x200 .f32) :
    k0_pay16 M = Terms.bump M (Scalar.ofBits .f32 (Cert.Knrm.muBits ⟨9, by decide⟩)) (Terms.widthConst ⟨9, by decide⟩) := rfl
theorem colA_10 (M : FVec F S32x20x200 .f32) :
    k0_pay17 M = Terms.bump M (Scalar.ofBits .f32 (Cert.Knrm.muBits ⟨10, by decide⟩)) (Terms.widthConst ⟨10, by decide⟩) := rfl
theorem colA_11 (M : FVec F S32x20x200 .f32) :
    k0_pay19 (k0_pay18 M) = Terms.bump M (Scalar.ofBits .f32 (Cert.Knrm.muBits ⟨11, by decide⟩)) (Terms.widthConst ⟨11, by decide⟩) := rfl
theorem colA_12 (M : FVec F S32x20x200 .f32) :
    k0_pay20 M = Terms.bump M (Scalar.ofBits .f32 (Cert.Knrm.muBits ⟨12, by decide⟩)) (Terms.widthConst ⟨12, by decide⟩) := rfl
theorem colA_13 (M : FVec F S32x20x200 .f32) :
    k0_pay21 M = Terms.bump M (Scalar.ofBits .f32 (Cert.Knrm.muBits ⟨13, by decide⟩)) (Terms.widthConst ⟨13, by decide⟩) := rfl
theorem colA_14 (M : FVec F S32x20x200 .f32) :
    k0_pay23 (k0_pay22 M) = Terms.bump M (Scalar.ofBits .f32 (Cert.Knrm.muBits ⟨14, by decide⟩)) (Terms.widthConst ⟨14, by decide⟩) := rfl
theorem colA_15 (M : FVec F S32x20x200 .f32) :
    k0_pay24 M = Terms.bump M (Scalar.ofBits .f32 (Cert.Knrm.muBits ⟨15, by decide⟩)) (Terms.widthConst ⟨15, by decide⟩) := rfl
theorem colA_16 (M : FVec F S32x20x200 .f32) :
    k0_pay26 (k0_pay25 M) = Terms.bump M (Scalar.ofBits .f32 (Cert.Knrm.muBits ⟨16, by decide⟩)) (Terms.widthConst ⟨16, by decide⟩) := rfl
theorem colA_17 (M : FVec F S32x20x200 .f32) :
    k0_pay27 M = Terms.bump M (Scalar.ofBits .f32 (Cert.Knrm.muBits ⟨17, by decide⟩)) (Terms.widthConst ⟨17, by decide⟩) := rfl
theorem colA_18 (M : FVec F S32x20x200 .f32) :
    k0_pay28 M = Terms.bump M (Scalar.ofBits .f32 (Cert.Knrm.muBits ⟨18, by decide⟩)) (Terms.widthConst ⟨18, by decide⟩) := rfl
theorem colA_19 (M : FVec F S32x20x200 .f32) :
    k0_pay30 (k0_pay29 M) (Named.named κ "inv_two_sig2" 0x42480000#32) = Terms.bump M (Scalar.ofBits .f32 (Cert.Knrm.muBits ⟨19, by decide⟩)) (Terms.widthConst ⟨19, by decide⟩) := rfl
theorem colA_20 (M : FVec F S32x20x200 .f32) :
    k0_pay31 M = Terms.bump M (Scalar.ofBits .f32 (Cert.Knrm.muBits ⟨20, by decide⟩)) (Terms.widthConst ⟨20, by decide⟩) := rfl

theorem colB_0 (q : Vec F S32x20x128 .bf16) (d : Vec F S32x200x128 .bf16) :
    k0_pay37 (k0_pay32 q) (k0_pay33 d) (k0_pay34 q) (k0_pay35 d) = Terms.column q d ⟨0, by decide⟩ := rfl
theorem colB_1 (q : Vec F S32x20x128 .bf16) (d : Vec F S32x200x128 .bf16) :
    k0_pay38 (k0_pay32 q) (k0_pay33 d) (k0_pay34 q) (k0_pay35 d) = Terms.column q d ⟨1, by decide⟩ := rfl
theorem colB_2 (M : FVec F S32x20x200 .f32) :
    k0_pay40 M k0_pay39 = Terms.bump M (Scalar.ofBits .f32 (Cert.Knrm.muBits ⟨2, by decide⟩)) (Terms.widthConst ⟨2, by decide⟩) := rfl
theorem colB_3 (M : FVec F S32x20x200 .f32) :
    k0_pay41 M = Terms.bump M (Scalar.ofBits .f32 (Cert.Knrm.muBits ⟨3, by decide⟩)) (Terms.widthConst ⟨3, by decide⟩) := rfl
theorem colB_4 (M : FVec F S32x20x200 .f32) :
    k0_pay43 (k0_pay42 M) = Terms.bump M (Scalar.ofBits .f32 (Cert.Knrm.muBits ⟨4, by decide⟩)) (Terms.widthConst ⟨4, by decide⟩) := rfl
theorem colB_5 (M : FVec F S32x20x200 .f32) :
    k0_pay44 M = Terms.bump M (Scalar.ofBits .f32 (Cert.Knrm.muBits ⟨5, by decide⟩)) (Terms.widthConst ⟨5, by decide⟩) := rfl
theorem colB_6 (M : FVec F S32x20x200 .f32) :
    k0_pay45 M = Terms.bump M (Scalar.ofBits .f32 (Cert.Knrm.muBits ⟨6, by decide⟩)) (Terms.widthConst ⟨6, by decide⟩) := rfl
theorem colB_7 (M : FVec F S32x20x200 .f32) :
    k0_pay47 (k0_pay46 M) = Terms.bump M (Scalar.ofBits .f32 (Cert.Knrm.muBits ⟨7, by decide⟩)) (Terms.widthConst ⟨7, by decide⟩) := rfl
theorem colB_8 (M : FVec F S32x20x200 .f32) :
    k0_pay48 M = Terms.bump M (Scalar.ofBits .f32 (Cert.Knrm.muBits ⟨8, by decide⟩)) (Terms.widthConst ⟨8, by decide⟩) := rfl
theorem colB_9 (M : FVec F S32x20x200 .f32) :
    k0_pay50 (k0_pay49 M) = Terms.bump M (Scalar.ofBits .f32 (Cert.Knrm.muBits ⟨9, by decide⟩)) (Terms.widthConst ⟨9, by decide⟩) := rfl
theorem colB_10 (M : FVec F S32x20x200 .f32) :
    k0_pay51 M = Terms.bump M (Scalar.ofBits .f32 (Cert.Knrm.muBits ⟨10, by decide⟩)) (Terms.widthConst ⟨10, by decide⟩) := rfl
theorem colB_11 (M : FVec F S32x20x200 .f32) :
    k0_pay52 M = Terms.bump M (Scalar.ofBits .f32 (Cert.Knrm.muBits ⟨11, by decide⟩)) (Terms.widthConst ⟨11, by decide⟩) := rfl
theorem colB_12 (M : FVec F S32x20x200 .f32) :
    k0_pay54 (k0_pay53 M) = Terms.bump M (Scalar.ofBits .f32 (Cert.Knrm.muBits ⟨12, by decide⟩)) (Terms.widthConst ⟨12, by decide⟩) := rfl
theorem colB_13 (M : FVec F S32x20x200 .f32) :
    k0_pay55 M = Terms.bump M (Scalar.ofBits .f32 (Cert.Knrm.muBits ⟨13, by decide⟩)) (Terms.widthConst ⟨13, by decide⟩) := rfl
theorem colB_14 (M : FVec F S32x20x200 .f32) :
    k0_pay56 M = Terms.bump M (Scalar.ofBits .f32 (Cert.Knrm.muBits ⟨14, by decide⟩)) (Terms.widthConst ⟨14, by decide⟩) := rfl
theorem colB_15 (M : FVec F S32x20x200 .f32) :
    k0_pay58 (k0_pay57 M) = Terms.bump M (Scalar.ofBits .f32 (Cert.Knrm.muBits ⟨15, by decide⟩)) (Terms.widthConst ⟨15, by decide⟩) := rfl
theorem colB_16 (M : FVec F S32x20x200 .f32) :
    k0_pay59 M = Terms.bump M (Scalar.ofBits .f32 (Cert.Knrm.muBits ⟨16, by decide⟩)) (Terms.widthConst ⟨16, by decide⟩) := rfl
theorem colB_17 (M : FVec F S32x20x200 .f32) :
    k0_pay61 (k0_pay60 M) = Terms.bump M (Scalar.ofBits .f32 (Cert.Knrm.muBits ⟨17, by decide⟩)) (Terms.widthConst ⟨17, by decide⟩) := rfl
theorem colB_18 (M : FVec F S32x20x200 .f32) :
    k0_pay62 M = Terms.bump M (Scalar.ofBits .f32 (Cert.Knrm.muBits ⟨18, by decide⟩)) (Terms.widthConst ⟨18, by decide⟩) := rfl
theorem colB_19 (M : FVec F S32x20x200 .f32) :
    k0_pay63 M = Terms.bump M (Scalar.ofBits .f32 (Cert.Knrm.muBits ⟨19, by decide⟩)) (Terms.widthConst ⟨19, by decide⟩) := rfl
theorem colB_20 (M : FVec F S32x20x200 .f32) :
    k0_pay65 (k0_pay64 M) (Named.named κ "inv_two_exact_sig2" 0x48F423FE#32) = Terms.bump M (Scalar.ofBits .f32 (Cert.Knrm.muBits ⟨20, by decide⟩)) (Terms.widthConst ⟨20, by decide⟩) := rfl

/-- The output block after the body, at any memrefs and any loaded blocks, is `Terms.outBlk` of the blocks. -/
theorem out0_A_10_eq (c : Dev nD) (i : grid0.Coords) (arg1 : Memref sig .tc .vmem S32x20x128 .bf16) (harg1 : arg1.IsWhole) (arg2 : Memref sig .tc .vmem S32x200x128 .bf16) (harg2 : arg2.IsWhole) (arg3 : Memref sig .tc .vmem S32x20x128 .bf16) (harg3 : arg3.IsWhole) (arg4 : Memref sig .tc .vmem S32x200x128 .bf16) (harg4 : arg4.IsWhole) (arg5 : Memref sig .tc .vmem S10x21 .f32) (harg5 : arg5.IsWhole) (arg6 : Memref sig .tc .vmem S10 .f32) (harg6 : arg6.IsWhole) (arg7 : Memref sig .tc .vmem S5x10 .f32) (harg7 : arg7.IsWhole) (arg8 : Memref sig .tc .vmem S5 .f32) (harg8 : arg8.IsWhole) (arg9 : Memref sig .tc .vmem S1x5 .f32) (harg9 : arg9.IsWhole) (arg10 : Memref sig .tc .vmem S1 .f32) (harg10 : arg10.IsWhole) (arg11 : Memref sig .tc .vmem S32x1 .f32) (harg11 : arg11.IsWhole) (arg12 : Memref sig .tc .vmem S32x21 .f32) (harg12 : arg12.IsWhole) (arg13 : Memref sig .tc .vmem S32x21 .f32) (harg13 : arg13.IsWhole)
    (x0 : Vec F S32x20x128 .bf16) (x1 : Vec F S32x200x128 .bf16) (x2 : Vec F S32x20x128 .bf16) (x3 : Vec F S32x200x128 .bf16) (x4 : Vec F S10x21 .f32) (x5 : Vec F S10 .f32) (x6 : Vec F S5x10 .f32) (x7 : Vec F S5 .f32) (x8 : Vec F S1x5 .f32) (x9 : Vec F S1 .f32) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = Terms.outBlk x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S32x20x128) hz3, View.ld_unit_zero (S := S32x200x128) hz3, View.ld_unit_zero (S := S10x21) hz2,
    View.ld_unit_zero (S := S10) hz1, View.ld_unit_zero (S := S5x10) hz2, View.ld_unit_zero (S := S5) hz1,
    View.ld_unit_zero (S := S1x5) hz2, View.ld_unit_zero (S := S1) hz1]
  rw [readCov_whole_of_pieces arg12.view _ hz2 _ (Terms.feats x0 x1) ?hp0 ?hc0,
    readCov_whole_of_pieces arg13.view _ hz2 _ (Terms.feats x2 x3) ?hp1 ?hc1]
  · rfl
  case hp0 =>
    intro p hp x
    simp only [List.mem_cons, List.mem_nil_iff, or_false] at hp
    obtain rfl | rfl | rfl | rfl | rfl | rfl | rfl | rfl | rfl | rfl | rfl | rfl | rfl | rfl | rfl | rfl | rfl | rfl | rfl | rfl | rfl := hp
    · exact (congrFun (colA_20 (Terms.simBlk x0 x1)) x).trans (feats_emb x0 x1 20 (by decide) inb_S32x21_S32x1_0_20 x).symm
    · exact (congrFun (colA_19 (Terms.simBlk x0 x1)) x).trans (feats_emb x0 x1 19 (by decide) inb_S32x21_S32x1_0_19 x).symm
    · exact (congrFun (colA_18 (Terms.simBlk x0 x1)) x).trans (feats_emb x0 x1 18 (by decide) inb_S32x21_S32x1_0_18 x).symm
    · exact (congrFun (colA_17 (Terms.simBlk x0 x1)) x).trans (feats_emb x0 x1 17 (by decide) inb_S32x21_S32x1_0_17 x).symm
    · exact (congrFun (colA_16 (Terms.simBlk x0 x1)) x).trans (feats_emb x0 x1 16 (by decide) inb_S32x21_S32x1_0_16 x).symm
    · exact (congrFun (colA_15 (Terms.simBlk x0 x1)) x).trans (feats_emb x0 x1 15 (by decide) inb_S32x21_S32x1_0_15 x).symm
    · exact (congrFun (colA_14 (Terms.simBlk x0 x1)) x).trans (feats_emb x0 x1 14 (by decide) inb_S32x21_S32x1_0_14 x).symm
    · exact (congrFun (colA_13 (Terms.simBlk x0 x1)) x).trans (feats_emb x0 x1 13 (by decide) inb_S32x21_S32x1_0_13 x).symm
    · exact (congrFun (colA_12 (Terms.simBlk x0 x1)) x).trans (feats_emb x0 x1 12 (by decide) inb_S32x21_S32x1_0_12 x).symm
    · exact (congrFun (colA_11 (Terms.simBlk x0 x1)) x).trans (feats_emb x0 x1 11 (by decide) inb_S32x21_S32x1_0_11 x).symm
    · exact (congrFun (colA_10 (Terms.simBlk x0 x1)) x).trans (feats_emb x0 x1 10 (by decide) inb_S32x21_S32x1_0_10 x).symm
    · exact (congrFun (colA_9 (Terms.simBlk x0 x1)) x).trans (feats_emb x0 x1 9 (by decide) inb_S32x21_S32x1_0_9 x).symm
    · exact (congrFun (colA_8 (Terms.simBlk x0 x1)) x).trans (feats_emb x0 x1 8 (by decide) inb_S32x21_S32x1_0_8 x).symm
    · exact (congrFun (colA_7 (Terms.simBlk x0 x1)) x).trans (feats_emb x0 x1 7 (by decide) inb_S32x21_S32x1_0_7 x).symm
    · exact (congrFun (colA_6 (Terms.simBlk x0 x1)) x).trans (feats_emb x0 x1 6 (by decide) inb_S32x21_S32x1_0_6 x).symm
    · exact (congrFun (colA_5 (Terms.simBlk x0 x1)) x).trans (feats_emb x0 x1 5 (by decide) inb_S32x21_S32x1_0_5 x).symm
    · exact (congrFun (colA_4 (Terms.simBlk x0 x1)) x).trans (feats_emb x0 x1 4 (by decide) inb_S32x21_S32x1_0_4 x).symm
    · exact (congrFun (colA_3 (Terms.simBlk x0 x1)) x).trans (feats_emb x0 x1 3 (by decide) inb_S32x21_S32x1_0_3 x).symm
    · exact (congrFun (colA_2 (Terms.simBlk x0 x1)) x).trans (feats_emb x0 x1 2 (by decide) inb_S32x21_S32x1_0_2 x).symm
    · exact (congrFun (colA_1 (Terms.simBlk x0 x1)) x).trans (feats_emb x0 x1 1 (by decide) inb_S32x21_S32x1_0_1 x).symm
    · exact (congrFun (colA_0 x0 x1) x).trans (feats_emb x0 x1 0 (by decide) inb_S32x21_S32x1_0_0 x).symm

  case hc0 => exact View.cover_of_tiledL _ S32x1.size (by sl_kernel_rfl)
  case hp1 =>
    intro p hp x
    simp only [List.mem_cons, List.mem_nil_iff, or_false] at hp
    obtain rfl | rfl | rfl | rfl | rfl | rfl | rfl | rfl | rfl | rfl | rfl | rfl | rfl | rfl | rfl | rfl | rfl | rfl | rfl | rfl | rfl := hp
    · exact (congrFun (colB_20 (Terms.simBlk x2 x3)) x).trans (feats_emb x2 x3 20 (by decide) inb_S32x21_S32x1_0_20 x).symm
    · exact (congrFun (colB_19 (Terms.simBlk x2 x3)) x).trans (feats_emb x2 x3 19 (by decide) inb_S32x21_S32x1_0_19 x).symm
    · exact (congrFun (colB_18 (Terms.simBlk x2 x3)) x).trans (feats_emb x2 x3 18 (by decide) inb_S32x21_S32x1_0_18 x).symm
    · exact (congrFun (colB_17 (Terms.simBlk x2 x3)) x).trans (feats_emb x2 x3 17 (by decide) inb_S32x21_S32x1_0_17 x).symm
    · exact (congrFun (colB_16 (Terms.simBlk x2 x3)) x).trans (feats_emb x2 x3 16 (by decide) inb_S32x21_S32x1_0_16 x).symm
    · exact (congrFun (colB_15 (Terms.simBlk x2 x3)) x).trans (feats_emb x2 x3 15 (by decide) inb_S32x21_S32x1_0_15 x).symm
    · exact (congrFun (colB_14 (Terms.simBlk x2 x3)) x).trans (feats_emb x2 x3 14 (by decide) inb_S32x21_S32x1_0_14 x).symm
    · exact (congrFun (colB_13 (Terms.simBlk x2 x3)) x).trans (feats_emb x2 x3 13 (by decide) inb_S32x21_S32x1_0_13 x).symm
    · exact (congrFun (colB_12 (Terms.simBlk x2 x3)) x).trans (feats_emb x2 x3 12 (by decide) inb_S32x21_S32x1_0_12 x).symm
    · exact (congrFun (colB_11 (Terms.simBlk x2 x3)) x).trans (feats_emb x2 x3 11 (by decide) inb_S32x21_S32x1_0_11 x).symm
    · exact (congrFun (colB_10 (Terms.simBlk x2 x3)) x).trans (feats_emb x2 x3 10 (by decide) inb_S32x21_S32x1_0_10 x).symm
    · exact (congrFun (colB_9 (Terms.simBlk x2 x3)) x).trans (feats_emb x2 x3 9 (by decide) inb_S32x21_S32x1_0_9 x).symm
    · exact (congrFun (colB_8 (Terms.simBlk x2 x3)) x).trans (feats_emb x2 x3 8 (by decide) inb_S32x21_S32x1_0_8 x).symm
    · exact (congrFun (colB_7 (Terms.simBlk x2 x3)) x).trans (feats_emb x2 x3 7 (by decide) inb_S32x21_S32x1_0_7 x).symm
    · exact (congrFun (colB_6 (Terms.simBlk x2 x3)) x).trans (feats_emb x2 x3 6 (by decide) inb_S32x21_S32x1_0_6 x).symm
    · exact (congrFun (colB_5 (Terms.simBlk x2 x3)) x).trans (feats_emb x2 x3 5 (by decide) inb_S32x21_S32x1_0_5 x).symm
    · exact (congrFun (colB_4 (Terms.simBlk x2 x3)) x).trans (feats_emb x2 x3 4 (by decide) inb_S32x21_S32x1_0_4 x).symm
    · exact (congrFun (colB_3 (Terms.simBlk x2 x3)) x).trans (feats_emb x2 x3 3 (by decide) inb_S32x21_S32x1_0_3 x).symm
    · exact (congrFun (colB_2 (Terms.simBlk x2 x3)) x).trans (feats_emb x2 x3 2 (by decide) inb_S32x21_S32x1_0_2 x).symm
    · exact (congrFun (colB_1 x2 x3) x).trans (feats_emb x2 x3 1 (by decide) inb_S32x21_S32x1_0_1 x).symm
    · exact (congrFun (colB_0 x2 x3) x).trans (feats_emb x2 x3 0 (by decide) inb_S32x21_S32x1_0_0 x).symm

  case hc1 => exact View.cover_of_tiledL _ S32x1.size (by sl_kernel_rfl)

end Cert.KernelIdeal.Pieces

end
-- ==== Proof.KerPool.lean ====
/-
  The kernel's scratch contents read at an index: entry (r, k) of `Terms.feats q d` is bump `k` of block row `r`'s
  similarity matrix pooled over the document and the query, `Knrm.feat`.
-/
import proofs.«136225_j57483842290258_1_alg».proof.Proof.KerTerms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Read.Pool

open Cert.KernelIdeal Cert.KernelIdeal.Gen Idealize.ShloMosaic Idealize.ShloMosaic.TcCoe Idealize.ShloMosaic.ValueIdx

/-! ## Sums over one axis, at explicit coordinates -/

/-- The sum over the 128 lanes of a query block, at (r, i). -/
theorem sumLanes20 (src : FVec Ideal S32x20x128 .f32) (hφ : FKind.Formats .f32)
    (hacc : (0x00000000#32 : BitVec 32) = 0x00000000#32) (r : Fin 32) (i : Fin 20) :
    multiReduction (F := Ideal) .add [2] S32x20 src 0x00000000#32 reduces_S32x20x128_S32x20 hφ hacc (ix2 r i)
      = ∑ e : Fin 128, src (ix3 r i e) := by
  refine (Ideal.multiReduction_add_single src 0x00000000#32 reduces_S32x20x128_S32x20 hφ hacc (ix2 r i)).trans ?_
  refine Finset.sum_congr rfl fun e _ => congrArg src ?_
  funext a
  match a with
  | ⟨0, _⟩ => rfl
  | ⟨1, _⟩ => rfl
  | ⟨2, _⟩ => rfl

/-- The sum over the 128 lanes of a document block, at (r, j). -/
theorem sumLanes200 (src : FVec Ideal S32x200x128 .f32) (hφ : FKind.Formats .f32)
    (hacc : (0x00000000#32 : BitVec 32) = 0x00000000#32) (r : Fin 32) (j : Fin 200) :
    multiReduction (F := Ideal) .add [2] S32x200 src 0x00000000#32 reduces_S32x200x128_S32x200 hφ hacc (ix2 r j)
      = ∑ e : Fin 128, src (ix3 r j e) := by
  refine (Ideal.multiReduction_add_single src 0x00000000#32 reduces_S32x200x128_S32x200 hφ hacc (ix2 r j)).trans ?_
  refine Finset.sum_congr rfl fun e _ => congrArg src ?_
  funext a
  match a with
  | ⟨0, _⟩ => rfl
  | ⟨1, _⟩ => rfl
  | ⟨2, _⟩ => rfl

/-- The sum over the document axis of a similarity-shaped block, at (r, i). -/
theorem sumDoc (src : FVec Ideal S32x20x200 .f32) (hφ : FKind.Formats .f32)
    (hacc : (0x00000000#32 : BitVec 32) = 0x00000000#32) (r : Fin 32) (i : Fin 20) :
    multiReduction (F := Ideal) .add [2] S32x20 src 0x00000000#32 reduces_S32x20x200_S32x20 hφ hacc (ix2 r i)
      = ∑ j : Fin 200, src (ix3 r i j) := by
  refine (Ideal.multiReduction_add_single src 0x00000000#32 reduces_S32x20x200_S32x20 hφ hacc (ix2 r i)).trans ?_
  refine Finset.sum_congr rfl fun e _ => congrArg src ?_
  funext a
  match a with
  | ⟨0, _⟩ => rfl
  | ⟨1, _⟩ => rfl
  | ⟨2, _⟩ => rfl

/-- The sum over the query axis, at r. -/
theorem sumQuery (src : FVec Ideal S32x20 .f32) (hφ : FKind.Formats .f32)
    (hacc : (0x00000000#32 : BitVec 32) = 0x00000000#32) (r : Fin 32) :
    multiReduction (F := Ideal) .add [1] S32 src 0x00000000#32 reduces_S32x20_S32 hφ hacc (ix1 r)
      = ∑ i : Fin 20, src (ix2 r i) := by
  refine (Ideal.multiReduction_add_single src 0x00000000#32 reduces_S32x20_S32 hφ hacc (ix1 r)).trans ?_
  refine Finset.sum_congr rfl fun e _ => congrArg src ?_
  funext a
  match a with
  | ⟨0, _⟩ => rfl
  | ⟨1, _⟩ => rfl

/-! ## The keepdims casts and their broadcasts, at explicit coordinates -/

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, b, 1]` array broadcast to `[a, b, c]` reads, at `(p, q, t)`, the operand at `(p, q, 0)`. -/
theorem broadcastTo_ab1_abc_apply {a b c : ℕ} (hb : b ≠ 1) (ha : a ≠ 1) (v : (⟨3, ![a, b, 1]⟩ : Shape).Idx → α)
    (h : (⟨3, ![a, b, 1]⟩ : Shape).Broadcasts ⟨3, ![a, b, c]⟩) (p : Fin a) (q : Fin b) (t : Fin c) :
    broadcastTo ⟨3, ![a, b, c]⟩ v h (ix3 p q t) = v (ix3 p q (0 : Fin 1)) := by
  refine broadcastTo_apply v h (ix3 p q t) (ix3 p q (0 : Fin 1)) fun ax => ?_
  match ax with
  | ⟨0, _⟩ =>
    show p.val = if a = 1 then 0 else p.val
    rw [if_neg ha]
  | ⟨1, _⟩ =>
    show q.val = if b = 1 then 0 else q.val
    rw [if_neg hb]
  | ⟨2, _⟩ => rfl

/-- An `[a, 1, c]` array broadcast to `[a, b, c]` reads, at `(p, q, t)`, the operand at `(p, 0, t)`. -/
theorem broadcastTo_a1c_abc_apply {a b c : ℕ} (hc : c ≠ 1) (ha : a ≠ 1) (v : (⟨3, ![a, 1, c]⟩ : Shape).Idx → α)
    (h : (⟨3, ![a, 1, c]⟩ : Shape).Broadcasts ⟨3, ![a, b, c]⟩) (p : Fin a) (q : Fin b) (t : Fin c) :
    broadcastTo ⟨3, ![a, b, c]⟩ v h (ix3 p q t) = v (ix3 p (0 : Fin 1) t) := by
  refine broadcastTo_apply v h (ix3 p q t) (ix3 p (0 : Fin 1) t) fun ax => ?_
  match ax with
  | ⟨0, _⟩ =>
    show p.val = if a = 1 then 0 else p.val
    rw [if_neg ha]
  | ⟨1, _⟩ => rfl
  | ⟨2, _⟩ =>
    show t.val = if c = 1 then 0 else t.val
    rw [if_neg hc]

/-! ## The block product

The operand indices of the batched product (batch axis 0, both operands contracted over their lane axis 2), axis by axis. -/

theorem lhs_ax0 (y : S32x20x200.Idx) (k : dot_S32x20x128_S32x200x128_S32x20x200_2_2_1_1_0_0.contr.Idx) :
    (dot_S32x20x128_S32x200x128_S32x20x200_2_2_1_1_0_0.lhsIdx y k 0).val = (y 0).val := by
  unfold DotDims.lhsIdx
  rw [dif_pos (show (0 : Fin S32x20x128.rank) ∈ dot_S32x20x128_S32x200x128_S32x20x200_2_2_1_1_0_0.lhsBatch by decide)]
  rfl

theorem lhs_ax1 (y : S32x20x200.Idx) (k : dot_S32x20x128_S32x200x128_S32x20x200_2_2_1_1_0_0.contr.Idx) :
    (dot_S32x20x128_S32x200x128_S32x20x200_2_2_1_1_0_0.lhsIdx y k 1).val = (y 1).val := by
  unfold DotDims.lhsIdx
  rw [dif_neg (show ¬(1 : Fin S32x20x128.rank) ∈ dot_S32x20x128_S32x200x128_S32x20x200_2_2_1_1_0_0.lhsBatch by decide),
    dif_pos (show (1 : Fin S32x20x128.rank) ∈ dot_S32x20x128_S32x200x128_S32x20x200_2_2_1_1_0_0.lhsNonContracting by decide)]
  rfl

theorem lhs_ax2 (y : S32x20x200.Idx) (k : dot_S32x20x128_S32x200x128_S32x20x200_2_2_1_1_0_0.contr.Idx) :
    (dot_S32x20x128_S32x200x128_S32x20x200_2_2_1_1_0_0.lhsIdx y k 2).val = (k ⟨0, by decide⟩).val :=
  DotDims.lhsIdx_val_of_single _ rfl y k

theorem rhs_ax0 (y : S32x20x200.Idx) (k : dot_S32x20x128_S32x200x128_S32x20x200_2_2_1_1_0_0.contr.Idx) :
    (dot_S32x20x128_S32x200x128_S32x20x200_2_2_1_1_0_0.rhsIdx y k 0).val = (y 0).val := by
  unfold DotDims.rhsIdx
  rw [dif_pos (show (0 : Fin S32x200x128.rank) ∈ dot_S32x20x128_S32x200x128_S32x20x200_2_2_1_1_0_0.rhsBatch by decide)]
  rfl

theorem rhs_ax1 (y : S32x20x200.Idx) (k : dot_S32x20x128_S32x200x128_S32x20x200_2_2_1_1_0_0.contr.Idx) :
    (dot_S32x20x128_S32x200x128_S32x20x200_2_2_1_1_0_0.rhsIdx y k 1).val = (y 2).val := by
  unfold DotDims.rhsIdx
  rw [dif_neg (show ¬(1 : Fin S32x200x128.rank) ∈ dot_S32x20x128_S32x200x128_S32x20x200_2_2_1_1_0_0.rhsBatch by decide),
    dif_pos (show (1 : Fin S32x200x128.rank) ∈ dot_S32x20x128_S32x200x128_S32x20x200_2_2_1_1_0_0.rhsNonContracting by decide)]
  rfl

theorem rhs_ax2 (y : S32x20x200.Idx) (k : dot_S32x20x128_S32x200x128_S32x20x200_2_2_1_1_0_0.contr.Idx) :
    (dot_S32x20x128_S32x200x128_S32x20x200_2_2_1_1_0_0.rhsIdx y k 2).val = (k ⟨0, by decide⟩).val :=
  DotDims.rhsIdx_val_of_single _ rfl y k

/-- The block product at (r, i, j): the dot product of query token i and document token j of row r. -/
theorem dotBlk_apply (A : FVec Ideal S32x20x128 .bf16) (B : FVec Ideal S32x200x128 .bf16) (r : Fin 32) (i : Fin 20)
    (j : Fin 200) :
    matmul dot_S32x20x128_S32x200x128_S32x20x200_2_2_1_1_0_0 none A B (constant (F := Ideal) S32x20x200 .f32 0x00000000#32)
        (ix3 r i j)
      = ∑ e : Fin 128, A (ix3 r i e) * B (ix3 r j e) := by
  show FloatOps.matmul _ none A B _ (ix3 r i j) = _
  rw [Ideal.matmul_constant_zero_apply,
    ← Equiv.sum_comp (contrEquiv1 dot_S32x20x128_S32x200x128_S32x20x200_2_2_1_1_0_0 128 rfl rfl).symm]
  refine Finset.sum_congr rfl fun e _ => ?_
  have hk := contrEquiv1_symm_val dot_S32x20x128_S32x200x128_S32x20x200_2_2_1_1_0_0 128 rfl rfl e
  have hl : dot_S32x20x128_S32x200x128_S32x20x200_2_2_1_1_0_0.lhsIdx (ix3 r i j)
      ((contrEquiv1 dot_S32x20x128_S32x200x128_S32x20x200_2_2_1_1_0_0 128 rfl rfl).symm e) = ix3 r i e := by
    funext a; apply Fin.ext
    match a with
    | ⟨0, _⟩ => exact lhs_ax0 _ _
    | ⟨1, _⟩ => exact lhs_ax1 _ _
    | ⟨2, _⟩ => exact (lhs_ax2 _ _).trans hk
  have hr : dot_S32x20x128_S32x200x128_S32x20x200_2_2_1_1_0_0.rhsIdx (ix3 r i j)
      ((contrEquiv1 dot_S32x20x128_S32x200x128_S32x20x200_2_2_1_1_0_0 128 rfl rfl).symm e) = ix3 r j e := by
    funext a; apply Fin.ext
    match a with
    | ⟨0, _⟩ => exact rhs_ax0 _ _
    | ⟨1, _⟩ => exact rhs_ax1 _ _
    | ⟨2, _⟩ => exact (rhs_ax2 _ _).trans hk
  rw [hl, hr]

/-! ## The unary operations at an index -/

/-- A square root at an index is the extended reals' square root of the element. -/
theorem sqrt_apply {s : Shape} {φ : FTy} (a : FVec Ideal s φ) (i : s.Idx) : sqrt a i = Ideal.sqrt (a i) := rfl
/-- An exponential at an index is the extended reals' exponential of the element. -/
theorem exp_apply {s : Shape} {φ : FTy} (a : FVec Ideal s φ) (i : s.Idx) : exp a i = Ideal.exp (a i) := rfl
/-- A `log1p` at an index is the extended reals' `log1p` of the element. -/
theorem log1p_apply {s : Shape} {φ : FTy} (a : FVec Ideal s φ) (i : s.Idx) : log1p a i = Ideal.log1p (a i) := rfl

/-! ## The body's three stretches -/

/-- The cosine similarities at (r, i, j): those of query token i and document token j of row r. -/
theorem simBlk_apply (q : FVec Ideal S32x20x128 .bf16) (d : FVec Ideal S32x200x128 .bf16) (r : Fin 32) (i : Fin 20)
    (j : Fin 200) :
    Terms.simBlk (F := Ideal) q d (ix3 r i j)
      = Cert.Knrm.cosSim (fun e => q (ix3 r i e)) (fun e => d (ix3 r j e)) := by
  unfold Terms.simBlk Gen.k0_pay2
  simp only [shapeCast_self]
  rw [divf_apply, mulf_apply, dotBlk_apply,
    broadcastTo_ab1_abc_apply (by decide) (by decide), broadcastTo_a1c_abc_apply (by decide) (by decide),
    shapeCast_ab_ab1_apply, shapeCast_ab_a1b_apply,
    sqrt_apply, sqrt_apply, addf_apply, addf_apply, sumLanes20, sumLanes200, broadcast_apply, broadcast_apply]
  simp only [mulf_apply, extf_apply]
  rfl

/-- One pooled bump at (r, 0): the sum over the query of `log1p` of the sum over the document of the Gaussian of the
    block's entries. -/
theorem bump_apply (M : FVec Ideal S32x20x200 .f32) (μ c : Ideal .f32) (r : Fin 32) (u : Fin 1) :
    Terms.bump (F := Ideal) M μ c (ix2 r u)
      = ∑ i : Fin 20, Ideal.log1p (∑ j : Fin 200, Ideal.exp (-((M (ix3 r i j) - μ) * (M (ix3 r i j) - μ)) * c)) := by
  unfold Terms.bump
  rw [shapeCast_self, shapeCast_a_a1_apply, sumQuery]
  refine Finset.sum_congr rfl fun i _ => ?_
  rw [log1p_apply, sumDoc]
  refine congrArg Ideal.log1p (Finset.sum_congr rfl fun j _ => ?_)
  rw [exp_apply, mulf_apply, subf_apply, mulf_apply, subf_apply, broadcast_apply, broadcast_apply, broadcast_apply]
  show Ideal.exp ((Ideal.ofBits .f32 0x00000000#32 - (M (ix3 r i j) - μ) * (M (ix3 r i j) - μ)) * c) = _
  rw [Ideal.ofBits_zero_f32, Cert.Knrm.zero_sub']

/-- The two named inverse widths are the rationals the specification carries. -/
theorem widthConst_eq (k : Fin 21) : Terms.widthConst (F := Ideal) k = Cert.Knrm.width k := by
  unfold Terms.widthConst Cert.Knrm.width
  by_cases hk : k = 20
  · rw [if_pos hk, if_pos hk]
    exact IdealRules.named_const.ideal_named_scalar _ _ _ _ rfl
  · rw [if_neg hk, if_neg hk]
    exact IdealRules.named_const.ideal_named_scalar _ _ _ _ rfl

end Cert.KernelIdeal.Read.Pool

namespace Cert.KernelIdeal.Read

open Cert.KernelIdeal Cert.KernelIdeal.Gen Idealize.ShloMosaic Idealize.ShloMosaic.TcCoe Idealize.ShloMosaic.ValueIdx

open Pool

/-- Entry (r, k) of the scratch is `Knrm.feat` of block row `r`'s embedded query and document. -/
theorem feats_apply (q : FVec Ideal S32x20x128 .bf16) (d : FVec Ideal S32x200x128 .bf16) (r : Fin 32) (k : Fin 21) :
    Terms.feats (F := Ideal) q d (ix2 r k)
      = Cert.Knrm.feat (fun i e => q (ix3 r i e)) (fun j e => d (ix3 r j e)) k := by
  show Terms.column (F := Ideal) q d k (ix2 r (0 : Fin 1)) = _
  unfold Terms.column
  rw [bump_apply, widthConst_eq]
  unfold Cert.Knrm.feat Cert.Knrm.softTF
  simp only [simBlk_apply]
  rfl

end Cert.KernelIdeal.Read

end
-- ==== Proof.KerRead.lean ====
/-
  The kernel's output block read at an index: the dense layers at a block row, and with the scratch contents (KerPool) the
  whole block as the function `Knrm.G 32` of the loaded blocks.
-/
import proofs.«136225_j57483842290258_1_alg».proof.Proof.KerPool

noncomputable section

namespace Cert.KernelIdeal.Read

open Cert.KernelIdeal Cert.KernelIdeal.Gen Idealize.ShloMosaic Idealize.ShloMosaic.TcCoe Idealize.ShloMosaic.ValueIdx

/-! ### The contraction 21 → 10: its operand indices, axis by axis -/

theorem lhs_21_10_0 (j : S32x10.Idx) (k : dot_S32x21_S21x10_S32x10_1_0_0_1_n_n.contr.Idx) :
    (dot_S32x21_S21x10_S32x10_1_0_0_1_n_n.lhsIdx j k 0 : ℕ) = j 0 := by
  simp [DotDims.lhsIdx, dot_S32x21_S21x10_S32x10_1_0_0_1_n_n]; rfl
theorem lhs_21_10_1 (j : S32x10.Idx) (k : dot_S32x21_S21x10_S32x10_1_0_0_1_n_n.contr.Idx) :
    (dot_S32x21_S21x10_S32x10_1_0_0_1_n_n.lhsIdx j k 1 : ℕ) = k ⟨0, by decide⟩ := by
  simp [DotDims.lhsIdx, dot_S32x21_S21x10_S32x10_1_0_0_1_n_n]; rfl
theorem rhs_21_10_0 (j : S32x10.Idx) (k : dot_S32x21_S21x10_S32x10_1_0_0_1_n_n.contr.Idx) :
    (dot_S32x21_S21x10_S32x10_1_0_0_1_n_n.rhsIdx j k 0 : ℕ) = k ⟨0, by decide⟩ := by
  simp [DotDims.rhsIdx, dot_S32x21_S21x10_S32x10_1_0_0_1_n_n]; rfl
theorem rhs_21_10_1 (j : S32x10.Idx) (k : dot_S32x21_S21x10_S32x10_1_0_0_1_n_n.contr.Idx) :
    (dot_S32x21_S21x10_S32x10_1_0_0_1_n_n.rhsIdx j k 1 : ℕ) = j 1 := by
  simp [DotDims.rhsIdx, dot_S32x21_S21x10_S32x10_1_0_0_1_n_n]; rfl

/-- The product into a zero accumulator, read at row `r` and column `a`: the sum over the 21 contracted positions. -/
theorem matmul_21_10_apply (x : FVec Ideal S32x21 .f32) (w : FVec Ideal S21x10 .f32) (r : Fin 32) (a : Fin 10) :
    matmul dot_S32x21_S21x10_S32x10_1_0_0_1_n_n (some .fp32) x w (constant (F := Ideal) S32x10 .f32 0x00000000#32) (ix2 r a)
      = ∑ κ : Fin 21, x (ix2 r κ) * w (ix2 κ a) := by
  refine (Ideal.matmul_constant_zero_apply _ _ _ _ _).trans ?_
  rw [← Equiv.sum_comp (contrEquiv1 dot_S32x21_S21x10_S32x10_1_0_0_1_n_n 21 rfl rfl).symm]
  refine Finset.sum_congr rfl fun κ _ => ?_
  congr 2
  · apply Shape.idx_ext₂
    · exact lhs_21_10_0 _ _
    · exact (lhs_21_10_1 _ _).trans (contrEquiv1_symm_val _ _ _ _ κ)
  · apply Shape.idx_ext₂
    · exact (rhs_21_10_0 _ _).trans (contrEquiv1_symm_val _ _ _ _ κ)
    · exact rhs_21_10_1 _ _

/-- One dense layer 21 → 10 of the body, read at row `r` and column `a`: `Knrm.dense` of row `r`. -/
theorem layer_21_10_apply (x : FVec Ideal S32x21 .f32) (W : FVec Ideal S10x21 .f32) (b : FVec Ideal S10 .f32) (r : Fin 32) (a : Fin 10) :
    addf (matmul dot_S32x21_S21x10_S32x10_1_0_0_1_n_n (some .fp32)
          (maximumf x (broadcast S32x21 (Scalar.ofBits (F := Ideal) .f32 0x00000000#32)))
          (transpose S21x10 [1, 0] W transposes_S10x21_p1_0_S21x10)
          (constant (F := Ideal) S32x10 .f32 0x00000000#32))
        (broadcastTo S32x10 (shapeCast S1x10 b shapeCasts_S10_S1x10) broadcasts_S1x10_S32x10) (ix2 r a)
      = Cert.Knrm.dense (fun κ => x (ix2 r κ)) (fun a κ => W (ix2 a κ)) (fun a => b (ix1 a)) a := by
  rw [addf_apply, matmul_21_10_apply, broadcastTo_1b_ab_apply, shapeCast_a_1a_apply]
  unfold Cert.Knrm.dense
  refine congrArg (· + b (ix1 a)) (Finset.sum_congr rfl fun κ _ => ?_)
  rw [maximumf_apply, broadcast_apply, transpose_ix2_apply]
  exact congrArg (fun z => max (x (ix2 r κ)) z * W (ix2 a κ)) Ideal.ofBits_zero_f32

/-! ### The contraction 10 → 5: its operand indices, axis by axis -/

theorem lhs_10_5_0 (j : S32x5.Idx) (k : dot_S32x10_S10x5_S32x5_1_0_0_1_n_n.contr.Idx) :
    (dot_S32x10_S10x5_S32x5_1_0_0_1_n_n.lhsIdx j k 0 : ℕ) = j 0 := by
  simp [DotDims.lhsIdx, dot_S32x10_S10x5_S32x5_1_0_0_1_n_n]; rfl
theorem lhs_10_5_1 (j : S32x5.Idx) (k : dot_S32x10_S10x5_S32x5_1_0_0_1_n_n.contr.Idx) :
    (dot_S32x10_S10x5_S32x5_1_0_0_1_n_n.lhsIdx j k 1 : ℕ) = k ⟨0, by decide⟩ := by
  simp [DotDims.lhsIdx, dot_S32x10_S10x5_S32x5_1_0_0_1_n_n]; rfl
theorem rhs_10_5_0 (j : S32x5.Idx) (k : dot_S32x10_S10x5_S32x5_1_0_0_1_n_n.contr.Idx) :
    (dot_S32x10_S10x5_S32x5_1_0_0_1_n_n.rhsIdx j k 0 : ℕ) = k ⟨0, by decide⟩ := by
  simp [DotDims.rhsIdx, dot_S32x10_S10x5_S32x5_1_0_0_1_n_n]; rfl
theorem rhs_10_5_1 (j : S32x5.Idx) (k : dot_S32x10_S10x5_S32x5_1_0_0_1_n_n.contr.Idx) :
    (dot_S32x10_S10x5_S32x5_1_0_0_1_n_n.rhsIdx j k 1 : ℕ) = j 1 := by
  simp [DotDims.rhsIdx, dot_S32x10_S10x5_S32x5_1_0_0_1_n_n]; rfl

/-- The product into a zero accumulator, read at row `r` and column `a`: the sum over the 10 contracted positions. -/
theorem matmul_10_5_apply (x : FVec Ideal S32x10 .f32) (w : FVec Ideal S10x5 .f32) (r : Fin 32) (a : Fin 5) :
    matmul dot_S32x10_S10x5_S32x5_1_0_0_1_n_n (some .fp32) x w (constant (F := Ideal) S32x5 .f32 0x00000000#32) (ix2 r a)
      = ∑ κ : Fin 10, x (ix2 r κ) * w (ix2 κ a) := by
  refine (Ideal.matmul_constant_zero_apply _ _ _ _ _).trans ?_
  rw [← Equiv.sum_comp (contrEquiv1 dot_S32x10_S10x5_S32x5_1_0_0_1_n_n 10 rfl rfl).symm]
  refine Finset.sum_congr rfl fun κ _ => ?_
  congr 2
  · apply Shape.idx_ext₂
    · exact lhs_10_5_0 _ _
    · exact (lhs_10_5_1 _ _).trans (contrEquiv1_symm_val _ _ _ _ κ)
  · apply Shape.idx_ext₂
    · exact (rhs_10_5_0 _ _).trans (contrEquiv1_symm_val _ _ _ _ κ)
    · exact rhs_10_5_1 _ _

/-- One dense layer 10 → 5 of the body, read at row `r` and column `a`: `Knrm.dense` of row `r`. -/
theorem layer_10_5_apply (x : FVec Ideal S32x10 .f32) (W : FVec Ideal S5x10 .f32) (b : FVec Ideal S5 .f32) (r : Fin 32) (a : Fin 5) :
    addf (matmul dot_S32x10_S10x5_S32x5_1_0_0_1_n_n (some .fp32)
          (maximumf x (broadcast S32x10 (Scalar.ofBits (F := Ideal) .f32 0x00000000#32)))
          (transpose S10x5 [1, 0] W transposes_S5x10_p1_0_S10x5)
          (constant (F := Ideal) S32x5 .f32 0x00000000#32))
        (broadcastTo S32x5 (shapeCast S1x5 b shapeCasts_S5_S1x5) broadcasts_S1x5_S32x5) (ix2 r a)
      = Cert.Knrm.dense (fun κ => x (ix2 r κ)) (fun a κ => W (ix2 a κ)) (fun a => b (ix1 a)) a := by
  rw [addf_apply, matmul_10_5_apply, broadcastTo_1b_ab_apply, shapeCast_a_1a_apply]
  unfold Cert.Knrm.dense
  refine congrArg (· + b (ix1 a)) (Finset.sum_congr rfl fun κ _ => ?_)
  rw [maximumf_apply, broadcast_apply, transpose_ix2_apply]
  exact congrArg (fun z => max (x (ix2 r κ)) z * W (ix2 a κ)) Ideal.ofBits_zero_f32

/-! ### The contraction 5 → 1: its operand indices, axis by axis -/

theorem lhs_5_1_0 (j : S32x1.Idx) (k : dot_S32x5_S5x1_S32x1_1_0_0_1_n_n.contr.Idx) :
    (dot_S32x5_S5x1_S32x1_1_0_0_1_n_n.lhsIdx j k 0 : ℕ) = j 0 := by
  simp [DotDims.lhsIdx, dot_S32x5_S5x1_S32x1_1_0_0_1_n_n]; rfl
theorem lhs_5_1_1 (j : S32x1.Idx) (k : dot_S32x5_S5x1_S32x1_1_0_0_1_n_n.contr.Idx) :
    (dot_S32x5_S5x1_S32x1_1_0_0_1_n_n.lhsIdx j k 1 : ℕ) = k ⟨0, by decide⟩ := by
  simp [DotDims.lhsIdx, dot_S32x5_S5x1_S32x1_1_0_0_1_n_n]; rfl
theorem rhs_5_1_0 (j : S32x1.Idx) (k : dot_S32x5_S5x1_S32x1_1_0_0_1_n_n.contr.Idx) :
    (dot_S32x5_S5x1_S32x1_1_0_0_1_n_n.rhsIdx j k 0 : ℕ) = k ⟨0, by decide⟩ := by
  simp [DotDims.rhsIdx, dot_S32x5_S5x1_S32x1_1_0_0_1_n_n]; rfl
theorem rhs_5_1_1 (j : S32x1.Idx) (k : dot_S32x5_S5x1_S32x1_1_0_0_1_n_n.contr.Idx) :
    (dot_S32x5_S5x1_S32x1_1_0_0_1_n_n.rhsIdx j k 1 : ℕ) = j 1 := by
  simp [DotDims.rhsIdx, dot_S32x5_S5x1_S32x1_1_0_0_1_n_n]; exact (Fin.val_eq_zero (j 1)).symm

/-- The product into a zero accumulator, read at row `r` and column `a`: the sum over the 5 contracted positions. -/
theorem matmul_5_1_apply (x : FVec Ideal S32x5 .f32) (w : FVec Ideal S5x1 .f32) (r : Fin 32) (a : Fin 1) :
    matmul dot_S32x5_S5x1_S32x1_1_0_0_1_n_n (some .fp32) x w (constant (F := Ideal) S32x1 .f32 0x00000000#32) (ix2 r a)
      = ∑ κ : Fin 5, x (ix2 r κ) * w (ix2 κ a) := by
  refine (Ideal.matmul_constant_zero_apply _ _ _ _ _).trans ?_
  rw [← Equiv.sum_comp (contrEquiv1 dot_S32x5_S5x1_S32x1_1_0_0_1_n_n 5 rfl rfl).symm]
  refine Finset.sum_congr rfl fun κ _ => ?_
  congr 2
  · apply Shape.idx_ext₂
    · exact lhs_5_1_0 _ _
    · exact (lhs_5_1_1 _ _).trans (contrEquiv1_symm_val _ _ _ _ κ)
  · apply Shape.idx_ext₂
    · exact (rhs_5_1_0 _ _).trans (contrEquiv1_symm_val _ _ _ _ κ)
    · exact rhs_5_1_1 _ _

/-- One dense layer 5 → 1 of the body, read at row `r` and column `a`: `Knrm.dense` of row `r`. -/
theorem layer_5_1_apply (x : FVec Ideal S32x5 .f32) (W : FVec Ideal S1x5 .f32) (b : FVec Ideal S1 .f32) (r : Fin 32) (a : Fin 1) :
    addf (matmul dot_S32x5_S5x1_S32x1_1_0_0_1_n_n (some .fp32)
          (maximumf x (broadcast S32x5 (Scalar.ofBits (F := Ideal) .f32 0x00000000#32)))
          (transpose S5x1 [1, 0] W transposes_S1x5_p1_0_S5x1)
          (constant (F := Ideal) S32x1 .f32 0x00000000#32))
        (broadcastTo S32x1 (shapeCast S1x1 b shapeCasts_S1_S1x1) broadcasts_S1x1_S32x1) (ix2 r a)
      = Cert.Knrm.dense (fun κ => x (ix2 r κ)) (fun a κ => W (ix2 a κ)) (fun a => b (ix1 a)) a := by
  rw [addf_apply, matmul_5_1_apply, broadcastTo_1b_ab_apply, shapeCast_a_1a_apply]
  unfold Cert.Knrm.dense
  refine congrArg (· + b (ix1 a)) (Finset.sum_congr rfl fun κ _ => ?_)
  rw [maximumf_apply, broadcast_apply, transpose_ix2_apply]
  exact congrArg (fun z => max (x (ix2 r κ)) z * W (ix2 a κ)) Ideal.ofBits_zero_f32

/-! ### The three layers and the block -/

/-- Row `r` of the three dense layers is `Knrm.logit` of row `r` of the features. -/
theorem logit_apply (K : FVec Ideal S32x21 .f32) (W1 : FVec Ideal S10x21 .f32) (b1 : FVec Ideal S10 .f32)
    (W2 : FVec Ideal S5x10 .f32) (b2 : FVec Ideal S5 .f32) (W3 : FVec Ideal S1x5 .f32) (b3 : FVec Ideal S1 .f32) (r : Fin 32) :
    Terms.logitBlk (F := Ideal) (Terms.hidden (F := Ideal) K W1 b1 W2 b2) W3 b3 (ix2 r 0)
      = Cert.Knrm.logit (fun κ => K (ix2 r κ)) (fun a κ => W1 (ix2 a κ)) (fun a => b1 (ix1 a)) (fun a κ => W2 (ix2 a κ))
          (fun a => b2 (ix1 a)) (fun a κ => W3 (ix2 a κ)) (fun a => b3 (ix1 a)) := by
  unfold Terms.logitBlk Terms.hidden k0_pay69 k0_pay68 k0_pay66 k0_pay67
  refine (layer_5_1_apply _ W3 b3 r 0).trans ?_
  unfold Cert.Knrm.logit
  refine congrArg (fun x => Cert.Knrm.dense x (fun a κ => W3 (ix2 a κ)) (fun a => b3 (ix1 a)) 0) (funext fun c => ?_)
  refine (layer_10_5_apply _ W2 b2 r c).trans ?_
  refine congrArg (fun x => Cert.Knrm.dense x (fun a κ => W2 (ix2 a κ)) (fun a => b2 (ix1 a)) c) (funext fun a => ?_)
  exact layer_21_10_apply K W1 b1 r a

/-- The output block is `Knrm.G 32` of the loaded blocks. -/
theorem outBlk_eq_G (x0 : FVec Ideal S32x20x128 .bf16) (x1 : FVec Ideal S32x200x128 .bf16) (x2 : FVec Ideal S32x20x128 .bf16)
    (x3 : FVec Ideal S32x200x128 .bf16) (x4 : FVec Ideal S10x21 .f32) (x5 : FVec Ideal S10 .f32) (x6 : FVec Ideal S5x10 .f32)
    (x7 : FVec Ideal S5 .f32) (x8 : FVec Ideal S1x5 .f32) (x9 : FVec Ideal S1 .f32) :
    Terms.outBlk (F := Ideal) x0 x1 x2 x3 x4 x5 x6 x7 x8 x9 = Cert.Knrm.G 32 x0 x1 x2 x3 x4 x5 x6 x7 x8 x9 := by
  funext j
  obtain ⟨r, u, rfl⟩ : ∃ (r : Fin 32) (u : Fin 1), j = ix2 r u := ⟨j 0, j 1, eq_ix2 j⟩
  obtain rfl : u = 0 := Subsingleton.elim _ _
  unfold Terms.outBlk Cert.Knrm.G Cert.Knrm.score
  show Ideal.logistic (Terms.logitBlk (F := Ideal) _ x8 x9 (ix2 r 0) - Terms.logitBlk (F := Ideal) _ x8 x9 (ix2 r 0)) = _
  rw [logit_apply, logit_apply]
  have h1 : (fun κ => Terms.feats (F := Ideal) x0 x1 (ix2 r κ)) = Cert.Knrm.feat (fun i e => x0 (ix3 r i e)) (fun i e => x1 (ix3 r i e)) :=
    funext fun κ => feats_apply x0 x1 r κ
  have h2 : (fun κ => Terms.feats (F := Ideal) x2 x3 (ix2 r κ)) = Cert.Knrm.feat (fun i e => x2 (ix3 r i e)) (fun i e => x3 (ix3 r i e)) :=
    funext fun κ => feats_apply x2 x3 r κ
  rw [h1, h2]

end Cert.KernelIdeal.Read

end
-- ==== Proof.KerArray.lean ====
/-
  From blocks to the array. The arrays the region stages are the embedded rows the host operations in front of it gather
  (narrowed to bf16, which changes nothing on the extended reals) and the weights as launched; grid point `t` loads rows
  `32 t … 32 t + 31` of each embedded array and the whole of each weight, and writes back rows `32 t … 32 t + 31` of the
  result column. A block of `Knrm.G 32` of the loaded blocks is that block of `Knrm.G 1024` of the arrays, the 32 points'
  blocks cover the column, and so the result array after the run is `Knrm.G 1024` of the embedded rows and the weights.
-/
import proofs.«136225_j57483842290258_1_alg».proof.Proof.Gen.KernelIdeal.Value
import proofs.«136225_j57483842290258_1_alg».proof.Proof.KerPieces
import proofs.«136225_j57483842290258_1_alg».proof.Proof.KerRead

set_option maxRecDepth 16384

noncomputable section

namespace Cert.KernelIdeal.KerRun

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Which block each point takes -/

/-- The index maps over the 32 grid points: point `t` takes block `t` (along the batch axis) of each embedded array and of
    the result column, and the one block of each weight. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = t.val ∧ win0_10.index t (1 : Fin 2) = 0) :=
  (by decide +kernel : ∀ t : Fin grid0.N, _)

/-! ## `Knrm.G` reads one batch row -/

/-- `Knrm.G` at a row reads the embedded arrays only along that row: a batch of 32 and a batch of 1024 whose embedded
    arrays agree along row `j 0` of the one and row `b 0` of the other, under the same weights, score the same there. -/
theorem G_rows (x0 : FVec Ideal S32x20x128 .bf16) (x1 : FVec Ideal S32x200x128 .bf16) (x2 : FVec Ideal S32x20x128 .bf16)
    (x3 : FVec Ideal S32x200x128 .bf16) (x4 : FVec Ideal S10x21 .f32) (x5 : FVec Ideal S10 .f32) (x6 : FVec Ideal S5x10 .f32)
    (x7 : FVec Ideal S5 .f32) (x8 : FVec Ideal S1x5 .f32) (x9 : FVec Ideal S1 .f32)
    (q1 : FVec Ideal S1024x20x128 .f32) (d1 : FVec Ideal S1024x200x128 .f32) (q2 : FVec Ideal S1024x20x128 .f32)
    (d2 : FVec Ideal S1024x200x128 .f32) (W1 : FVec Ideal S10x21 .f32) (b1 : FVec Ideal S10 .f32) (W2 : FVec Ideal S5x10 .f32)
    (b2 : FVec Ideal S5 .f32) (W3 : FVec Ideal S1x5 .f32) (b3 : FVec Ideal S1 .f32)
    (j : S32x1.Idx) (b : S1024x1.Idx)
    (h0 : ∀ (i : Fin 20) (e : Fin 128), x0 (ix3 (j 0) i e) = q1 (ix3 (b 0) i e))
    (h1 : ∀ (i : Fin 200) (e : Fin 128), x1 (ix3 (j 0) i e) = d1 (ix3 (b 0) i e))
    (h2 : ∀ (i : Fin 20) (e : Fin 128), x2 (ix3 (j 0) i e) = q2 (ix3 (b 0) i e))
    (h3 : ∀ (i : Fin 200) (e : Fin 128), x3 (ix3 (j 0) i e) = d2 (ix3 (b 0) i e))
    (h4 : x4 = W1) (h5 : x5 = b1) (h6 : x6 = W2) (h7 : x7 = b2) (h8 : x8 = W3) (h9 : x9 = b3) :
    Cert.Knrm.G 32 x0 x1 x2 x3 x4 x5 x6 x7 x8 x9 j = Cert.Knrm.G 1024 q1 d1 q2 d2 W1 b1 W2 b2 W3 b3 b := by
  subst h4 h5 h6 h7 h8 h9
  have e0 : (fun (i : Fin 20) (e : Fin 128) => x0 (ix3 (j 0) i e)) = fun i e => q1 (ix3 (b 0) i e) :=
    funext fun i => funext fun e => h0 i e
  have e1 : (fun (i : Fin 200) (e : Fin 128) => x1 (ix3 (j 0) i e)) = fun i e => d1 (ix3 (b 0) i e) :=
    funext fun i => funext fun e => h1 i e
  have e2 : (fun (i : Fin 20) (e : Fin 128) => x2 (ix3 (j 0) i e)) = fun i e => q2 (ix3 (b 0) i e) :=
    funext fun i => funext fun e => h2 i e
  have e3 : (fun (i : Fin 200) (e : Fin 128) => x3 (ix3 (j 0) i e)) = fun i e => d2 (ix3 (b 0) i e) :=
    funext fun i => funext fun e => h3 i e
  show Cert.Knrm.score (fun i e => x0 (ix3 (j 0) i e)) (fun i e => x1 (ix3 (j 0) i e)) (fun i e => x2 (ix3 (j 0) i e))
      (fun i e => x3 (ix3 (j 0) i e)) _ _ _ _ _ _
    = Cert.Knrm.score (fun i e => q1 (ix3 (b 0) i e)) (fun i e => d1 (ix3 (b 0) i e)) (fun i e => q2 (ix3 (b 0) i e))
      (fun i e => d2 (ix3 (b 0) i e)) _ _ _ _ _ _
  rw [e0, e1, e2, e3]

/-! ## What the region finds in the arrays it stages -/

/-- The first staged array holds the first pair's embedded query rows, narrowed to bf16. -/
theorem staged_q1 (c : Dev nD) :
    (V m c main_v7 : (⟨S1024x20x128, .bf16⟩ : BufTy).Contents (Elt Ideal))
      = truncf (F := Ideal) (s := S1024x20x128) (φ := .f32) .bf16
          (Terms.rows20 (F := Ideal) (m ((c : Thread nD τ).loc main_arg4)) (m ((c : Thread nD τ).loc main_arg0))) bitsLt_bf16_f32 := by
  dsimp only [Gen.V, Gen.hostOps0]
  after_results_simp
  rfl

/-- The second staged array holds the first pair's embedded document rows, narrowed to bf16. -/
theorem staged_d1 (c : Dev nD) :
    (V m c main_v15 : (⟨S1024x200x128, .bf16⟩ : BufTy).Contents (Elt Ideal))
      = truncf (F := Ideal) (s := S1024x200x128) (φ := .f32) .bf16
          (Terms.rows200 (F := Ideal) (m ((c : Thread nD τ).loc main_arg4)) (m ((c : Thread nD τ).loc main_arg1))) bitsLt_bf16_f32 := by
  dsimp only [Gen.V, Gen.hostOps0]
  after_results_simp
  rfl

/-- The third staged array holds the second pair's embedded query rows, narrowed to bf16. -/
theorem staged_q2 (c : Dev nD) :
    (V m c main_v23 : (⟨S1024x20x128, .bf16⟩ : BufTy).Contents (Elt Ideal))
      = truncf (F := Ideal) (s := S1024x20x128) (φ := .f32) .bf16
          (Terms.rows20 (F := Ideal) (m ((c : Thread nD τ).loc main_arg4)) (m ((c : Thread nD τ).loc main_arg2))) bitsLt_bf16_f32 := by
  dsimp only [Gen.V, Gen.hostOps0]
  after_results_simp
  rfl

/-- The fourth staged array holds the second pair's embedded document rows, narrowed to bf16. -/
theorem staged_d2 (c : Dev nD) :
    (V m c main_v31 : (⟨S1024x200x128, .bf16⟩ : BufTy).Contents (Elt Ideal))
      = truncf (F := Ideal) (s := S1024x200x128) (φ := .f32) .bf16
          (Terms.rows200 (F := Ideal) (m ((c : Thread nD τ).loc main_arg4)) (m ((c : Thread nD τ).loc main_arg3))) bitsLt_bf16_f32 := by
  dsimp only [Gen.V, Gen.hostOps0]
  after_results_simp
  rfl

/-! ## The blocks a point loads

A block's coordinate on an axis is the block index times the block's extent plus the coordinate inside the block. -/

/-- Entry `(r, i, e)` of the first pair's query block at point `t` is entry `(32 t + r, i, e)` of the staged array. -/
theorem rows_q1 (c : Dev nD) (t : Fin cfg0.N) (x : S32x20x128.Idx) (k : S1024x20x128.Idx)
    (hk0 : (k 0).val = 32 * t.val + (x 0).val) (hk1 : (k 1).val = (x 1).val) (hk2 : (k 2).val = (x 2).val) :
    (iblk m c 0 t : FVec Ideal S32x20x128 .bf16) x = (V m c main_v7 : FVec Ideal S1024x20x128 .bf16) k := by
  obtain ⟨e0, e1, e2⟩ := (idx_facts t).1
  unfold iblk
  rw [View.read_apply]
  show V m c main_v7 _ = V m c main_v7 _
  congr 1
  funext a
  apply Fin.ext
  match a with
  | ⟨0, _⟩ => show win0_0.index t (0 : Fin 3) * 32 + 1 * (x 0).val = (k 0).val; rw [e0, hk0]; omega
  | ⟨1, _⟩ => show win0_0.index t (1 : Fin 3) * 20 + 1 * (x 1).val = (k 1).val; rw [e1, hk1]; omega
  | ⟨2, _⟩ => show win0_0.index t (2 : Fin 3) * 128 + 1 * (x 2).val = (k 2).val; rw [e2, hk2]; omega

/-- Entry `(r, i, e)` of the first pair's document block at point `t` is entry `(32 t + r, i, e)` of the staged array. -/
theorem rows_d1 (c : Dev nD) (t : Fin cfg0.N) (x : S32x200x128.Idx) (k : S1024x200x128.Idx)
    (hk0 : (k 0).val = 32 * t.val + (x 0).val) (hk1 : (k 1).val = (x 1).val) (hk2 : (k 2).val = (x 2).val) :
    (iblk m c 1 t : FVec Ideal S32x200x128 .bf16) x = (V m c main_v15 : FVec Ideal S1024x200x128 .bf16) k := by
  obtain ⟨e0, e1, e2⟩ := (idx_facts t).2.1
  unfold iblk
  rw [View.read_apply]
  show V m c main_v15 _ = V m c main_v15 _
  congr 1
  funext a
  apply Fin.ext
  match a with
  | ⟨0, _⟩ => show win0_1.index t (0 : Fin 3) * 32 + 1 * (x 0).val = (k 0).val; rw [e0, hk0]; omega
  | ⟨1, _⟩ => show win0_1.index t (1 : Fin 3) * 200 + 1 * (x 1).val = (k 1).val; rw [e1, hk1]; omega
  | ⟨2, _⟩ => show win0_1.index t (2 : Fin 3) * 128 + 1 * (x 2).val = (k 2).val; rw [e2, hk2]; omega

/-- Entry `(r, i, e)` of the second pair's query block at point `t` is entry `(32 t + r, i, e)` of the staged array. -/
theorem rows_q2 (c : Dev nD) (t : Fin cfg0.N) (x : S32x20x128.Idx) (k : S1024x20x128.Idx)
    (hk0 : (k 0).val = 32 * t.val + (x 0).val) (hk1 : (k 1).val = (x 1).val) (hk2 : (k 2).val = (x 2).val) :
    (iblk m c 2 t : FVec Ideal S32x20x128 .bf16) x = (V m c main_v23 : FVec Ideal S1024x20x128 .bf16) k := by
  obtain ⟨e0, e1, e2⟩ := (idx_facts t).2.2.1
  unfold iblk
  rw [View.read_apply]
  show V m c main_v23 _ = V m c main_v23 _
  congr 1
  funext a
  apply Fin.ext
  match a with
  | ⟨0, _⟩ => show win0_2.index t (0 : Fin 3) * 32 + 1 * (x 0).val = (k 0).val; rw [e0, hk0]; omega
  | ⟨1, _⟩ => show win0_2.index t (1 : Fin 3) * 20 + 1 * (x 1).val = (k 1).val; rw [e1, hk1]; omega
  | ⟨2, _⟩ => show win0_2.index t (2 : Fin 3) * 128 + 1 * (x 2).val = (k 2).val; rw [e2, hk2]; omega

/-- Entry `(r, i, e)` of the second pair's document block at point `t` is entry `(32 t + r, i, e)` of the staged array. -/
theorem rows_d2 (c : Dev nD) (t : Fin cfg0.N) (x : S32x200x128.Idx) (k : S1024x200x128.Idx)
    (hk0 : (k 0).val = 32 * t.val + (x 0).val) (hk1 : (k 1).val = (x 1).val) (hk2 : (k 2).val = (x 2).val) :
    (iblk m c 3 t : FVec Ideal S32x200x128 .bf16) x = (V m c main_v31 : FVec Ideal S1024x200x128 .bf16) k := by
  obtain ⟨e0, e1, e2⟩ := (idx_facts t).2.2.2.1
  unfold iblk
  rw [View.read_apply]
  show V m c main_v31 _ = V m c main_v31 _
  congr 1
  funext a
  apply Fin.ext
  match a with
  | ⟨0, _⟩ => show win0_3.index t (0 : Fin 3) * 32 + 1 * (x 0).val = (k 0).val; rw [e0, hk0]; omega
  | ⟨1, _⟩ => show win0_3.index t (1 : Fin 3) * 200 + 1 * (x 1).val = (k 1).val; rw [e1, hk1]; omega
  | ⟨2, _⟩ => show win0_3.index t (2 : Fin 3) * 128 + 1 * (x 2).val = (k 2).val; rw [e2, hk2]; omega

/-- Every point loads the whole first-layer weight matrix, as launched. -/
theorem whole_W1 (c : Dev nD) (t : Fin cfg0.N) :
    (iblk m c 4 t : FVec Ideal S10x21 .f32) = m ((c : Thread nD τ).loc main_arg5) := by
  obtain ⟨e0, e1⟩ := (idx_facts t).2.2.2.2.1
  rw [← V_main_arg5 m c]
  funext x
  unfold iblk
  rw [View.read_apply]
  show V m c main_arg5 _ = V m c main_arg5 _
  congr 1
  funext a
  apply Fin.ext
  match a with
  | ⟨0, _⟩ => show win0_4.index t (0 : Fin 2) * 10 + 1 * (x 0).val = (x 0).val; rw [e0]; omega
  | ⟨1, _⟩ => show win0_4.index t (1 : Fin 2) * 21 + 1 * (x 1).val = (x 1).val; rw [e1]; omega

/-- Every point loads the whole first-layer bias, as launched. -/
theorem whole_b1 (c : Dev nD) (t : Fin cfg0.N) :
    (iblk m c 5 t : FVec Ideal S10 .f32) = m ((c : Thread nD τ).loc main_arg6) := by
  have e0 := (idx_facts t).2.2.2.2.2.1
  rw [← V_main_arg6 m c]
  funext x
  unfold iblk
  rw [View.read_apply]
  show V m c main_arg6 _ = V m c main_arg6 _
  congr 1
  funext a
  apply Fin.ext
  match a with
  | ⟨0, _⟩ => show win0_5.index t (0 : Fin 1) * 10 + 1 * (x 0).val = (x 0).val; rw [e0]; omega

/-- Every point loads the whole second-layer weight matrix, as launched. -/
theorem whole_W2 (c : Dev nD) (t : Fin cfg0.N) :
    (iblk m c 6 t : FVec Ideal S5x10 .f32) = m ((c : Thread nD τ).loc main_arg7) := by
  obtain ⟨e0, e1⟩ := (idx_facts t).2.2.2.2.2.2.1
  rw [← V_main_arg7 m c]
  funext x
  unfold iblk
  rw [View.read_apply]
  show V m c main_arg7 _ = V m c main_arg7 _
  congr 1
  funext a
  apply Fin.ext
  match a with
  | ⟨0, _⟩ => show win0_6.index t (0 : Fin 2) * 5 + 1 * (x 0).val = (x 0).val; rw [e0]; omega
  | ⟨1, _⟩ => show win0_6.index t (1 : Fin 2) * 10 + 1 * (x 1).val = (x 1).val; rw [e1]; omega

/-- Every point loads the whole second-layer bias, as launched. -/
theorem whole_b2 (c : Dev nD) (t : Fin cfg0.N) :
    (iblk m c 7 t : FVec Ideal S5 .f32) = m ((c : Thread nD τ).loc main_arg8) := by
  have e0 := (idx_facts t).2.2.2.2.2.2.2.1
  rw [← V_main_arg8 m c]
  funext x
  unfold iblk
  rw [View.read_apply]
  show V m c main_arg8 _ = V m c main_arg8 _
  congr 1
  funext a
  apply Fin.ext
  match a with
  | ⟨0, _⟩ => show win0_7.index t (0 : Fin 1) * 5 + 1 * (x 0).val = (x 0).val; rw [e0]; omega

/-- Every point loads the whole third-layer weight row, as launched. -/
theorem whole_W3 (c : Dev nD) (t : Fin cfg0.N) :
    (iblk m c 8 t : FVec Ideal S1x5 .f32) = m ((c : Thread nD τ).loc main_arg9) := by
  obtain ⟨e0, e1⟩ := (idx_facts t).2.2.2.2.2.2.2.2.1
  rw [← V_main_arg9 m c]
  funext x
  unfold iblk
  rw [View.read_apply]
  show V m c main_arg9 _ = V m c main_arg9 _
  congr 1
  funext a
  apply Fin.ext
  match a with
  | ⟨0, _⟩ => show win0_8.index t (0 : Fin 2) * 1 + 1 * (x 0).val = (x 0).val; rw [e0]; omega
  | ⟨1, _⟩ => show win0_8.index t (1 : Fin 2) * 5 + 1 * (x 1).val = (x 1).val; rw [e1]; omega

/-- Every point loads the whole third-layer bias, as launched. -/
theorem whole_b3 (c : Dev nD) (t : Fin cfg0.N) :
    (iblk m c 9 t : FVec Ideal S1 .f32) = m ((c : Thread nD τ).loc main_arg10) := by
  have e0 := (idx_facts t).2.2.2.2.2.2.2.2.2.1
  rw [← V_main_arg10 m c]
  funext x
  unfold iblk
  rw [View.read_apply]
  show V m c main_arg10 _ = V m c main_arg10 _
  congr 1
  funext a
  apply Fin.ext
  match a with
  | ⟨0, _⟩ => show win0_9.index t (0 : Fin 1) * 1 + 1 * (x 0).val = (x 0).val; rw [e0]; omega

/-! ## What a point writes back, the cover, the array -/

/-- What grid point `t` writes back is block `t` of `Knrm.G 1024` of the embedded rows and the weights: row `r` of the
    block is row `32 t + r` of the column, whose score reads the embedded arrays along that row, which is row `r` of the
    loaded blocks. -/
theorem flushed_eq (c : Dev nD) (t : Fin cfg0.N) :
    (dats m 0 c).flushed 10 t = ((cfg0.win 10).blk t).view.read (Elt Ideal)
      (Cert.Knrm.G 1024 (Terms.rows20 (F := Ideal) (m ((c : Thread nD τ).loc main_arg4)) (m ((c : Thread nD τ).loc main_arg0))) (Terms.rows200 (F := Ideal) (m ((c : Thread nD τ).loc main_arg4)) (m ((c : Thread nD τ).loc main_arg1)))
          (Terms.rows20 (F := Ideal) (m ((c : Thread nD τ).loc main_arg4)) (m ((c : Thread nD τ).loc main_arg2))) (Terms.rows200 (F := Ideal) (m ((c : Thread nD τ).loc main_arg4)) (m ((c : Thread nD τ).loc main_arg3)))
          (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed10_A, Pieces.out0_A_10_eq, Read.outBlk_eq_G]
  obtain ⟨e0, -⟩ := (idx_facts t).2.2.2.2.2.2.2.2.2.2
  funext j
  show Cert.Knrm.G 32 (iblk m c 0 t) (iblk m c 1 t) (iblk m c 2 t) (iblk m c 3 t) (iblk m c 4 t) (iblk m c 5 t) (iblk m c 6 t) (iblk m c 7 t) (iblk m c 8 t) (iblk m c 9 t) j
    = Cert.Knrm.G 1024 (Terms.rows20 (F := Ideal) (m ((c : Thread nD τ).loc main_arg4)) (m ((c : Thread nD τ).loc main_arg0))) (Terms.rows200 (F := Ideal) (m ((c : Thread nD τ).loc main_arg4)) (m ((c : Thread nD τ).loc main_arg1)))
          (Terms.rows20 (F := Ideal) (m ((c : Thread nD τ).loc main_arg4)) (m ((c : Thread nD τ).loc main_arg2))) (Terms.rows200 (F := Ideal) (m ((c : Thread nD τ).loc main_arg4)) (m ((c : Thread nD τ).loc main_arg3)))
          (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        (((cfg0.win 10).blk t).view.emb j)
  have hb : (((((cfg0.win 10).blk t).view.emb j : S1024x1.Idx)) 0).val = 32 * t.val + (j 0).val := by
    show win0_10.index t (0 : Fin 2) * 32 + 1 * (j 0).val = _
    rw [e0]; omega
  refine G_rows _ _ _ _ _ _ _ _ _ _ _ _ _ _ _ _ _ _ _ _ j (((cfg0.win 10).blk t).view.emb j) ?_ ?_ ?_ ?_
    (whole_W1 m c t) (whole_b1 m c t) (whole_W2 m c t) (whole_b2 m c t) (whole_W3 m c t) (whole_b3 m c t)
  · intro i e
    exact (rows_q1 m c t _ _ hb rfl rfl).trans (congrFun (staged_q1 m c) _)
  · intro i e
    exact (rows_d1 m c t _ _ hb rfl rfl).trans (congrFun (staged_d1 m c) _)
  · intro i e
    exact (rows_q2 m c t _ _ hb rfl rfl).trans (congrFun (staged_q2 m c) _)
  · intro i e
    exact (rows_d2 m c t _ _ hb rfl rfl).trans (congrFun (staged_d2 m c) _)

/-- An index of the result column is in point `t`'s block iff each coordinate is in the block's range on its axis. -/
theorem mem_blk (t : Fin cfg0.N) (i : S1024x1.Idx) :
    i ∈ ((cfg0.win 10).blk t).view.set ↔ ∀ a : Fin 2, win0_10.index t a * S32x1.size a ≤ (i a).val ∧ (i a).val < win0_10.index t a * S32x1.size a + S32x1.size a := by
  show i ∈ ((View.whole main_v32).slice (win0_10.rect t)).set ↔ _
  rw [View.set_slice_whole, Rect.mem_set_unit]
  exact Iff.rfl

/-- Row `b` of the result column is in the block of point `b / 32`. -/
theorem cover (i : S1024x1.Idx) :
    ∃ t : Fin cfg0.N, (cfg0.win 10).flush t = true ∧ i ∈ ((cfg0.win 10).blk t).view.set := by
  have hi0 : (i 0).val < 1024 := (i 0).isLt
  have hi1 : (i 1).val < 1 := (i 1).isLt
  obtain ⟨t, ht⟩ : ∃ t : Fin cfg0.N, t.val = (i 0).val / 32 :=
    ⟨⟨(i 0).val / 32, by rw [show cfg0.N = 32 from N_0]; omega⟩, rfl⟩
  obtain ⟨e0, e1⟩ := (idx_facts t).2.2.2.2.2.2.2.2.2.2
  refine ⟨t, flush0_10 t, ?_⟩
  rw [mem_blk]
  intro a
  match a with
  | ⟨0, _⟩ => show win0_10.index t (0 : Fin 2) * 32 ≤ (i 0).val ∧ (i 0).val < win0_10.index t (0 : Fin 2) * 32 + 32; rw [e0, ht]; omega
  | ⟨1, _⟩ => show win0_10.index t (1 : Fin 2) * 1 ≤ (i 1).val ∧ (i 1).val < win0_10.index t (1 : Fin 2) * 1 + 1; rw [e1]; omega

/-- The result array after the run is `Knrm.G 1024` of the embedded rows and the weights as launched. -/
theorem final (c : Dev nD) :
    (dats m 0 c).arrAt 10 cfg0.N
      = Cert.Knrm.G 1024 (Terms.rows20 (F := Ideal) (m ((c.tc : Thread nD τ).loc main_arg4)) (m ((c.tc : Thread nD τ).loc main_arg0))) (Terms.rows200 (F := Ideal) (m ((c.tc : Thread nD τ).loc main_arg4)) (m ((c.tc : Thread nD τ).loc main_arg1)))
          (Terms.rows20 (F := Ideal) (m ((c.tc : Thread nD τ).loc main_arg4)) (m ((c.tc : Thread nD τ).loc main_arg2))) (Terms.rows200 (F := Ideal) (m ((c.tc : Thread nD τ).loc main_arg4)) (m ((c.tc : Thread nD τ).loc main_arg3)))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (dats m 0 c).arrAt_eq_of_cover 10 _ (fun t _ => flushed_eq m c t) cover

/-- Every weakly fair execution of the idealized kernel program terminates with its result at `Knrm.G 1024` of the embedded
    rows and the weights as launched, the arguments unchanged. -/
theorem run : θ_run defs (onTc (τ := τ) (main (F := Ideal))) ⟨m, fun _ => 0, ρ⟩ fun r => ∀ c : Dev nD,
      r.2.mem ((c.tc : Thread nD τ).loc main_v32)
        = Cert.Knrm.G 1024 (Terms.rows20 (F := Ideal) (m ((c.tc : Thread nD τ).loc main_arg4)) (m ((c.tc : Thread nD τ).loc main_arg0))) (Terms.rows200 (F := Ideal) (m ((c.tc : Thread nD τ).loc main_arg4)) (m ((c.tc : Thread nD τ).loc main_arg1)))
          (Terms.rows20 (F := Ideal) (m ((c.tc : Thread nD τ).loc main_arg4)) (m ((c.tc : Thread nD τ).loc main_arg2))) (Terms.rows200 (F := Ideal) (m ((c.tc : Thread nD τ).loc main_arg4)) (m ((c.tc : Thread nD τ).loc main_arg3)))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (final m c), (h c).2⟩) (Value.run_blocks m ρ)

end Cert.KernelIdeal.KerRun

end
-- ==== Proof.RefOps.lean ====
/- The reference program's host operations in program order, one list per printed window of @main (a call of an
   outlined `relu` written as its three operations over the call's buffers), and that each touches TensorCore buffers only. -/
import proofs.«136225_j57483842290258_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main (60 of them). -/
abbrev ops0 : List (HloOp τ sig (Elt F)) :=
  [ nullary main_cst (fun i => FloatOps.ofBits .f32 (lit0 (S21.rowMajor i))),
    nullary main_cst_0 (fun i => FloatOps.ofBits .f32 (lit1 (S21.rowMajor i))),
    nullary main_c (constantI S_ 32 0#32),
    unary main_c main_v0 (broadcastInDim S1024x20 ![] bcast_S_S1024x20 : (⟨S_, .i32⟩ : BufTy).Contents (Elt F) → (⟨S1024x20, .i32⟩ : BufTy).Contents (Elt F)),
    binary main_arg0 main_v0 main_v1 (cmpi .slt : (⟨S1024x20, .i32⟩ : BufTy).Contents (Elt F) → (⟨S1024x20, .i32⟩ : BufTy).Contents (Elt F) → (⟨S1024x20, .i1⟩ : BufTy).Contents (Elt F)),
    nullary main_c_1 (constantI S_ 32 100000#32),
    unary main_c_1 main_v2 (broadcastInDim S1024x20 ![] bcast_S_S1024x20 : (⟨S_, .i32⟩ : BufTy).Contents (Elt F) → (⟨S1024x20, .i32⟩ : BufTy).Contents (Elt F)),
    binary main_arg0 main_v2 main_v3 (addi : (⟨S1024x20, .i32⟩ : BufTy).Contents (Elt F) → (⟨S1024x20, .i32⟩ : BufTy).Contents (Elt F) → (⟨S1024x20, .i32⟩ : BufTy).Contents (Elt F)),
    ternary main_v1 main_v3 main_arg0 main_v4 (select : (⟨S1024x20, .i1⟩ : BufTy).Contents (Elt F) → (⟨S1024x20, .i32⟩ : BufTy).Contents (Elt F) → (⟨S1024x20, .i32⟩ : BufTy).Contents (Elt F) → (⟨S1024x20, .i32⟩ : BufTy).Contents (Elt F)),
    unary main_v4 main_v5 (broadcastInDim S1024x20x1 ![0, 1] bcast_S1024x20_S1024x20x1_0_1 : (⟨S1024x20, .i32⟩ : BufTy).Contents (Elt F) → (⟨S1024x20x1, .i32⟩ : BufTy).Contents (Elt F)),
    binary main_arg4 main_v5 main_v6 ((fun x i => Host.gather gather_S100000x128_S1024x20x1_S1024x20x128_2_0_n_n_0_2_1128 x i) : (⟨S100000x128, .f32⟩ : BufTy).Contents (Elt F) → (⟨S1024x20x1, .i32⟩ : BufTy).Contents (Elt F) → (⟨S1024x20x128, .f32⟩ : BufTy).Contents (Elt F)),
    nullary main_c_2 (constantI S_ 32 0#32),
    unary main_c_2 main_v7 (broadcastInDim S1024x200 ![] bcast_S_S1024x200 : (⟨S_, .i32⟩ : BufTy).Contents (Elt F) → (⟨S1024x200, .i32⟩ : BufTy).Contents (Elt F)),
    binary main_arg1 main_v7 main_v8 (cmpi .slt : (⟨S1024x200, .i32⟩ : BufTy).Contents (Elt F) → (⟨S1024x200, .i32⟩ : BufTy).Contents (Elt F) → (⟨S1024x200, .i1⟩ : BufTy).Contents (Elt F)),
    nullary main_c_3 (constantI S_ 32 100000#32),
    unary main_c_3 main_v9 (broadcastInDim S1024x200 ![] bcast_S_S1024x200 : (⟨S_, .i32⟩ : BufTy).Contents (Elt F) → (⟨S1024x200, .i32⟩ : BufTy).Contents (Elt F)),
    binary main_arg1 main_v9 main_v10 (addi : (⟨S1024x200, .i32⟩ : BufTy).Contents (Elt F) → (⟨S1024x200, .i32⟩ : BufTy).Contents (Elt F) → (⟨S1024x200, .i32⟩ : BufTy).Contents (Elt F)),
    ternary main_v8 main_v10 main_arg1 main_v11 (select : (⟨S1024x200, .i1⟩ : BufTy).Contents (Elt F) → (⟨S1024x200, .i32⟩ : BufTy).Contents (Elt F) → (⟨S1024x200, .i32⟩ : BufTy).Contents (Elt F) → (⟨S1024x200, .i32⟩ : BufTy).Contents (Elt F)),
    unary main_v11 main_v12 (broadcastInDim S1024x200x1 ![0, 1] bcast_S1024x200_S1024x200x1_0_1 : (⟨S1024x200, .i32⟩ : BufTy).Contents (Elt F) → (⟨S1024x200x1, .i32⟩ : BufTy).Contents (Elt F)),
    binary main_arg4 main_v12 main_v13 ((fun x i => Host.gather gather_S100000x128_S1024x200x1_S1024x200x128_2_0_n_n_0_2_1128 x i) : (⟨S100000x128, .f32⟩ : BufTy).Contents (Elt F) → (⟨S1024x200x1, .i32⟩ : BufTy).Contents (Elt F) → (⟨S1024x200x128, .f32⟩ : BufTy).Contents (Elt F)),
    binary main_v6 main_v13 main_v14 ((fun l r => Host.dotGeneral dot_S1024x20x128_S1024x200x128_S1024x20x200_2_2_1_1_0_0 none l r) : (⟨S1024x20x128, .f32⟩ : BufTy).Contents (Elt F) → (⟨S1024x200x128, .f32⟩ : BufTy).Contents (Elt F) → (⟨S1024x20x200, .f32⟩ : BufTy).Contents (Elt F)),
    binary main_v6 main_v6 main_v15 (mulf : (⟨S1024x20x128, .f32⟩ : BufTy).Contents (Elt F) → (⟨S1024x20x128, .f32⟩ : BufTy).Contents (Elt F) → (⟨S1024x20x128, .f32⟩ : BufTy).Contents (Elt F)),
    nullary main_cst_4 (constant S_ .f32 0x00000000#32),
    binary main_v15 main_cst_4 main_v16 ((fun x v => Host.reduceAdd x v reducesTo_S1024x20x128_S1024x20_d2 h_S_) : (⟨S1024x20x128, .f32⟩ : BufTy).Contents (Elt F) → (⟨S_, .f32⟩ : BufTy).Contents (Elt F) → (⟨S1024x20, .f32⟩ : BufTy).Contents (Elt F)),
    nullary main_cst_5 (constant S_ .f32 0x358637BD#32),
    unary main_cst_5 main_v17 (broadcastInDim S1024x20 ![] bcast_S_S1024x20 : (⟨S_, .f32⟩ : BufTy).Contents (Elt F) → (⟨S1024x20, .f32⟩ : BufTy).Contents (Elt F)),
    binary main_v16 main_v17 main_v18 (addf : (⟨S1024x20, .f32⟩ : BufTy).Contents (Elt F) → (⟨S1024x20, .f32⟩ : BufTy).Contents (Elt F) → (⟨S1024x20, .f32⟩ : BufTy).Contents (Elt F)),
    unary main_v18 main_v19 (Host.sqrt : (⟨S1024x20, .f32⟩ : BufTy).Contents (Elt F) → (⟨S1024x20, .f32⟩ : BufTy).Contents (Elt F)),
    binary main_v13 main_v13 main_v20 (mulf : (⟨S1024x200x128, .f32⟩ : BufTy).Contents (Elt F) → (⟨S1024x200x128, .f32⟩ : BufTy).Contents (Elt F) → (⟨S1024x200x128, .f32⟩ : BufTy).Contents (Elt F)),
    nullary main_cst_6 (constant S_ .f32 0x00000000#32),
    binary main_v20 main_cst_6 main_v21 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    nullary main_cst_7 (constant S_ .f32 0x358637BD#32),
    unary main_cst_7 main_v22 (broadcastInDim S1024x200 ![] bcast_S_S1024x200 : (⟨S_, .f32⟩ : BufTy).Contents (Elt F) → (⟨S1024x200, .f32⟩ : BufTy).Contents (Elt F)),
    binary main_v21 main_v22 main_v23 (addf : (⟨S1024x200, .f32⟩ : BufTy).Contents (Elt F) → (⟨S1024x200, .f32⟩ : BufTy).Contents (Elt F) → (⟨S1024x200, .f32⟩ : BufTy).Contents (Elt F)),
    unary main_v23 main_v24 (Host.sqrt : (⟨S1024x200, .f32⟩ : BufTy).Contents (Elt F) → (⟨S1024x200, .f32⟩ : BufTy).Contents (Elt F)),
    unary main_v19 main_v25 (broadcastInDim S1024x20x1 ![0, 1] bcast_S1024x20_S1024x20x1_0_1 : (⟨S1024x20, .f32⟩ : BufTy).Contents (Elt F) → (⟨S1024x20x1, .f32⟩ : BufTy).Contents (Elt F)),
    unary main_v24 main_v26 (broadcastInDim S1024x1x200 ![0, 2] bcast_S1024x200_S1024x1x200_0_2 : (⟨S1024x200, .f32⟩ : BufTy).Contents (Elt F) → (⟨S1024x1x200, .f32⟩ : BufTy).Contents (Elt F)),
    unary main_v25 main_v27 (broadcastInDim S1024x20x200 ![0, 1, 2] bcast_S1024x20x1_S1024x20x200_0_1_2 : (⟨S1024x20x1, .f32⟩ : BufTy).Contents (Elt F) → (⟨S1024x20x200, .f32⟩ : BufTy).Contents (Elt F)),
    unary main_v26 main_v28 (broadcastInDim S1024x20x200 ![0, 1, 2] bcast_S1024x1x200_S1024x20x200_0_1_2 : (⟨S1024x1x200, .f32⟩ : BufTy).Contents (Elt F) → (⟨S1024x20x200, .f32⟩ : BufTy).Contents (Elt F)),
    binary main_v27 main_v28 main_v29 (mulf : (⟨S1024x20x200, .f32⟩ : BufTy).Contents (Elt F) → (⟨S1024x20x200, .f32⟩ : BufTy).Contents (Elt F) → (⟨S1024x20x200, .f32⟩ : BufTy).Contents (Elt F)),
    binary main_v14 main_v29 main_v30 (Host.divf : (⟨S1024x20x200, .f32⟩ : BufTy).Contents (Elt F) → (⟨S1024x20x200, .f32⟩ : BufTy).Contents (Elt F) → (⟨S1024x20x200, .f32⟩ : BufTy).Contents (Elt F)),
    unary main_v30 main_v31 (broadcastInDim S1024x20x200x1 ![0, 1, 2] bcast_S1024x20x200_S1024x20x200x1_0_1_2 : (⟨S1024x20x200, .f32⟩ : BufTy).Contents (Elt F) → (⟨S1024x20x200x1, .f32⟩ : BufTy).Contents (Elt F)),
    unary main_cst main_v32 (broadcastInDim S1x1x1x21 ![3] bcast_S21_S1x1x1x21_3 : (⟨S21, .f32⟩ : BufTy).Contents (Elt F) → (⟨S1x1x1x21, .f32⟩ : BufTy).Contents (Elt F)),
    unary main_v31 main_v33 (broadcastInDim S1024x20x200x21 ![0, 1, 2, 3] bcast_S1024x20x200x1_S1024x20x200x21_0_1_2_3 : (⟨S1024x20x200x1, .f32⟩ : BufTy).Contents (Elt F) → (⟨S1024x20x200x21, .f32⟩ : BufTy).Contents (Elt F)),
    unary main_v32 main_v34 (broadcastInDim S1024x20x200x21 ![0, 1, 2, 3] bcast_S1x1x1x21_S1024x20x200x21_0_1_2_3 : (⟨S1x1x1x21, .f32⟩ : BufTy).Contents (Elt F) → (⟨S1024x20x200x21, .f32⟩ : BufTy).Contents (Elt F)),
    binary main_v33 main_v34 main_v35 (subf : (⟨S1024x20x200x21, .f32⟩ : BufTy).Contents (Elt F) → (⟨S1024x20x200x21, .f32⟩ : BufTy).Contents (Elt F) → (⟨S1024x20x200x21, .f32⟩ : BufTy).Contents (Elt F)),
    binary main_v35 main_v35 main_v36 (mulf : (⟨S1024x20x200x21, .f32⟩ : BufTy).Contents (Elt F) → (⟨S1024x20x200x21, .f32⟩ : BufTy).Contents (Elt F) → (⟨S1024x20x200x21, .f32⟩ : BufTy).Contents (Elt F)),
    unary main_v36 main_v37 (Host.negf : (⟨S1024x20x200x21, .f32⟩ : BufTy).Contents (Elt F) → (⟨S1024x20x200x21, .f32⟩ : BufTy).Contents (Elt F)),
    nullary main_cst_8 (constant S_ .f32 0x40000000#32),
    unary main_cst_8 main_v38 (broadcastInDim S21 ![] bcast_S_S21 : (⟨S_, .f32⟩ : BufTy).Contents (Elt F) → (⟨S21, .f32⟩ : BufTy).Contents (Elt F)),
    binary main_v38 main_cst_0 main_v39 (mulf : (⟨S21, .f32⟩ : BufTy).Contents (Elt F) → (⟨S21, .f32⟩ : BufTy).Contents (Elt F) → (⟨S21, .f32⟩ : BufTy).Contents (Elt F)),
    binary main_v39 main_cst_0 main_v40 (mulf : (⟨S21, .f32⟩ : BufTy).Contents (Elt F) → (⟨S21, .f32⟩ : BufTy).Contents (Elt F) → (⟨S21, .f32⟩ : BufTy).Contents (Elt F)),
    unary main_v40 main_v41 (broadcastInDim S1x1x1x21 ![3] bcast_S21_S1x1x1x21_3 : (⟨S21, .f32⟩ : BufTy).Contents (Elt F) → (⟨S1x1x1x21, .f32⟩ : BufTy).Contents (Elt F)),
    unary main_v41 main_v42 (broadcastInDim S1024x20x200x21 ![0, 1, 2, 3] bcast_S1x1x1x21_S1024x20x200x21_0_1_2_3 : (⟨S1x1x1x21, .f32⟩ : BufTy).Contents (Elt F) → (⟨S1024x20x200x21, .f32⟩ : BufTy).Contents (Elt F)),
    binary main_v37 main_v42 main_v43 (Host.divf : (⟨S1024x20x200x21, .f32⟩ : BufTy).Contents (Elt F) → (⟨S1024x20x200x21, .f32⟩ : BufTy).Contents (Elt F) → (⟨S1024x20x200x21, .f32⟩ : BufTy).Contents (Elt F)),
    unary main_v43 main_v44 (Host.exp : (⟨S1024x20x200x21, .f32⟩ : BufTy).Contents (Elt F) → (⟨S1024x20x200x21, .f32⟩ : BufTy).Contents (Elt F)),
    nullary main_cst_9 (constant S_ .f32 0x00000000#32),
    binary main_v44 main_cst_9 main_v45 ((fun x v => Host.reduceAdd x v reducesTo_S1024x20x200x21_S1024x20x21_d2 h_S_) : (⟨S1024x20x200x21, .f32⟩ : BufTy).Contents (Elt F) → (⟨S_, .f32⟩ : BufTy).Contents (Elt F) → (⟨S1024x20x21, .f32⟩ : BufTy).Contents (Elt F)),
    unary main_v45 main_v46 (Host.log1p : (⟨S1024x20x21, .f32⟩ : BufTy).Contents (Elt F) → (⟨S1024x20x21, .f32⟩ : BufTy).Contents (Elt F)),
    nullary main_cst_10 (constant S_ .f32 0x00000000#32) ]

theorem ops0_sub : (ops0 : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., unary_bufs_sub .., nullary_bufs_sub .., unary_bufs_sub .., binary_bufs_sub .., binary_bufs_sub .., unary_bufs_sub .., unary_bufs_sub .., binary_bufs_sub .., unary_bufs_sub .., nullary_bufs_sub .., binary_bufs_sub .., unary_bufs_sub .., nullary_bufs_sub ..⟩

/-- The operations of window 1 of @main (66 of them). -/
abbrev ops1 : List (HloOp τ sig (Elt F)) :=
  [ binary main_v46 main_cst_10 main_v47 ((fun x v => Host.reduceAdd x v reducesTo_S1024x20x21_S1024x21_d1 h_S_) : (⟨S1024x20x21, .f32⟩ : BufTy).Contents (Elt F) → (⟨S_, .f32⟩ : BufTy).Contents (Elt F) → (⟨S1024x21, .f32⟩ : BufTy).Contents (Elt F)),
    TRef.nullary main_call0.cst (constant S_ .f32 0x00000000#32),
    TRef.unary main_call0.cst main_call0.v0 (broadcastInDim S1024x21 ![] bcast_S_S1024x21),
    TRef.binary (.of main_v47) main_call0.v0 main_call0.v1 maximumf,
    unary main_arg5 main_v49 ((transpose S21x10 [1, 0] · transposes_S10x21_S21x10_1_0) : (⟨S10x21, .f32⟩ : BufTy).Contents (Elt F) → (⟨S21x10, .f32⟩ : BufTy).Contents (Elt F)),
    binary main_v48 main_v49 main_v50 ((fun l r => Host.dotGeneral dot_S1024x21_S21x10_S1024x10_1_0_0_1_n_n none l r) : (⟨S1024x21, .f32⟩ : BufTy).Contents (Elt F) → (⟨S21x10, .f32⟩ : BufTy).Contents (Elt F) → (⟨S1024x10, .f32⟩ : BufTy).Contents (Elt F)),
    unary main_arg6 main_v51 (broadcastInDim S1x10 ![1] bcast_S10_S1x10_1 : (⟨S10, .f32⟩ : BufTy).Contents (Elt F) → (⟨S1x10, .f32⟩ : BufTy).Contents (Elt F)),
    unary main_v51 main_v52 (broadcastInDim S1024x10 ![0, 1] bcast_S1x10_S1024x10_0_1 : (⟨S1x10, .f32⟩ : BufTy).Contents (Elt F) → (⟨S1024x10, .f32⟩ : BufTy).Contents (Elt F)),
    binary main_v50 main_v52 main_v53 (addf : (⟨S1024x10, .f32⟩ : BufTy).Contents (Elt F) → (⟨S1024x10, .f32⟩ : BufTy).Contents (Elt F) → (⟨S1024x10, .f32⟩ : BufTy).Contents (Elt F)),
    TRef.nullary main_call1.cst (constant S_ .f32 0x00000000#32),
    TRef.unary main_call1.cst main_call1.v0 (broadcastInDim S1024x10 ![] bcast_S_S1024x10),
    TRef.binary (.of main_v53) main_call1.v0 main_call1.v1 maximumf,
    unary main_arg7 main_v55 ((transpose S10x5 [1, 0] · transposes_S5x10_S10x5_1_0) : (⟨S5x10, .f32⟩ : BufTy).Contents (Elt F) → (⟨S10x5, .f32⟩ : BufTy).Contents (Elt F)),
    binary main_v54 main_v55 main_v56 ((fun l r => Host.dotGeneral dot_S1024x10_S10x5_S1024x5_1_0_0_1_n_n none l r) : (⟨S1024x10, .f32⟩ : BufTy).Contents (Elt F) → (⟨S10x5, .f32⟩ : BufTy).Contents (Elt F) → (⟨S1024x5, .f32⟩ : BufTy).Contents (Elt F)),
    unary main_arg8 main_v57 (broadcastInDim S1x5 ![1] bcast_S5_S1x5_1 : (⟨S5, .f32⟩ : BufTy).Contents (Elt F) → (⟨S1x5, .f32⟩ : BufTy).Contents (Elt F)),
    unary main_v57 main_v58 (broadcastInDim S1024x5 ![0, 1] bcast_S1x5_S1024x5_0_1 : (⟨S1x5, .f32⟩ : BufTy).Contents (Elt F) → (⟨S1024x5, .f32⟩ : BufTy).Contents (Elt F)),
    binary main_v56 main_v58 main_v59 (addf : (⟨S1024x5, .f32⟩ : BufTy).Contents (Elt F) → (⟨S1024x5, .f32⟩ : BufTy).Contents (Elt F) → (⟨S1024x5, .f32⟩ : BufTy).Contents (Elt F)),
    TRef.nullary main_call2.cst (constant S_ .f32 0x00000000#32),
    TRef.unary main_call2.cst main_call2.v0 (broadcastInDim S1024x5 ![] bcast_S_S1024x5),
    TRef.binary (.of main_v59) main_call2.v0 main_call2.v1 maximumf,
    unary main_arg9 main_v61 ((transpose S5x1 [1, 0] · transposes_S1x5_S5x1_1_0) : (⟨S1x5, .f32⟩ : BufTy).Contents (Elt F) → (⟨S5x1, .f32⟩ : BufTy).Contents (Elt F)),
    binary main_v60 main_v61 main_v62 ((fun l r => Host.dotGeneral dot_S1024x5_S5x1_S1024x1_1_0_0_1_n_n none l r) : (⟨S1024x5, .f32⟩ : BufTy).Contents (Elt F) → (⟨S5x1, .f32⟩ : BufTy).Contents (Elt F) → (⟨S1024x1, .f32⟩ : BufTy).Contents (Elt F)),
    unary main_arg10 main_v63 (broadcastInDim S1x1 ![1] bcast_S1_S1x1_1 : (⟨S1, .f32⟩ : BufTy).Contents (Elt F) → (⟨S1x1, .f32⟩ : BufTy).Contents (Elt F)),
    unary main_v63 main_v64 (broadcastInDim S1024x1 ![0, 1] bcast_S1x1_S1024x1_0_1 : (⟨S1x1, .f32⟩ : BufTy).Contents (Elt F) → (⟨S1024x1, .f32⟩ : BufTy).Contents (Elt F)),
    binary main_v62 main_v64 main_v65 (addf : (⟨S1024x1, .f32⟩ : BufTy).Contents (Elt F) → (⟨S1024x1, .f32⟩ : BufTy).Contents (Elt F) → (⟨S1024x1, .f32⟩ : BufTy).Contents (Elt F)),
    nullary main_c_11 (constantI S_ 32 0#32),
    unary main_c_11 main_v66 (broadcastInDim S1024x20 ![] bcast_S_S1024x20 : (⟨S_, .i32⟩ : BufTy).Contents (Elt F) → (⟨S1024x20, .i32⟩ : BufTy).Contents (Elt F)),
    binary main_arg2 main_v66 main_v67 (cmpi .slt : (⟨S1024x20, .i32⟩ : BufTy).Contents (Elt F) → (⟨S1024x20, .i32⟩ : BufTy).Contents (Elt F) → (⟨S1024x20, .i1⟩ : BufTy).Contents (Elt F)),
    nullary main_c_12 (constantI S_ 32 100000#32),
    unary main_c_12 main_v68 (broadcastInDim S1024x20 ![] bcast_S_S1024x20 : (⟨S_, .i32⟩ : BufTy).Contents (Elt F) → (⟨S1024x20, .i32⟩ : BufTy).Contents (Elt F)),
    binary main_arg2 main_v68 main_v69 (addi : (⟨S1024x20, .i32⟩ : BufTy).Contents (Elt F) → (⟨S1024x20, .i32⟩ : BufTy).Contents (Elt F) → (⟨S1024x20, .i32⟩ : BufTy).Contents (Elt F)),
    ternary main_v67 main_v69 main_arg2 main_v70 (select : (⟨S1024x20, .i1⟩ : BufTy).Contents (Elt F) → (⟨S1024x20, .i32⟩ : BufTy).Contents (Elt F) → (⟨S1024x20, .i32⟩ : BufTy).Contents (Elt F) → (⟨S1024x20, .i32⟩ : BufTy).Contents (Elt F)),
    unary main_v70 main_v71 (broadcastInDim S1024x20x1 ![0, 1] bcast_S1024x20_S1024x20x1_0_1 : (⟨S1024x20, .i32⟩ : BufTy).Contents (Elt F) → (⟨S1024x20x1, .i32⟩ : BufTy).Contents (Elt F)),
    binary main_arg4 main_v71 main_v72 ((fun x i => Host.gather gather_S100000x128_S1024x20x1_S1024x20x128_2_0_n_n_0_2_1128 x i) : (⟨S100000x128, .f32⟩ : BufTy).Contents (Elt F) → (⟨S1024x20x1, .i32⟩ : BufTy).Contents (Elt F) → (⟨S1024x20x128, .f32⟩ : BufTy).Contents (Elt F)),
    nullary main_c_13 (constantI S_ 32 0#32),
    unary main_c_13 main_v73 (broadcastInDim S1024x200 ![] bcast_S_S1024x200 : (⟨S_, .i32⟩ : BufTy).Contents (Elt F) → (⟨S1024x200, .i32⟩ : BufTy).Contents (Elt F)),
    binary main_arg3 main_v73 main_v74 (cmpi .slt : (⟨S1024x200, .i32⟩ : BufTy).Contents (Elt F) → (⟨S1024x200, .i32⟩ : BufTy).Contents (Elt F) → (⟨S1024x200, .i1⟩ : BufTy).Contents (Elt F)),
    nullary main_c_14 (constantI S_ 32 100000#32),
    unary main_c_14 main_v75 (broadcastInDim S1024x200 ![] bcast_S_S1024x200 : (⟨S_, .i32⟩ : BufTy).Contents (Elt F) → (⟨S1024x200, .i32⟩ : BufTy).Contents (Elt F)),
    binary main_arg3 main_v75 main_v76 (addi : (⟨S1024x200, .i32⟩ : BufTy).Contents (Elt F) → (⟨S1024x200, .i32⟩ : BufTy).Contents (Elt F) → (⟨S1024x200, .i32⟩ : BufTy).Contents (Elt F)),
    ternary main_v74 main_v76 main_arg3 main_v77 (select : (⟨S1024x200, .i1⟩ : BufTy).Contents (Elt F) → (⟨S1024x200, .i32⟩ : BufTy).Contents (Elt F) → (⟨S1024x200, .i32⟩ : BufTy).Contents (Elt F) → (⟨S1024x200, .i32⟩ : BufTy).Contents (Elt F)),
    unary main_v77 main_v78 (broadcastInDim S1024x200x1 ![0, 1] bcast_S1024x200_S1024x200x1_0_1 : (⟨S1024x200, .i32⟩ : BufTy).Contents (Elt F) → (⟨S1024x200x1, .i32⟩ : BufTy).Contents (Elt F)),
    binary main_arg4 main_v78 main_v79 ((fun x i => Host.gather gather_S100000x128_S1024x200x1_S1024x200x128_2_0_n_n_0_2_1128 x i) : (⟨S100000x128, .f32⟩ : BufTy).Contents (Elt F) → (⟨S1024x200x1, .i32⟩ : BufTy).Contents (Elt F) → (⟨S1024x200x128, .f32⟩ : BufTy).Contents (Elt F)),
    binary main_v72 main_v79 main_v80 ((fun l r => Host.dotGeneral dot_S1024x20x128_S1024x200x128_S1024x20x200_2_2_1_1_0_0 none l r) : (⟨S1024x20x128, .f32⟩ : BufTy).Contents (Elt F) → (⟨S1024x200x128, .f32⟩ : BufTy).Contents (Elt F) → (⟨S1024x20x200, .f32⟩ : BufTy).Contents (Elt F)),
    binary main_v72 main_v72 main_v81 (mulf : (⟨S1024x20x128, .f32⟩ : BufTy).Contents (Elt F) → (⟨S1024x20x128, .f32⟩ : BufTy).Contents (Elt F) → (⟨S1024x20x128, .f32⟩ : BufTy).Contents (Elt F)),
    nullary main_cst_15 (constant S_ .f32 0x00000000#32),
    binary main_v81 main_cst_15 main_v82 ((fun x v => Host.reduceAdd x v reducesTo_S1024x20x128_S1024x20_d2 h_S_) : (⟨S1024x20x128, .f32⟩ : BufTy).Contents (Elt F) → (⟨S_, .f32⟩ : BufTy).Contents (Elt F) → (⟨S1024x20, .f32⟩ : BufTy).Contents (Elt F)),
    nullary main_cst_16 (constant S_ .f32 0x358637BD#32),
    unary main_cst_16 main_v83 (broadcastInDim S1024x20 ![] bcast_S_S1024x20 : (⟨S_, .f32⟩ : BufTy).Contents (Elt F) → (⟨S1024x20, .f32⟩ : BufTy).Contents (Elt F)),
    binary main_v82 main_v83 main_v84 (addf : (⟨S1024x20, .f32⟩ : BufTy).Contents (Elt F) → (⟨S1024x20, .f32⟩ : BufTy).Contents (Elt F) → (⟨S1024x20, .f32⟩ : BufTy).Contents (Elt F)),
    unary main_v84 main_v85 (Host.sqrt : (⟨S1024x20, .f32⟩ : BufTy).Contents (Elt F) → (⟨S1024x20, .f32⟩ : BufTy).Contents (Elt F)),
    binary main_v79 main_v79 main_v86 (mulf : (⟨S1024x200x128, .f32⟩ : BufTy).Contents (Elt F) → (⟨S1024x200x128, .f32⟩ : BufTy).Contents (Elt F) → (⟨S1024x200x128, .f32⟩ : BufTy).Contents (Elt F)),
    nullary main_cst_17 (constant S_ .f32 0x00000000#32),
    binary main_v86 main_cst_17 main_v87 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    nullary main_cst_18 (constant S_ .f32 0x358637BD#32),
    unary main_cst_18 main_v88 (broadcastInDim S1024x200 ![] bcast_S_S1024x200 : (⟨S_, .f32⟩ : BufTy).Contents (Elt F) → (⟨S1024x200, .f32⟩ : BufTy).Contents (Elt F)),
    binary main_v87 main_v88 main_v89 (addf : (⟨S1024x200, .f32⟩ : BufTy).Contents (Elt F) → (⟨S1024x200, .f32⟩ : BufTy).Contents (Elt F) → (⟨S1024x200, .f32⟩ : BufTy).Contents (Elt F)),
    unary main_v89 main_v90 (Host.sqrt : (⟨S1024x200, .f32⟩ : BufTy).Contents (Elt F) → (⟨S1024x200, .f32⟩ : BufTy).Contents (Elt F)),
    unary main_v85 main_v91 (broadcastInDim S1024x20x1 ![0, 1] bcast_S1024x20_S1024x20x1_0_1 : (⟨S1024x20, .f32⟩ : BufTy).Contents (Elt F) → (⟨S1024x20x1, .f32⟩ : BufTy).Contents (Elt F)),
    unary main_v90 main_v92 (broadcastInDim S1024x1x200 ![0, 2] bcast_S1024x200_S1024x1x200_0_2 : (⟨S1024x200, .f32⟩ : BufTy).Contents (Elt F) → (⟨S1024x1x200, .f32⟩ : BufTy).Contents (Elt F)),
    unary main_v91 main_v93 (broadcastInDim S1024x20x200 ![0, 1, 2] bcast_S1024x20x1_S1024x20x200_0_1_2 : (⟨S1024x20x1, .f32⟩ : BufTy).Contents (Elt F) → (⟨S1024x20x200, .f32⟩ : BufTy).Contents (Elt F)),
    unary main_v92 main_v94 (broadcastInDim S1024x20x200 ![0, 1, 2] bcast_S1024x1x200_S1024x20x200_0_1_2 : (⟨S1024x1x200, .f32⟩ : BufTy).Contents (Elt F) → (⟨S1024x20x200, .f32⟩ : BufTy).Contents (Elt F)),
    binary main_v93 main_v94 main_v95 (mulf : (⟨S1024x20x200, .f32⟩ : BufTy).Contents (Elt F) → (⟨S1024x20x200, .f32⟩ : BufTy).Contents (Elt F) → (⟨S1024x20x200, .f32⟩ : BufTy).Contents (Elt F)),
    binary main_v80 main_v95 main_v96 (Host.divf : (⟨S1024x20x200, .f32⟩ : BufTy).Contents (Elt F) → (⟨S1024x20x200, .f32⟩ : BufTy).Contents (Elt F) → (⟨S1024x20x200, .f32⟩ : BufTy).Contents (Elt F)),
    unary main_v96 main_v97 (broadcastInDim S1024x20x200x1 ![0, 1, 2] bcast_S1024x20x200_S1024x20x200x1_0_1_2 : (⟨S1024x20x200, .f32⟩ : BufTy).Contents (Elt F) → (⟨S1024x20x200x1, .f32⟩ : BufTy).Contents (Elt F)),
    unary main_cst main_v98 (broadcastInDim S1x1x1x21 ![3] bcast_S21_S1x1x1x21_3 : (⟨S21, .f32⟩ : BufTy).Contents (Elt F) → (⟨S1x1x1x21, .f32⟩ : BufTy).Contents (Elt F)) ]

theorem ops1_sub : (ops1 : List (HloOp τ sig (Elt F))).Forall fun op => op.bufs ⊆ tcRefs τ sig :=
  ⟨binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., unary_bufs_sub .., unary_bufs_sub .., unary_bufs_sub .., binary_bufs_sub .., binary_bufs_sub .., unary_bufs_sub .., unary_bufs_sub ..⟩

/-- The operations of window 2 of @main (51 of them). -/
abbrev ops2 : List (HloOp τ sig (Elt F)) :=
  [ unary main_v97 main_v99 (broadcastInDim S1024x20x200x21 ![0, 1, 2, 3] bcast_S1024x20x200x1_S1024x20x200x21_0_1_2_3 : (⟨S1024x20x200x1, .f32⟩ : BufTy).Contents (Elt F) → (⟨S1024x20x200x21, .f32⟩ : BufTy).Contents (Elt F)),
    unary main_v98 main_v100 (broadcastInDim S1024x20x200x21 ![0, 1, 2, 3] bcast_S1x1x1x21_S1024x20x200x21_0_1_2_3 : (⟨S1x1x1x21, .f32⟩ : BufTy).Contents (Elt F) → (⟨S1024x20x200x21, .f32⟩ : BufTy).Contents (Elt F)),
    binary main_v99 main_v100 main_v101 (subf : (⟨S1024x20x200x21, .f32⟩ : BufTy).Contents (Elt F) → (⟨S1024x20x200x21, .f32⟩ : BufTy).Contents (Elt F) → (⟨S1024x20x200x21, .f32⟩ : BufTy).Contents (Elt F)),
    binary main_v101 main_v101 main_v102 (mulf : (⟨S1024x20x200x21, .f32⟩ : BufTy).Contents (Elt F) → (⟨S1024x20x200x21, .f32⟩ : BufTy).Contents (Elt F) → (⟨S1024x20x200x21, .f32⟩ : BufTy).Contents (Elt F)),
    unary main_v102 main_v103 (Host.negf : (⟨S1024x20x200x21, .f32⟩ : BufTy).Contents (Elt F) → (⟨S1024x20x200x21, .f32⟩ : BufTy).Contents (Elt F)),
    nullary main_cst_19 (constant S_ .f32 0x40000000#32),
    unary main_cst_19 main_v104 (broadcastInDim S21 ![] bcast_S_S21 : (⟨S_, .f32⟩ : BufTy).Contents (Elt F) → (⟨S21, .f32⟩ : BufTy).Contents (Elt F)),
    binary main_v104 main_cst_0 main_v105 (mulf : (⟨S21, .f32⟩ : BufTy).Contents (Elt F) → (⟨S21, .f32⟩ : BufTy).Contents (Elt F) → (⟨S21, .f32⟩ : BufTy).Contents (Elt F)),
    binary main_v105 main_cst_0 main_v106 (mulf : (⟨S21, .f32⟩ : BufTy).Contents (Elt F) → (⟨S21, .f32⟩ : BufTy).Contents (Elt F) → (⟨S21, .f32⟩ : BufTy).Contents (Elt F)),
    unary main_v106 main_v107 (broadcastInDim S1x1x1x21 ![3] bcast_S21_S1x1x1x21_3 : (⟨S21, .f32⟩ : BufTy).Contents (Elt F) → (⟨S1x1x1x21, .f32⟩ : BufTy).Contents (Elt F)),
    unary main_v107 main_v108 (broadcastInDim S1024x20x200x21 ![0, 1, 2, 3] bcast_S1x1x1x21_S1024x20x200x21_0_1_2_3 : (⟨S1x1x1x21, .f32⟩ : BufTy).Contents (Elt F) → (⟨S1024x20x200x21, .f32⟩ : BufTy).Contents (Elt F)),
    binary main_v103 main_v108 main_v109 (Host.divf : (⟨S1024x20x200x21, .f32⟩ : BufTy).Contents (Elt F) → (⟨S1024x20x200x21, .f32⟩ : BufTy).Contents (Elt F) → (⟨S1024x20x200x21, .f32⟩ : BufTy).Contents (Elt F)),
    unary main_v109 main_v110 (Host.exp : (⟨S1024x20x200x21, .f32⟩ : BufTy).Contents (Elt F) → (⟨S1024x20x200x21, .f32⟩ : BufTy).Contents (Elt F)),
    nullary main_cst_20 (constant S_ .f32 0x00000000#32),
    binary main_v110 main_cst_20 main_v111 ((fun x v => Host.reduceAdd x v reducesTo_S1024x20x200x21_S1024x20x21_d2 h_S_) : (⟨S1024x20x200x21, .f32⟩ : BufTy).Contents (Elt F) → (⟨S_, .f32⟩ : BufTy).Contents (Elt F) → (⟨S1024x20x21, .f32⟩ : BufTy).Contents (Elt F)),
    unary main_v111 main_v112 (Host.log1p : (⟨S1024x20x21, .f32⟩ : BufTy).Contents (Elt F) → (⟨S1024x20x21, .f32⟩ : BufTy).Contents (Elt F)),
    nullary main_cst_21 (constant S_ .f32 0x00000000#32),
    binary main_v112 main_cst_21 main_v113 ((fun x v => Host.reduceAdd x v reducesTo_S1024x20x21_S1024x21_d1 h_S_) : (⟨S1024x20x21, .f32⟩ : BufTy).Contents (Elt F) → (⟨S_, .f32⟩ : BufTy).Contents (Elt F) → (⟨S1024x21, .f32⟩ : BufTy).Contents (Elt F)),
    TRef.nullary main_call3.cst (constant S_ .f32 0x00000000#32),
    TRef.unary main_call3.cst main_call3.v0 (broadcastInDim S1024x21 ![] bcast_S_S1024x21),
    TRef.binary (.of main_v113) main_call3.v0 main_call3.v1 maximumf,
    unary main_arg5 main_v115 ((transpose S21x10 [1, 0] · transposes_S10x21_S21x10_1_0) : (⟨S10x21, .f32⟩ : BufTy).Contents (Elt F) → (⟨S21x10, .f32⟩ : BufTy).Contents (Elt F)),
    binary main_v114 main_v115 main_v116 ((fun l r => Host.dotGeneral dot_S1024x21_S21x10_S1024x10_1_0_0_1_n_n none l r) : (⟨S1024x21, .f32⟩ : BufTy).Contents (Elt F) → (⟨S21x10, .f32⟩ : BufTy).Contents (Elt F) → (⟨S1024x10, .f32⟩ : BufTy).Contents (Elt F)),
    unary main_arg6 main_v117 (broadcastInDim S1x10 ![1] bcast_S10_S1x10_1 : (⟨S10, .f32⟩ : BufTy).Contents (Elt F) → (⟨S1x10, .f32⟩ : BufTy).Contents (Elt F)),
    unary main_v117 main_v118 (broadcastInDim S1024x10 ![0, 1] bcast_S1x10_S1024x10_0_1 : (⟨S1x10, .f32⟩ : BufTy).Contents (Elt F) → (⟨S1024x10, .f32⟩ : BufTy).Contents (Elt F)),
    binary main_v116 main_v118 main_v119 (addf : (⟨S1024x10, .f32⟩ : BufTy).Contents (Elt F) → (⟨S1024x10, .f32⟩ : BufTy).Contents (Elt F) → (⟨S1024x10, .f32⟩ : BufTy).Contents (Elt F)),
    TRef.nullary main_call4.cst (constant S_ .f32 0x00000000#32),
    TRef.unary main_call4.cst main_call4.v0 (broadcastInDim S1024x10 ![] bcast_S_S1024x10),
    TRef.binary (.of main_v119) main_call4.v0 main_call4.v1 maximumf,
    unary main_arg7 main_v121 ((transpose S10x5 [1, 0] · transposes_S5x10_S10x5_1_0) : (⟨S5x10, .f32⟩ : BufTy).Contents (Elt F) → (⟨S10x5, .f32⟩ : BufTy).Contents (Elt F)),
    binary main_v120 main_v121 main_v122 ((fun l r => Host.dotGeneral dot_S1024x10_S10x5_S1024x5_1_0_0_1_n_n none l r) : (⟨S1024x10, .f32⟩ : BufTy).Contents (Elt F) → (⟨S10x5, .f32⟩ : BufTy).Contents (Elt F) → (⟨S1024x5, .f32⟩ : BufTy).Contents (Elt F)),
    unary main_arg8 main_v123 (broadcastInDim S1x5 ![1] bcast_S5_S1x5_1 : (⟨S5, .f32⟩ : BufTy).Contents (Elt F) → (⟨S1x5, .f32⟩ : BufTy).Contents (Elt F)),
    unary main_v123 main_v124 (broadcastInDim S1024x5 ![0, 1] bcast_S1x5_S1024x5_0_1 : (⟨S1x5, .f32⟩ : BufTy).Contents (Elt F) → (⟨S1024x5, .f32⟩ : BufTy).Contents (Elt F)),
    binary main_v122 main_v124 main_v125 (addf : (⟨S1024x5, .f32⟩ : BufTy).Contents (Elt F) → (⟨S1024x5, .f32⟩ : BufTy).Contents (Elt F) → (⟨S1024x5, .f32⟩ : BufTy).Contents (Elt F)),
    TRef.nullary main_call5.cst (constant S_ .f32 0x00000000#32),
    TRef.unary main_call5.cst main_call5.v0 (broadcastInDim S1024x5 ![] bcast_S_S1024x5),
    TRef.binary (.of main_v125) main_call5.v0 main_call5.v1 maximumf,
    unary main_arg9 main_v127 ((transpose S5x1 [1, 0] · transposes_S1x5_S5x1_1_0) : (⟨S1x5, .f32⟩ : BufTy).Contents (Elt F) → (⟨S5x1, .f32⟩ : BufTy).Contents (Elt F)),
    binary main_v126 main_v127 main_v128 ((fun l r => Host.dotGeneral dot_S1024x5_S5x1_S1024x1_1_0_0_1_n_n none l r) : (⟨S1024x5, .f32⟩ : BufTy).Contents (Elt F) → (⟨S5x1, .f32⟩ : BufTy).Contents (Elt F) → (⟨S1024x1, .f32⟩ : BufTy).Contents (Elt F)),
    unary main_arg10 main_v129 (broadcastInDim S1x1 ![1] bcast_S1_S1x1_1 : (⟨S1, .f32⟩ : BufTy).Contents (Elt F) → (⟨S1x1, .f32⟩ : BufTy).Contents (Elt F)),
    unary main_v129 main_v130 (broadcastInDim S1024x1 ![0, 1] bcast_S1x1_S1024x1_0_1 : (⟨S1x1, .f32⟩ : BufTy).Contents (Elt F) → (⟨S1024x1, .f32⟩ : BufTy).Contents (Elt F)),
    binary main_v128 main_v130 main_v131 (addf : (⟨S1024x1, .f32⟩ : BufTy).Contents (Elt F) → (⟨S1024x1, .f32⟩ : BufTy).Contents (Elt F) → (⟨S1024x1, .f32⟩ : BufTy).Contents (Elt F)),
    binary main_v65 main_v131 main_v132 (subf : (⟨S1024x1, .f32⟩ : BufTy).Contents (Elt F) → (⟨S1024x1, .f32⟩ : BufTy).Contents (Elt F) → (⟨S1024x1, .f32⟩ : BufTy).Contents (Elt F)),
    unary main_v132 main_v133 (Host.negf : (⟨S1024x1, .f32⟩ : BufTy).Contents (Elt F) → (⟨S1024x1, .f32⟩ : BufTy).Contents (Elt F)),
    unary main_v133 main_v134 (Host.exp : (⟨S1024x1, .f32⟩ : BufTy).Contents (Elt F) → (⟨S1024x1, .f32⟩ : BufTy).Contents (Elt F)),
    nullary main_cst_22 (constant S_ .f32 0x3F800000#32),
    unary main_cst_22 main_v135 (broadcastInDim S1024x1 ![] bcast_S_S1024x1 : (⟨S_, .f32⟩ : BufTy).Contents (Elt F) → (⟨S1024x1, .f32⟩ : BufTy).Contents (Elt F)),
    binary main_v135 main_v134 main_v136 (addf : (⟨S1024x1, .f32⟩ : BufTy).Contents (Elt F) → (⟨S1024x1, .f32⟩ : BufTy).Contents (Elt F) → (⟨S1024x1, .f32⟩ : BufTy).Contents (Elt F)),
    nullary main_cst_23 (constant S_ .f32 0x3F800000#32),
    unary main_cst_23 main_v137 (broadcastInDim S1024x1 ![] bcast_S_S1024x1 : (⟨S_, .f32⟩ : BufTy).Contents (Elt F) → (⟨S1024x1, .f32⟩ : BufTy).Contents (Elt F)),
    binary main_v137 main_v136 main_v138 (Host.divf : (⟨S1024x1, .f32⟩ : BufTy).Contents (Elt F) → (⟨S1024x1, .f32⟩ : BufTy).Contents (Elt F) → (⟨S1024x1, .f32⟩ : BufTy).Contents (Elt F)) ]

theorem ops2_sub : (ops2 : List (HloOp τ sig (Elt F))).Forall fun op => op.bufs ⊆ tcRefs τ sig :=
  ⟨unary_bufs_sub .., unary_bufs_sub .., binary_bufs_sub .., binary_bufs_sub .., unary_bufs_sub .., nullary_bufs_sub .., unary_bufs_sub .., binary_bufs_sub .., binary_bufs_sub .., unary_bufs_sub .., unary_bufs_sub .., binary_bufs_sub .., unary_bufs_sub .., nullary_bufs_sub .., binary_bufs_sub .., unary_bufs_sub .., nullary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

end Cert.ReferenceIdeal.RefRun

end
-- ==== Proof.RefRun.lean ====
/-
  The reference program's @main is the straight line of its host operations: window by window it is the sequence of the
  operations listed in program order, so every weakly fair execution terminates with each TensorCore buffer at the fold of
  the operations over the launch contents.
-/
import proofs.«136225_j57483842290258_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order. -/
abbrev ops : List (HloOp τ sig (Elt F)) := ops0 ++ ops1 ++ ops2

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with (h | h) | h
    exacts [List.forall_iff_forall_mem.mp ops0_sub op h, List.forall_iff_forall_mem.mp ops1_sub op h,
      List.forall_iff_forall_mem.mp ops2_sub op h]

/-- Every weakly fair execution of @main terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerms.lean ====
/-
  The reference's result as a composition of named stretches of its host operations, each stretch written with the
  program's own operations in the program's own order, so that the fold of the operation list is this composition
  by unfolding alone:
    starts / rows      the token ids (a negative one wrapped by the table's height) as gather start indices, and the
                       embedding rows they select;
    lengths            the floored Euclidean length of every embedded token;
    simMat             the cosine-similarity matrix of a query's and a document's tokens;
    pooled             the 21 Gaussian bumps of the matrix pooled over the document (sum), through log1p, over the query (sum);
    mlp                three dense layers, a relu in front of each;
    out                the logistic of the difference of the two pairs' logits, spelt 1 / (1 + exp (-x)).
-/
import proofs.«136225_j57483842290258_1_alg».proof.Proof.Gen.ReferenceIdeal

noncomputable section

namespace Cert.ReferenceIdeal.Terms

open Cert.ReferenceIdeal Cert.ReferenceIdeal.Gen Idealize.ShloMosaic Idealize.ShloMosaic.TcCoe Idealize.SL.Sem

variable {F : FTy → Type} [FloatOps F]

/-- A query's token ids as gather start indices. -/
def starts20 (ids : (⟨S1024x20, .i32⟩ : BufTy).Contents (Elt F)) : (⟨S1024x20x1, .i32⟩ : BufTy).Contents (Elt F) :=
  broadcastInDim S1024x20x1 ![0, 1] bcast_S1024x20_S1024x20x1_0_1 (select (cmpi .slt ids (broadcastInDim S1024x20 ![] bcast_S_S1024x20 (constantI S_ 32 0#32))) (addi ids (broadcastInDim S1024x20 ![] bcast_S_S1024x20 (constantI S_ 32 100000#32))) ids)

/-- A document's token ids as gather start indices. -/
def starts200 (ids : (⟨S1024x200, .i32⟩ : BufTy).Contents (Elt F)) : (⟨S1024x200x1, .i32⟩ : BufTy).Contents (Elt F) :=
  broadcastInDim S1024x200x1 ![0, 1] bcast_S1024x200_S1024x200x1_0_1 (select (cmpi .slt ids (broadcastInDim S1024x200 ![] bcast_S_S1024x200 (constantI S_ 32 0#32))) (addi ids (broadcastInDim S1024x200 ![] bcast_S_S1024x200 (constantI S_ 32 100000#32))) ids)

/-- The embedding rows of a query's tokens. -/
def rows20 (emb : (⟨S100000x128, .f32⟩ : BufTy).Contents (Elt F)) (ids : (⟨S1024x20, .i32⟩ : BufTy).Contents (Elt F)) :
    (⟨S1024x20x128, .f32⟩ : BufTy).Contents (Elt F) :=
  Host.gather gather_S100000x128_S1024x20x1_S1024x20x128_2_0_n_n_0_2_1128 emb (starts20 ids)

/-- The embedding rows of a document's tokens. -/
def rows200 (emb : (⟨S100000x128, .f32⟩ : BufTy).Contents (Elt F)) (ids : (⟨S1024x200, .i32⟩ : BufTy).Contents (Elt F)) :
    (⟨S1024x200x128, .f32⟩ : BufTy).Contents (Elt F) :=
  Host.gather gather_S100000x128_S1024x200x1_S1024x200x128_2_0_n_n_0_2_1128 emb (starts200 ids)

/-- The floored lengths of a query's embedded tokens. -/
def lengths20 (q : (⟨S1024x20x128, .f32⟩ : BufTy).Contents (Elt F)) : (⟨S1024x20, .f32⟩ : BufTy).Contents (Elt F) :=
  Host.sqrt (addf (Host.reduceAdd (mulf q q) (constant S_ .f32 0x00000000#32) reducesTo_S1024x20x128_S1024x20_d2 h_S_) (broadcastInDim S1024x20 ![] bcast_S_S1024x20 (constant S_ .f32 0x358637BD#32)))

/-- The floored lengths of a document's embedded tokens. -/
def lengths200 (d : (⟨S1024x200x128, .f32⟩ : BufTy).Contents (Elt F)) : (⟨S1024x200, .f32⟩ : BufTy).Contents (Elt F) :=
  Host.sqrt (addf (Host.reduceAdd (mulf d d) (constant S_ .f32 0x00000000#32) reducesTo_S1024x200x128_S1024x200_d2 h_S_) (broadcastInDim S1024x200 ![] bcast_S_S1024x200 (constant S_ .f32 0x358637BD#32)))

/-- The cosine-similarity matrices, one per batch row. -/
def simMat (q : (⟨S1024x20x128, .f32⟩ : BufTy).Contents (Elt F)) (d : (⟨S1024x200x128, .f32⟩ : BufTy).Contents (Elt F)) :
    (⟨S1024x20x200, .f32⟩ : BufTy).Contents (Elt F) :=
  Host.divf (Host.dotGeneral dot_S1024x20x128_S1024x200x128_S1024x20x200_2_2_1_1_0_0 none q d) (mulf (broadcastInDim S1024x20x200 ![0, 1, 2] bcast_S1024x20x1_S1024x20x200_0_1_2 (broadcastInDim S1024x20x1 ![0, 1] bcast_S1024x20_S1024x20x1_0_1 (lengths20 q))) (broadcastInDim S1024x20x200 ![0, 1, 2] bcast_S1024x1x200_S1024x20x200_0_1_2 (broadcastInDim S1024x1x200 ![0, 2] bcast_S1024x200_S1024x1x200_0_2 (lengths200 d))))

/-- The bumps' centres: the program's first literal table. -/
def centres : (⟨S21, .f32⟩ : BufTy).Contents (Elt F) := fun i => FloatOps.ofBits .f32 (lit0 (S21.rowMajor i))

/-- The bumps' standard deviations: the program's second literal table. -/
def sigmas : (⟨S21, .f32⟩ : BufTy).Contents (Elt F) := fun i => FloatOps.ofBits .f32 (lit1 (S21.rowMajor i))

/-- The 21 pooled features of every batch row. -/
def pooled (M : (⟨S1024x20x200, .f32⟩ : BufTy).Contents (Elt F)) : (⟨S1024x21, .f32⟩ : BufTy).Contents (Elt F) :=
  Host.reduceAdd (Host.log1p (Host.reduceAdd (Host.exp (Host.divf (Host.negf (mulf (subf (broadcastInDim S1024x20x200x21 ![0, 1, 2, 3] bcast_S1024x20x200x1_S1024x20x200x21_0_1_2_3 (broadcastInDim S1024x20x200x1 ![0, 1, 2] bcast_S1024x20x200_S1024x20x200x1_0_1_2 M)) (broadcastInDim S1024x20x200x21 ![0, 1, 2, 3] bcast_S1x1x1x21_S1024x20x200x21_0_1_2_3 (broadcastInDim S1x1x1x21 ![3] bcast_S21_S1x1x1x21_3 centres))) (subf (broadcastInDim S1024x20x200x21 ![0, 1, 2, 3] bcast_S1024x20x200x1_S1024x20x200x21_0_1_2_3 (broadcastInDim S1024x20x200x1 ![0, 1, 2] bcast_S1024x20x200_S1024x20x200x1_0_1_2 M)) (broadcastInDim S1024x20x200x21 ![0, 1, 2, 3] bcast_S1x1x1x21_S1024x20x200x21_0_1_2_3 (broadcastInDim S1x1x1x21 ![3] bcast_S21_S1x1x1x21_3 centres))))) (broadcastInDim S1024x20x200x21 ![0, 1, 2, 3] bcast_S1x1x1x21_S1024x20x200x21_0_1_2_3 (broadcastInDim S1x1x1x21 ![3] bcast_S21_S1x1x1x21_3 (mulf (mulf (broadcastInDim S21 ![] bcast_S_S21 (constant S_ .f32 0x40000000#32)) sigmas) sigmas))))) (constant S_ .f32 0x00000000#32) reducesTo_S1024x20x200x21_S1024x20x21_d2 h_S_)) (constant S_ .f32 0x00000000#32) reducesTo_S1024x20x21_S1024x21_d1 h_S_

/-- The three dense layers, a relu in front of each. -/
def mlp (k : (⟨S1024x21, .f32⟩ : BufTy).Contents (Elt F)) (W1 : (⟨S10x21, .f32⟩ : BufTy).Contents (Elt F))
    (b1 : (⟨S10, .f32⟩ : BufTy).Contents (Elt F)) (W2 : (⟨S5x10, .f32⟩ : BufTy).Contents (Elt F))
    (b2 : (⟨S5, .f32⟩ : BufTy).Contents (Elt F)) (W3 : (⟨S1x5, .f32⟩ : BufTy).Contents (Elt F))
    (b3 : (⟨S1, .f32⟩ : BufTy).Contents (Elt F)) : (⟨S1024x1, .f32⟩ : BufTy).Contents (Elt F) :=
  addf (Host.dotGeneral dot_S1024x5_S5x1_S1024x1_1_0_0_1_n_n none (maximumf (addf (Host.dotGeneral dot_S1024x10_S10x5_S1024x5_1_0_0_1_n_n none (maximumf (addf (Host.dotGeneral dot_S1024x21_S21x10_S1024x10_1_0_0_1_n_n none (maximumf k (broadcastInDim S1024x21 ![] bcast_S_S1024x21 (constant S_ .f32 0x00000000#32))) (transpose S21x10 [1, 0] W1 transposes_S10x21_S21x10_1_0)) (broadcastInDim S1024x10 ![0, 1] bcast_S1x10_S1024x10_0_1 (broadcastInDim S1x10 ![1] bcast_S10_S1x10_1 b1))) (broadcastInDim S1024x10 ![] bcast_S_S1024x10 (constant S_ .f32 0x00000000#32))) (transpose S10x5 [1, 0] W2 transposes_S5x10_S10x5_1_0)) (broadcastInDim S1024x5 ![0, 1] bcast_S1x5_S1024x5_0_1 (broadcastInDim S1x5 ![1] bcast_S5_S1x5_1 b2))) (broadcastInDim S1024x5 ![] bcast_S_S1024x5 (constant S_ .f32 0x00000000#32))) (transpose S5x1 [1, 0] W3 transposes_S1x5_S5x1_1_0)) (broadcastInDim S1024x1 ![0, 1] bcast_S1x1_S1024x1_0_1 (broadcastInDim S1x1 ![1] bcast_S1_S1x1_1 b3))

/-- The logistic of the difference of two logit columns, as the program spells it. -/
def sigm (l1 l2 : (⟨S1024x1, .f32⟩ : BufTy).Contents (Elt F)) : (⟨S1024x1, .f32⟩ : BufTy).Contents (Elt F) :=
  Host.divf (broadcastInDim S1024x1 ![] bcast_S_S1024x1 (constant S_ .f32 0x3F800000#32)) (addf (broadcastInDim S1024x1 ![] bcast_S_S1024x1 (constant S_ .f32 0x3F800000#32)) (Host.exp (Host.negf (subf l1 l2))))

/-- The logit column of one (query, document) pair per batch row. -/
def predict (emb : (⟨S100000x128, .f32⟩ : BufTy).Contents (Elt F)) (qi : (⟨S1024x20, .i32⟩ : BufTy).Contents (Elt F))
    (di : (⟨S1024x200, .i32⟩ : BufTy).Contents (Elt F)) (W1 : (⟨S10x21, .f32⟩ : BufTy).Contents (Elt F))
    (b1 : (⟨S10, .f32⟩ : BufTy).Contents (Elt F)) (W2 : (⟨S5x10, .f32⟩ : BufTy).Contents (Elt F))
    (b2 : (⟨S5, .f32⟩ : BufTy).Contents (Elt F)) (W3 : (⟨S1x5, .f32⟩ : BufTy).Contents (Elt F))
    (b3 : (⟨S1, .f32⟩ : BufTy).Contents (Elt F)) : (⟨S1024x1, .f32⟩ : BufTy).Contents (Elt F) :=
  mlp (pooled (simMat (rows20 emb qi) (rows200 emb di))) W1 b1 W2 b2 W3 b3

/-- The reference's result. -/
def out (q1 : (⟨S1024x20, .i32⟩ : BufTy).Contents (Elt F)) (d1 : (⟨S1024x200, .i32⟩ : BufTy).Contents (Elt F))
    (q2 : (⟨S1024x20, .i32⟩ : BufTy).Contents (Elt F)) (d2 : (⟨S1024x200, .i32⟩ : BufTy).Contents (Elt F))
    (emb : (⟨S100000x128, .f32⟩ : BufTy).Contents (Elt F)) (W1 : (⟨S10x21, .f32⟩ : BufTy).Contents (Elt F))
    (b1 : (⟨S10, .f32⟩ : BufTy).Contents (Elt F)) (W2 : (⟨S5x10, .f32⟩ : BufTy).Contents (Elt F))
    (b2 : (⟨S5, .f32⟩ : BufTy).Contents (Elt F)) (W3 : (⟨S1x5, .f32⟩ : BufTy).Contents (Elt F))
    (b3 : (⟨S1, .f32⟩ : BufTy).Contents (Elt F)) : (⟨S1024x1, .f32⟩ : BufTy).Contents (Elt F) :=
  sigm (predict emb q1 d1 W1 b1 W2 b2 W3 b3) (predict emb q2 d2 W1 b1 W2 b2 W3 b3)

end Cert.ReferenceIdeal.Terms

end
-- ==== Proof.RefValue.lean ====
/-
  What the reference's operation list leaves in its result buffer: the composition of the named stretches (Terms.out) of the
  argument arrays; the arguments themselves are left as they were. So every weakly fair execution of the reference ends with
  its result at that composition of the launch contents.
-/
import proofs.«136225_j57483842290258_1_alg».proof.Proof.RefRun
import proofs.«136225_j57483842290258_1_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lists run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The Gaussian bumps of a similarity matrix (given already widened by a unit axis) about the widened centres: the
    exponential of minus the squared distance over twice the squared deviation, summed over the document axis and
    passed through log1p. -/
def bumps (m1 : (⟨S1024x20x200x1, .f32⟩ : BufTy).Contents (Elt F)) (c1 : (⟨S1x1x1x21, .f32⟩ : BufTy).Contents (Elt F))
    (sg : (⟨S21, .f32⟩ : BufTy).Contents (Elt F)) : (⟨S1024x20x21, .f32⟩ : BufTy).Contents (Elt F) :=
  Host.log1p (Host.reduceAdd (Host.exp (Host.divf (Host.negf (mulf (subf (broadcastInDim S1024x20x200x21 ![0, 1, 2, 3] bcast_S1024x20x200x1_S1024x20x200x21_0_1_2_3 m1) (broadcastInDim S1024x20x200x21 ![0, 1, 2, 3] bcast_S1x1x1x21_S1024x20x200x21_0_1_2_3 c1)) (subf (broadcastInDim S1024x20x200x21 ![0, 1, 2, 3] bcast_S1024x20x200x1_S1024x20x200x21_0_1_2_3 m1) (broadcastInDim S1024x20x200x21 ![0, 1, 2, 3] bcast_S1x1x1x21_S1024x20x200x21_0_1_2_3 c1)))) (broadcastInDim S1024x20x200x21 ![0, 1, 2, 3] bcast_S1x1x1x21_S1024x20x200x21_0_1_2_3 (broadcastInDim S1x1x1x21 ![3] bcast_S21_S1x1x1x21_3 (mulf (mulf (broadcastInDim S21 ![] bcast_S_S21 (constant S_ .f32 0x40000000#32)) sg) sg))))) (constant S_ .f32 0x00000000#32) reducesTo_S1024x20x200x21_S1024x20x21_d2 h_S_)

/-- The pooled features are the bumps summed over the query axis. -/
theorem pooled_eq (M : (⟨S1024x20x200, .f32⟩ : BufTy).Contents (Elt F)) :
    Terms.pooled M = Host.reduceAdd (bumps (broadcastInDim S1024x20x200x1 ![0, 1, 2] bcast_S1024x20x200_S1024x20x200x1_0_1_2 M) (broadcastInDim S1x1x1x21 ![3] bcast_S21_S1x1x1x21_3 Terms.centres) Terms.sigmas) (constant S_ .f32 0x00000000#32) reducesTo_S1024x20x21_S1024x21_d1 h_S_ := rfl

/-- The program's eleven arguments. -/
abbrev argRefs : List (Ref sig .tc) :=
  [main_arg0, main_arg1, main_arg2, main_arg3, main_arg4, main_arg5, main_arg6, main_arg7, main_arg8, main_arg9, main_arg10]

/-! ## Window 0: the first pair up to the inner sum's log1p, and the two literal tables -/

attribute [local irreducible] Host.reduceAdd Host.gather in
set_option maxRecDepth 16384 in
set_option maxHeartbeats 1000000 in
/-- After window 0 the inner sums' buffer holds the first pair's bumps: of its similarity matrix, about the centres, by the deviations. -/
theorem w0_v46 (W : Valuation τ sig (Elt F)) :
    after ops0 W (main_v46 : DevRef τ sig) = bumps (broadcastInDim S1024x20x200x1 ![0, 1, 2] bcast_S1024x20x200_S1024x20x200x1_0_1_2 (Terms.simMat (Terms.rows20 (W (main_arg4 : DevRef τ sig)) (W (main_arg0 : DevRef τ sig))) (Terms.rows200 (W (main_arg4 : DevRef τ sig)) (W (main_arg1 : DevRef τ sig))))) (broadcastInDim S1x1x1x21 ![3] bcast_S21_S1x1x1x21_3 Terms.centres) Terms.sigmas := by
  simp only [after_cons, after_nil]
  rfl

attribute [local irreducible] Host.reduceAdd Host.gather in
set_option maxRecDepth 16384 in
set_option maxHeartbeats 1000000 in
/-- After window 0 the scalar the sum over the query axis starts from is zero. -/
theorem w0_cst_10 (W : Valuation τ sig (Elt F)) : after ops0 W (main_cst_10 : DevRef τ sig) = (constant S_ .f32 0x00000000#32) := by
  simp only [after_cons, after_nil]
  rfl

attribute [local irreducible] Host.reduceAdd Host.gather in
set_option maxRecDepth 16384 in
set_option maxHeartbeats 1000000 in
/-- After window 0 the first literal table holds the centres. -/
theorem w0_cst (W : Valuation τ sig (Elt F)) : after ops0 W (main_cst : DevRef τ sig) = Terms.centres := by
  simp only [after_cons, after_nil]
  rfl

attribute [local irreducible] Host.reduceAdd Host.gather in
set_option maxRecDepth 16384 in
set_option maxHeartbeats 1000000 in
/-- After window 0 the second literal table holds the deviations. -/
theorem w0_cst_0 (W : Valuation τ sig (Elt F)) : after ops0 W (main_cst_0 : DevRef τ sig) = Terms.sigmas := by
  simp only [after_cons, after_nil]
  rfl

attribute [local irreducible] Host.reduceAdd Host.gather in
set_option maxRecDepth 16384 in
set_option maxHeartbeats 1000000 in
/-- None of these operations writes an argument's buffer. -/
theorem ops0_args (W : Valuation τ sig (Elt F)) (r : Ref sig .tc) (hr : r ∈ argRefs) :
    after ops0 W (Proc.devRef .tc r) = W (Proc.devRef .tc r) := by
  simp only [argRefs, List.mem_cons, List.not_mem_nil, or_false] at hr
  simp only [after_cons, after_nil]
  rcases hr with rfl | rfl | rfl | rfl | rfl | rfl | rfl | rfl | rfl | rfl | rfl <;> rfl

/-! ## Window 1: the first pair's logits, and the second pair up to its widened similarity matrix -/

attribute [local irreducible] Host.reduceAdd Host.gather in
set_option maxRecDepth 16384 in
set_option maxHeartbeats 1000000 in
/-- After window 1 the first pair's logits: the three dense layers of the inner sums summed over the query axis. -/
theorem w1_v65 (W : Valuation τ sig (Elt F)) :
    after ops1 W (main_v65 : DevRef τ sig)
      = Terms.mlp (Host.reduceAdd (W (main_v46 : DevRef τ sig)) (W (main_cst_10 : DevRef τ sig)) reducesTo_S1024x20x21_S1024x21_d1 h_S_) (W (main_arg5 : DevRef τ sig)) (W (main_arg6 : DevRef τ sig)) (W (main_arg7 : DevRef τ sig)) (W (main_arg8 : DevRef τ sig)) (W (main_arg9 : DevRef τ sig)) (W (main_arg10 : DevRef τ sig)) := by
  simp only [after_cons, after_nil]
  rfl

attribute [local irreducible] Host.reduceAdd Host.gather in
set_option maxRecDepth 16384 in
set_option maxHeartbeats 1000000 in
/-- After window 1 the second pair's similarity matrix, widened by a unit axis. -/
theorem w1_v97 (W : Valuation τ sig (Elt F)) :
    after ops1 W (main_v97 : DevRef τ sig) = broadcastInDim S1024x20x200x1 ![0, 1, 2] bcast_S1024x20x200_S1024x20x200x1_0_1_2 (Terms.simMat (Terms.rows20 (W (main_arg4 : DevRef τ sig)) (W (main_arg2 : DevRef τ sig))) (Terms.rows200 (W (main_arg4 : DevRef τ sig)) (W (main_arg3 : DevRef τ sig)))) := by
  simp only [after_cons, after_nil]
  rfl

attribute [local irreducible] Host.reduceAdd Host.gather in
set_option maxRecDepth 16384 in
set_option maxHeartbeats 1000000 in
/-- After window 1 the centres' table, widened to rank four. -/
theorem w1_v98 (W : Valuation τ sig (Elt F)) :
    after ops1 W (main_v98 : DevRef τ sig) = broadcastInDim S1x1x1x21 ![3] bcast_S21_S1x1x1x21_3 (W (main_cst : DevRef τ sig)) := by
  simp only [after_cons, after_nil]
  rfl

attribute [local irreducible] Host.reduceAdd Host.gather in
set_option maxRecDepth 16384 in
set_option maxHeartbeats 1000000 in
/-- Window 1 leaves the deviations' table as it was. -/
theorem w1_cst_0 (W : Valuation τ sig (Elt F)) :
    after ops1 W (main_cst_0 : DevRef τ sig) = W (main_cst_0 : DevRef τ sig) := by
  simp only [after_cons, after_nil]
  rfl

attribute [local irreducible] Host.reduceAdd Host.gather in
set_option maxRecDepth 16384 in
set_option maxHeartbeats 1000000 in
/-- None of these operations writes an argument's buffer. -/
theorem ops1_args (W : Valuation τ sig (Elt F)) (r : Ref sig .tc) (hr : r ∈ argRefs) :
    after ops1 W (Proc.devRef .tc r) = W (Proc.devRef .tc r) := by
  simp only [argRefs, List.mem_cons, List.not_mem_nil, or_false] at hr
  simp only [after_cons, after_nil]
  rcases hr with rfl | rfl | rfl | rfl | rfl | rfl | rfl | rfl | rfl | rfl | rfl <;> rfl

/-! ## Window 2: the second pair's bumps, pooling and logits, and the logistic of the difference -/

attribute [local irreducible] Host.reduceAdd Host.gather in
set_option maxRecDepth 16384 in
set_option maxHeartbeats 1000000 in
/-- After window 2 the result: the logistic of the first pair's logits less the second pair's, these from the bumps of the matrix, centres and deviations the window finds. -/
theorem w2_v138 (W : Valuation τ sig (Elt F)) :
    after ops2 W (main_v138 : DevRef τ sig)
      = Terms.sigm (W (main_v65 : DevRef τ sig)) (Terms.mlp (Host.reduceAdd (bumps (W (main_v97 : DevRef τ sig)) (W (main_v98 : DevRef τ sig)) (W (main_cst_0 : DevRef τ sig))) (constant S_ .f32 0x00000000#32) reducesTo_S1024x20x21_S1024x21_d1 h_S_) (W (main_arg5 : DevRef τ sig)) (W (main_arg6 : DevRef τ sig)) (W (main_arg7 : DevRef τ sig)) (W (main_arg8 : DevRef τ sig)) (W (main_arg9 : DevRef τ sig)) (W (main_arg10 : DevRef τ sig))) := by
  simp only [after_cons, after_nil]
  rfl

attribute [local irreducible] Host.reduceAdd Host.gather in
set_option maxRecDepth 16384 in
set_option maxHeartbeats 1000000 in
/-- None of these operations writes an argument's buffer. -/
theorem ops2_args (W : Valuation τ sig (Elt F)) (r : Ref sig .tc) (hr : r ∈ argRefs) :
    after ops2 W (Proc.devRef .tc r) = W (Proc.devRef .tc r) := by
  simp only [argRefs, List.mem_cons, List.not_mem_nil, or_false] at hr
  simp only [after_cons, after_nil]
  rcases hr with rfl | rfl | rfl | rfl | rfl | rfl | rfl | rfl | rfl | rfl | rfl <;> rfl

/-- No operation of the program writes an argument's buffer. -/
theorem ops_args (V : Valuation τ sig (Elt F)) (r : Ref sig .tc) (hr : r ∈ argRefs) :
    after ops V (Proc.devRef .tc r) = V (Proc.devRef .tc r) := by
  simp only [ops, after_app]
  rw [ops2_args _ r hr, ops1_args _ r hr, ops0_args _ r hr]

/-- The fold of the operations at the result buffer is the named composition of the arguments. -/
theorem out_eq (V : Valuation τ sig (Elt F)) :
    after ops V (main_v138 : DevRef τ sig)
      = Terms.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  have a0 := fun r hr => ops0_args V r hr
  have a1 := fun r hr => (ops1_args (after ops0 V) r hr).trans (a0 r hr)
  simp only [ops, after_app]
  rw [w2_v138, w1_v65, w1_v97, w1_v98, w1_cst_0, w0_v46, w0_cst_10, w0_cst, w0_cst_0]
  rw [a1 main_arg5 (by decide), a1 main_arg6 (by decide), a1 main_arg7 (by decide), a1 main_arg8 (by decide), a1 main_arg9 (by decide), a1 main_arg10 (by decide),
    a0 main_arg2 (by decide), a0 main_arg3 (by decide), a0 main_arg4 (by decide), a0 main_arg5 (by decide), a0 main_arg6 (by decide), a0 main_arg7 (by decide), a0 main_arg8 (by decide), a0 main_arg9 (by decide), a0 main_arg10 (by decide)]
  rfl

/-- Every weakly fair execution of the reference terminates with its result at `Terms.out` of the launch contents of
    its arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = Terms.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v138).trans (out_eq (launchContents m c)),
      (h c main_arg0).trans (ops_args (launchContents m c) main_arg0 (by decide)),
      (h c main_arg1).trans (ops_args (launchContents m c) main_arg1 (by decide)),
      (h c main_arg2).trans (ops_args (launchContents m c) main_arg2 (by decide)),
      (h c main_arg3).trans (ops_args (launchContents m c) main_arg3 (by decide)),
      (h c main_arg4).trans (ops_args (launchContents m c) main_arg4 (by decide)),
      (h c main_arg5).trans (ops_args (launchContents m c) main_arg5 (by decide)),
      (h c main_arg6).trans (ops_args (launchContents m c) main_arg6 (by decide)),
      (h c main_arg7).trans (ops_args (launchContents m c) main_arg7 (by decide)),
      (h c main_arg8).trans (ops_args (launchContents m c) main_arg8 (by decide)),
      (h c main_arg9).trans (ops_args (launchContents m c) main_arg9 (by decide)),
      (h c main_arg10).trans (ops_args (launchContents m c) main_arg10 (by decide))⟩)
    (run_main m ρ)

end Cert.ReferenceIdeal.RefRun

end
-- ==== Proof.RefPool.lean ====
/-
  The reference's pooled features read at an index: entry (b, k) of `pooled (simMat q d)` is bump `k` of batch row
  `b`'s similarity matrix pooled over the document and the query, `Knrm.feat`.

  Each stretch is read at an index, innermost first: a token's floored length is `Knrm.rowNorm` of its embedding row; an
  entry of the similarity matrix is `Knrm.cosSim` of a query row and a document row (the batched product is the sum over
  the embedding axis, the two lengths are laid along the other operand's axis); the literal tables give bump `k` its centre
  `Knrm.mu k` and, the quotient by 2 σ σ being the product with 1 / (2 σ²), its inverse width `Knrm.width k`; the two host
  sums, from 0 over one axis each, are the sums over the document and over the query.
-/
import proofs.«136225_j57483842290258_1_alg».proof.Proof.RefTerms
import proofs.«136225_j57483842290258_1_alg».proof.Proof.Spec
import Idealize.ShloMosaic.Lib.ValueIdx
import Idealize.ShloMosaic.Lib.Pipeline.Value
import Idealize.ShloMosaic.PureOps.Ideal.Laws

noncomputable section

namespace Cert.ReferenceIdeal.RefPool

open Cert.ReferenceIdeal Cert.ReferenceIdeal.Gen Idealize.ShloMosaic Idealize.ShloMosaic.TcCoe Idealize.ShloMosaic.ValueIdx

/-- The host sum over the embedding axis of a [1024, 20, 128] array, from 0, at (b, i): the sum of its 128 entries there. -/
theorem sum128_20 (x : S1024x20x128.Idx → EReal) (b : Fin 1024) (i : Fin 20) :
    Ideal.hostReduceAdd reducesTo_S1024x20x128_S1024x20_d2 x 0 (ix2 b i) = ∑ e : Fin 128, x (ix3 b i e) := by
  rw [Ideal.hostReduceAdd_single reducesTo_S1024x20x128_S1024x20_d2 (by decide), zero_add]
  refine Finset.sum_congr rfl fun k _ => ?_
  exact congrArg x (funext fun a => Fin.ext (by match a with | ⟨0, _⟩ => rfl | ⟨1, _⟩ => rfl | ⟨2, _⟩ => rfl))

/-- The floored length of the query's token (b, i) is the floored Euclidean length of its embedding row. -/
theorem lengths20_apply (q : FVec Ideal S1024x20x128 .f32) (b : Fin 1024) (i : Fin 20) :
    Terms.lengths20 (F := Ideal) q (ix2 b i) = Cert.Knrm.rowNorm (fun e => q (ix3 b i e)) := by
  unfold Terms.lengths20 Cert.Knrm.rowNorm Cert.Knrm.eps
  show Ideal.sqrt (Ideal.hostReduceAdd reducesTo_S1024x20x128_S1024x20_d2 (mulf q q) (Ideal.ofBits .f32 0x00000000#32) (ix2 b i) + Ideal.ofBits .f32 0x358637BD#32) = _
  rw [Ideal.ofBits_zero_f32, sum128_20]
  rfl

/-- The host sum over the embedding axis of a [1024, 200, 128] array, from 0, at (b, j): the sum of its 128 entries there. -/
theorem sum128_200 (x : S1024x200x128.Idx → EReal) (b : Fin 1024) (j : Fin 200) :
    Ideal.hostReduceAdd reducesTo_S1024x200x128_S1024x200_d2 x 0 (ix2 b j) = ∑ e : Fin 128, x (ix3 b j e) := by
  rw [Ideal.hostReduceAdd_single reducesTo_S1024x200x128_S1024x200_d2 (by decide), zero_add]
  refine Finset.sum_congr rfl fun k _ => ?_
  exact congrArg x (funext fun a => Fin.ext (by match a with | ⟨0, _⟩ => rfl | ⟨1, _⟩ => rfl | ⟨2, _⟩ => rfl))

/-- The floored length of the document's token (b, j) is the floored Euclidean length of its embedding row. -/
theorem lengths200_apply (d : FVec Ideal S1024x200x128 .f32) (b : Fin 1024) (j : Fin 200) :
    Terms.lengths200 (F := Ideal) d (ix2 b j) = Cert.Knrm.rowNorm (fun e => d (ix3 b j e)) := by
  unfold Terms.lengths200 Cert.Knrm.rowNorm Cert.Knrm.eps
  show Ideal.sqrt (Ideal.hostReduceAdd reducesTo_S1024x200x128_S1024x200_d2 (mulf d d) (Ideal.ofBits .f32 0x00000000#32) (ix2 b j) + Ideal.ofBits .f32 0x358637BD#32) = _
  rw [Ideal.ofBits_zero_f32, sum128_200]
  rfl

/-- A [1024,20] array laid along a new unit axis and then along 200 columns reads its (b, i) entry. -/
theorem bcast_q_apply (v : S1024x20.Idx → EReal) (b : Fin 1024) (i : Fin 20) (j : Fin 200) :
    broadcastInDim S1024x20x200 ![0, 1, 2] bcast_S1024x20x1_S1024x20x200_0_1_2
      (broadcastInDim S1024x20x1 ![0, 1] bcast_S1024x20_S1024x20x1_0_1 v) (ix3 b i j) = v (ix2 b i) := by
  refine (broadcastInDim_apply ![0, 1, 2] bcast_S1024x20x1_S1024x20x200_0_1_2 _ (ix3 b i j) (ix3 b i (0 : Fin 1)) ?_).trans ?_
  · intro a; match a with | ⟨0, _⟩ => rfl | ⟨1, _⟩ => rfl | ⟨2, _⟩ => rfl
  · refine broadcastInDim_apply ![0, 1] bcast_S1024x20_S1024x20x1_0_1 v (ix3 b i (0 : Fin 1)) (ix2 b i) ?_
    intro a; match a with | ⟨0, _⟩ => rfl | ⟨1, _⟩ => rfl

/-- A [1024,200] array laid along a new unit axis 1 and then along 20 rows reads its (b, j) entry. -/
theorem bcast_d_apply (v : S1024x200.Idx → EReal) (b : Fin 1024) (i : Fin 20) (j : Fin 200) :
    broadcastInDim S1024x20x200 ![0, 1, 2] bcast_S1024x1x200_S1024x20x200_0_1_2
      (broadcastInDim S1024x1x200 ![0, 2] bcast_S1024x200_S1024x1x200_0_2 v) (ix3 b i j) = v (ix2 b j) := by
  refine (broadcastInDim_apply ![0, 1, 2] bcast_S1024x1x200_S1024x20x200_0_1_2 _ (ix3 b i j) (ix3 b (0 : Fin 1) j) ?_).trans ?_
  · intro a; match a with | ⟨0, _⟩ => rfl | ⟨1, _⟩ => rfl | ⟨2, _⟩ => rfl
  · refine broadcastInDim_apply ![0, 2] bcast_S1024x200_S1024x1x200_0_2 v (ix3 b (0 : Fin 1) j) (ix2 b j) ?_
    intro a; match a with | ⟨0, _⟩ => rfl | ⟨1, _⟩ => rfl

/-- The left operand's index at result (b, i, j) and contraction position e is (b, i, e): its batch axis. -/
theorem lhs_dot_0 (i : S1024x20x200.Idx) (q : dot_S1024x20x128_S1024x200x128_S1024x20x200_2_2_1_1_0_0.contr.Idx) :
    (dot_S1024x20x128_S1024x200x128_S1024x20x200_2_2_1_1_0_0.lhsIdx i q 0).val = (i 0).val := by
  unfold DotDims.lhsIdx
  rw [dif_pos (show (0 : Fin S1024x20x128.rank) ∈ dot_S1024x20x128_S1024x200x128_S1024x20x200_2_2_1_1_0_0.lhsBatch by decide)]
  rfl

/-- … its free axis. -/
theorem lhs_dot_1 (i : S1024x20x200.Idx) (q : dot_S1024x20x128_S1024x200x128_S1024x20x200_2_2_1_1_0_0.contr.Idx) :
    (dot_S1024x20x128_S1024x200x128_S1024x20x200_2_2_1_1_0_0.lhsIdx i q 1).val = (i 1).val := by
  unfold DotDims.lhsIdx
  rw [dif_neg (show ¬(1 : Fin S1024x20x128.rank) ∈ dot_S1024x20x128_S1024x200x128_S1024x20x200_2_2_1_1_0_0.lhsBatch by decide), dif_pos (show (1 : Fin S1024x20x128.rank) ∈ dot_S1024x20x128_S1024x200x128_S1024x20x200_2_2_1_1_0_0.lhsNonContracting by decide)]
  rfl

/-- … its contracted axis. -/
theorem lhs_dot_2 (i : S1024x20x200.Idx) (q : dot_S1024x20x128_S1024x200x128_S1024x20x200_2_2_1_1_0_0.contr.Idx) :
    (dot_S1024x20x128_S1024x200x128_S1024x20x200_2_2_1_1_0_0.lhsIdx i q 2).val = (q ⟨0, by decide⟩).val :=
  dot_S1024x20x128_S1024x200x128_S1024x20x200_2_2_1_1_0_0.lhsIdx_val_of_single rfl i q

/-- The right operand's index at result (b, i, j) and contraction position e is (b, j, e): its batch axis. -/
theorem rhs_dot_0 (i : S1024x20x200.Idx) (q : dot_S1024x20x128_S1024x200x128_S1024x20x200_2_2_1_1_0_0.contr.Idx) :
    (dot_S1024x20x128_S1024x200x128_S1024x20x200_2_2_1_1_0_0.rhsIdx i q 0).val = (i 0).val := by
  unfold DotDims.rhsIdx
  rw [dif_pos (show (0 : Fin S1024x200x128.rank) ∈ dot_S1024x20x128_S1024x200x128_S1024x20x200_2_2_1_1_0_0.rhsBatch by decide)]
  rfl

/-- … its free axis. -/
theorem rhs_dot_1 (i : S1024x20x200.Idx) (q : dot_S1024x20x128_S1024x200x128_S1024x20x200_2_2_1_1_0_0.contr.Idx) :
    (dot_S1024x20x128_S1024x200x128_S1024x20x200_2_2_1_1_0_0.rhsIdx i q 1).val = (i 2).val := by
  unfold DotDims.rhsIdx
  rw [dif_neg (show ¬(1 : Fin S1024x200x128.rank) ∈ dot_S1024x20x128_S1024x200x128_S1024x20x200_2_2_1_1_0_0.rhsBatch by decide), dif_pos (show (1 : Fin S1024x200x128.rank) ∈ dot_S1024x20x128_S1024x200x128_S1024x20x200_2_2_1_1_0_0.rhsNonContracting by decide)]
  rfl

/-- … its contracted axis. -/
theorem rhs_dot_2 (i : S1024x20x200.Idx) (q : dot_S1024x20x128_S1024x200x128_S1024x20x200_2_2_1_1_0_0.contr.Idx) :
    (dot_S1024x20x128_S1024x200x128_S1024x20x200_2_2_1_1_0_0.rhsIdx i q 2).val = (q ⟨0, by decide⟩).val :=
  dot_S1024x20x128_S1024x200x128_S1024x20x200_2_2_1_1_0_0.rhsIdx_val_of_single rfl i q

/-- The batched product at (b, i, j): the sum over the embedding axis of row (b, i) of the query times row (b, j) of the document. -/
theorem dot_apply (q : FVec Ideal S1024x20x128 .f32) (d : FVec Ideal S1024x200x128 .f32) (b : Fin 1024) (i : Fin 20) (j : Fin 200) :
    Host.dotGeneral (F := Ideal) dot_S1024x20x128_S1024x200x128_S1024x20x200_2_2_1_1_0_0 none q d (ix3 b i j)
      = ∑ e : Fin 128, q (ix3 b i e) * d (ix3 b j e) := by
  simp only [Host.dotGeneral]
  rw [Ideal.dotGeneral_apply, ← Equiv.sum_comp (ValueIdx.contrEquiv1 dot_S1024x20x128_S1024x200x128_S1024x20x200_2_2_1_1_0_0 128 rfl rfl).symm]
  refine Finset.sum_congr rfl fun k _ => ?_
  have hk := ValueIdx.contrEquiv1_symm_val dot_S1024x20x128_S1024x200x128_S1024x20x200_2_2_1_1_0_0 128 rfl rfl k
  have el : dot_S1024x20x128_S1024x200x128_S1024x20x200_2_2_1_1_0_0.lhsIdx (ix3 b i j) ((ValueIdx.contrEquiv1 dot_S1024x20x128_S1024x200x128_S1024x20x200_2_2_1_1_0_0 128 rfl rfl).symm k) = ix3 b i k := funext fun a => Fin.ext (by
    match a with
    | ⟨0, _⟩ => exact lhs_dot_0 _ _
    | ⟨1, _⟩ => exact lhs_dot_1 _ _
    | ⟨2, _⟩ => exact (lhs_dot_2 _ _).trans hk)
  have er : dot_S1024x20x128_S1024x200x128_S1024x20x200_2_2_1_1_0_0.rhsIdx (ix3 b i j) ((ValueIdx.contrEquiv1 dot_S1024x20x128_S1024x200x128_S1024x20x200_2_2_1_1_0_0 128 rfl rfl).symm k) = ix3 b j k := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-- Entry (b, i, j) of the similarity matrices is the cosine similarity of row (b, i) of the query and row (b, j) of the document. -/
theorem simMat_apply (q : FVec Ideal S1024x20x128 .f32) (d : FVec Ideal S1024x200x128 .f32) (b : Fin 1024) (i : Fin 20) (j : Fin 200) :
    Terms.simMat (F := Ideal) q d (ix3 b i j) = Cert.Knrm.cosSim (fun e => q (ix3 b i e)) (fun e => d (ix3 b j e)) := by
  unfold Terms.simMat Cert.Knrm.cosSim
  show Ideal.div (Host.dotGeneral (F := Ideal) dot_S1024x20x128_S1024x200x128_S1024x20x200_2_2_1_1_0_0 none q d (ix3 b i j))
      (broadcastInDim S1024x20x200 ![0, 1, 2] bcast_S1024x20x1_S1024x20x200_0_1_2
          (broadcastInDim S1024x20x1 ![0, 1] bcast_S1024x20_S1024x20x1_0_1 (Terms.lengths20 (F := Ideal) q)) (ix3 b i j)
        * broadcastInDim S1024x20x200 ![0, 1, 2] bcast_S1024x1x200_S1024x20x200_0_1_2
          (broadcastInDim S1024x1x200 ![0, 2] bcast_S1024x200_S1024x1x200_0_2 (Terms.lengths200 (F := Ideal) d)) (ix3 b i j)) = _
  rw [dot_apply, bcast_q_apply, bcast_d_apply, lengths20_apply, lengths200_apply]

/-- The row-major position of the one-axis index k is k. -/
theorem rowMajor_ix1 (k : Fin 21) : S21.rowMajor (ix1 k) = k := Fin.ext (Shape.rowMajor_val_one _)

/-- The reference's first literal table is the table of the centres' words. -/
theorem lit0_eq (k : Fin 21) : lit0 k = Cert.Knrm.muBits k := by
  fin_cases k <;> rfl

/-- Entry k of the centres is the centre of bump k. -/
theorem centres_apply (k : Fin 21) : Terms.centres (F := Ideal) (ix1 k) = Cert.Knrm.mu k := by
  unfold Terms.centres Cert.Knrm.mu
  show Ideal.ofBits .f32 (lit0 (S21.rowMajor (ix1 k))) = _
  rw [rowMajor_ix1, lit0_eq]

/-- Entry k of the standard deviations is what word k of the second literal table denotes. -/
theorem sigmas_apply (k : Fin 21) : Terms.sigmas (F := Ideal) (ix1 k) = Ideal.ofBits .f32 (lit1 k) := by
  unfold Terms.sigmas
  show Ideal.ofBits .f32 (lit1 (S21.rowMajor (ix1 k))) = _
  rw [rowMajor_ix1]

/-- The word 0x40000000 denotes 2. -/
theorem two_val : Ideal.ofBits .f32 0x40000000#32 = ((2 : ℝ) : EReal) := by
  simp [Ideal.ofBits, Ideal.ieee, -EReal.coe_mul]; norm_num

/-- The word 0x3DCCCCCD, f32's 0.1, denotes 13421773 / 2^27. -/
theorem sigmaWide_val : Ideal.ofBits .f32 0x3DCCCCCD#32 = ((13421773 / 134217728 : ℝ) : EReal) := by
  simp [Ideal.ofBits, Ideal.ieee, -EReal.coe_mul]; norm_num

/-- The word 0x3A83126F, f32's 0.001, denotes 8589935 / 2^33. -/
theorem sigmaExact_val : Ideal.ofBits .f32 0x3A83126F#32 = ((8589935 / 8589934592 : ℝ) : EReal) := by
  simp [Ideal.ofBits, Ideal.ieee, -EReal.coe_mul]; norm_num

/-- Every bump but the last has the wide standard deviation's word. -/
theorem lit1_wide (k : Fin 21) (hk : k ≠ 20) : lit1 k = 0x3DCCCCCD#32 := by
  fin_cases k <;> first | rfl | exact absurd rfl hk

/-- Dividing by twice the square of bump k's standard deviation is multiplying by its inverse width. -/
theorem div_width (x : EReal) (k : Fin 21) :
    Ideal.div x (Ideal.ofBits .f32 0x40000000#32 * Ideal.ofBits .f32 (lit1 k) * Ideal.ofBits .f32 (lit1 k)) = x * Cert.Knrm.width k := by
  unfold Cert.Knrm.width
  by_cases hk : k = 20
  · subst hk
    rw [if_pos rfl]
    show Ideal.div x (Ideal.ofBits .f32 0x40000000#32 * Ideal.ofBits .f32 0x3A83126F#32 * Ideal.ofBits .f32 0x3A83126F#32) = _
    rw [two_val, sigmaExact_val, Cert.Knrm.div_two_sq _ _ (by norm_num)]
    unfold Cert.Knrm.widthExact
    refine congrArg (fun r : ℝ => x * (r : EReal)) ?_
    norm_num
  · rw [if_neg hk, lit1_wide k hk, two_val, sigmaWide_val, Cert.Knrm.div_two_sq _ _ (by norm_num)]
    unfold Cert.Knrm.widthWide
    refine congrArg (fun r : ℝ => x * (r : EReal)) ?_
    norm_num

/-- The bumps' exponents: the array on [1024, 20, 200, 21] the reference exponentiates, -(M - μ)² / (2 σ σ). -/
def expo (M : FVec Ideal S1024x20x200 .f32) : FVec Ideal S1024x20x200x21 .f32 :=
  Host.divf (Host.negf (mulf (subf (broadcastInDim S1024x20x200x21 ![0, 1, 2, 3] bcast_S1024x20x200x1_S1024x20x200x21_0_1_2_3 (broadcastInDim S1024x20x200x1 ![0, 1, 2] bcast_S1024x20x200_S1024x20x200x1_0_1_2 M)) (broadcastInDim S1024x20x200x21 ![0, 1, 2, 3] bcast_S1x1x1x21_S1024x20x200x21_0_1_2_3 (broadcastInDim S1x1x1x21 ![3] bcast_S21_S1x1x1x21_3 (Terms.centres (F := Ideal))))) (subf (broadcastInDim S1024x20x200x21 ![0, 1, 2, 3] bcast_S1024x20x200x1_S1024x20x200x21_0_1_2_3 (broadcastInDim S1024x20x200x1 ![0, 1, 2] bcast_S1024x20x200_S1024x20x200x1_0_1_2 M)) (broadcastInDim S1024x20x200x21 ![0, 1, 2, 3] bcast_S1x1x1x21_S1024x20x200x21_0_1_2_3 (broadcastInDim S1x1x1x21 ![3] bcast_S21_S1x1x1x21_3 (Terms.centres (F := Ideal))))))) (broadcastInDim S1024x20x200x21 ![0, 1, 2, 3] bcast_S1x1x1x21_S1024x20x200x21_0_1_2_3 (broadcastInDim S1x1x1x21 ![3] bcast_S21_S1x1x1x21_3 (mulf (mulf (broadcastInDim S21 ![] bcast_S_S21 (constant (F := Ideal) S_ .f32 0x40000000#32)) (Terms.sigmas (F := Ideal))) (Terms.sigmas (F := Ideal)))))

/-- The pooled features are the two host sums, log1p between them, of the exponential of the exponents. -/
theorem pooled_eq (M : FVec Ideal S1024x20x200 .f32) :
    Terms.pooled (F := Ideal) M
      = Host.reduceAdd (F := Ideal) (Host.log1p (Host.reduceAdd (F := Ideal) (Host.exp (expo M)) (constant (F := Ideal) S_ .f32 0x00000000#32) reducesTo_S1024x20x200x21_S1024x20x21_d2 h_S_)) (constant (F := Ideal) S_ .f32 0x00000000#32) reducesTo_S1024x20x21_S1024x21_d1 h_S_ := rfl

/-- A [1024,20,200] array laid along a new unit axis and then along 21 bumps reads its (b, i, j) entry. -/
theorem bcast_M_apply (M : S1024x20x200.Idx → EReal) (b : Fin 1024) (i : Fin 20) (j : Fin 200) (k : Fin 21) :
    broadcastInDim S1024x20x200x21 ![0, 1, 2, 3] bcast_S1024x20x200x1_S1024x20x200x21_0_1_2_3
      (broadcastInDim S1024x20x200x1 ![0, 1, 2] bcast_S1024x20x200_S1024x20x200x1_0_1_2 M) (ix4 b i j k) = M (ix3 b i j) := by
  refine (broadcastInDim_apply ![0, 1, 2, 3] bcast_S1024x20x200x1_S1024x20x200x21_0_1_2_3 _ (ix4 b i j k) (ix4 b i j (0 : Fin 1)) ?_).trans ?_
  · intro a; match a with | ⟨0, _⟩ => rfl | ⟨1, _⟩ => rfl | ⟨2, _⟩ => rfl | ⟨3, _⟩ => rfl
  · refine broadcastInDim_apply ![0, 1, 2] bcast_S1024x20x200_S1024x20x200x1_0_1_2 M (ix4 b i j (0 : Fin 1)) (ix3 b i j) ?_
    intro a; match a with | ⟨0, _⟩ => rfl | ⟨1, _⟩ => rfl | ⟨2, _⟩ => rfl

/-- A 21-vector laid on the last axis of [1,1,1,21] and then along batch, query and document reads its k-th entry. -/
theorem bcast_k_apply (v : S21.Idx → EReal) (b : Fin 1024) (i : Fin 20) (j : Fin 200) (k : Fin 21) :
    broadcastInDim S1024x20x200x21 ![0, 1, 2, 3] bcast_S1x1x1x21_S1024x20x200x21_0_1_2_3
      (broadcastInDim S1x1x1x21 ![3] bcast_S21_S1x1x1x21_3 v) (ix4 b i j k) = v (ix1 k) := by
  refine (broadcastInDim_apply ![0, 1, 2, 3] bcast_S1x1x1x21_S1024x20x200x21_0_1_2_3 _ (ix4 b i j k) (ix4 (0 : Fin 1) (0 : Fin 1) (0 : Fin 1) k) ?_).trans ?_
  · intro a; match a with | ⟨0, _⟩ => rfl | ⟨1, _⟩ => rfl | ⟨2, _⟩ => rfl | ⟨3, _⟩ => rfl
  · refine broadcastInDim_apply ![3] bcast_S21_S1x1x1x21_3 v (ix4 (0 : Fin 1) (0 : Fin 1) (0 : Fin 1) k) (ix1 k) ?_
    intro a; match a with | ⟨0, _⟩ => rfl

/-- The exponent at (b, i, j, k): minus the squared distance of M (b, i, j) from bump k's centre, times bump k's inverse width. -/
theorem expo_apply (M : FVec Ideal S1024x20x200 .f32) (b : Fin 1024) (i : Fin 20) (j : Fin 200) (k : Fin 21) :
    expo M (ix4 b i j k)
      = -((M (ix3 b i j) - Cert.Knrm.mu k) * (M (ix3 b i j) - Cert.Knrm.mu k)) * Cert.Knrm.width k := by
  unfold expo
  show Ideal.div (-((broadcastInDim S1024x20x200x21 ![0, 1, 2, 3] bcast_S1024x20x200x1_S1024x20x200x21_0_1_2_3 (broadcastInDim S1024x20x200x1 ![0, 1, 2] bcast_S1024x20x200_S1024x20x200x1_0_1_2 M) (ix4 b i j k)
        - broadcastInDim S1024x20x200x21 ![0, 1, 2, 3] bcast_S1x1x1x21_S1024x20x200x21_0_1_2_3 (broadcastInDim S1x1x1x21 ![3] bcast_S21_S1x1x1x21_3 (Terms.centres (F := Ideal))) (ix4 b i j k))
      * (broadcastInDim S1024x20x200x21 ![0, 1, 2, 3] bcast_S1024x20x200x1_S1024x20x200x21_0_1_2_3 (broadcastInDim S1024x20x200x1 ![0, 1, 2] bcast_S1024x20x200_S1024x20x200x1_0_1_2 M) (ix4 b i j k)
        - broadcastInDim S1024x20x200x21 ![0, 1, 2, 3] bcast_S1x1x1x21_S1024x20x200x21_0_1_2_3 (broadcastInDim S1x1x1x21 ![3] bcast_S21_S1x1x1x21_3 (Terms.centres (F := Ideal))) (ix4 b i j k))))
      (broadcastInDim S1024x20x200x21 ![0, 1, 2, 3] bcast_S1x1x1x21_S1024x20x200x21_0_1_2_3 (broadcastInDim S1x1x1x21 ![3] bcast_S21_S1x1x1x21_3 (mulf (mulf (broadcastInDim S21 ![] bcast_S_S21 (constant (F := Ideal) S_ .f32 0x40000000#32)) (Terms.sigmas (F := Ideal))) (Terms.sigmas (F := Ideal)))) (ix4 b i j k)) = _
  rw [bcast_M_apply, bcast_k_apply, bcast_k_apply, centres_apply]
  show Ideal.div _ (Ideal.ofBits .f32 0x40000000#32 * Terms.sigmas (F := Ideal) (ix1 k) * Terms.sigmas (F := Ideal) (ix1 k)) = _
  rw [sigmas_apply, div_width]

/-- The host sum over the document axis of a [1024, 20, 200, 21] array, from 0, at (b, i, k): the sum of its 200 entries there. -/
theorem sum200 (x : S1024x20x200x21.Idx → EReal) (b : Fin 1024) (i : Fin 20) (k : Fin 21) :
    Ideal.hostReduceAdd reducesTo_S1024x20x200x21_S1024x20x21_d2 x 0 (ix3 b i k) = ∑ j : Fin 200, x (ix4 b i j k) := by
  rw [Ideal.hostReduceAdd_single reducesTo_S1024x20x200x21_S1024x20x21_d2 (by decide), zero_add]
  refine Finset.sum_congr rfl fun j _ => ?_
  exact congrArg x (funext fun a => Fin.ext (by match a with | ⟨0, _⟩ => rfl | ⟨1, _⟩ => rfl | ⟨2, _⟩ => rfl | ⟨3, _⟩ => rfl))

/-- The host sum over the query axis of a [1024, 20, 21] array, from 0, at (b, k): the sum of its 20 entries there. -/
theorem sum20 (x : S1024x20x21.Idx → EReal) (b : Fin 1024) (k : Fin 21) :
    Ideal.hostReduceAdd reducesTo_S1024x20x21_S1024x21_d1 x 0 (ix2 b k) = ∑ i : Fin 20, x (ix3 b i k) := by
  rw [Ideal.hostReduceAdd_single reducesTo_S1024x20x21_S1024x21_d1 (by decide), zero_add]
  refine Finset.sum_congr rfl fun i _ => ?_
  exact congrArg x (funext fun a => Fin.ext (by match a with | ⟨0, _⟩ => rfl | ⟨1, _⟩ => rfl | ⟨2, _⟩ => rfl))

/-- Entry (b, k) of the pooled features of any matrix array M: the sum over the query of log1p of the sum over the document of the bump. -/
theorem pooled_apply (M : FVec Ideal S1024x20x200 .f32) (b : Fin 1024) (k : Fin 21) :
    Terms.pooled (F := Ideal) M (ix2 b k)
      = ∑ i : Fin 20, Ideal.log1p (∑ j : Fin 200, Ideal.exp (-((M (ix3 b i j) - Cert.Knrm.mu k) * (M (ix3 b i j) - Cert.Knrm.mu k)) * Cert.Knrm.width k)) := by
  rw [pooled_eq]
  show Ideal.hostReduceAdd reducesTo_S1024x20x21_S1024x21_d1 (Host.log1p (Host.reduceAdd (F := Ideal) (Host.exp (expo M)) (constant (F := Ideal) S_ .f32 0x00000000#32) reducesTo_S1024x20x200x21_S1024x20x21_d2 h_S_)) (Ideal.ofBits .f32 0x00000000#32) (ix2 b k) = _
  rw [Ideal.ofBits_zero_f32, sum20]
  refine Finset.sum_congr rfl fun i _ => ?_
  show Ideal.log1p (Ideal.hostReduceAdd reducesTo_S1024x20x200x21_S1024x20x21_d2 (Host.exp (expo M)) (Ideal.ofBits .f32 0x00000000#32) (ix3 b i k)) = _
  rw [Ideal.ofBits_zero_f32, sum200]
  refine congrArg Ideal.log1p (Finset.sum_congr rfl fun j _ => ?_)
  show Ideal.exp (expo M (ix4 b i j k)) = _
  rw [expo_apply]

end Cert.ReferenceIdeal.RefPool

namespace Cert.ReferenceIdeal.RefRead

open Cert.ReferenceIdeal Cert.ReferenceIdeal.Gen Idealize.ShloMosaic Idealize.ShloMosaic.TcCoe Idealize.ShloMosaic.ValueIdx

/-- Entry (b, k) of the reference's pooled features is `Knrm.feat` of batch row `b`'s embedded query and document. -/
theorem pooled_simMat_apply (q : FVec Ideal S1024x20x128 .f32) (d : FVec Ideal S1024x200x128 .f32) (b : Fin 1024) (k : Fin 21) :
    Terms.pooled (F := Ideal) (Terms.simMat (F := Ideal) q d) (ix2 b k)
      = Cert.Knrm.feat (fun i e => q (ix3 b i e)) (fun j e => d (ix3 b j e)) k := by
  rw [RefPool.pooled_apply]
  unfold Cert.Knrm.feat Cert.Knrm.softTF
  refine Finset.sum_congr rfl fun i _ => congrArg Ideal.log1p (Finset.sum_congr rfl fun j _ => ?_)
  rw [RefPool.simMat_apply]

end Cert.ReferenceIdeal.RefRead

end
-- ==== Proof.RefRead.lean ====
/-
  The reference's result read at an index: the dense layers and the logistic at a batch row, and with the pooled features
  (RefPool) the whole result as the function `Knrm.G 1024` of the embedded rows and the weights.

  A dense layer of the program is `relu x · Wᵀ + bias`: the matrix product of the rectified input with the TRANSPOSED
  weight, plus the bias copied into every row. At row `b` and column `a` that is `(Σ_κ max (x b κ) 0 · W a κ) + bias a`:
  the product is a sum over the one contracted coordinate, the transposed weight at (κ, a) is the weight at (a, κ), the
  zero the input is rectified against is the real 0, and the bias broadcast to a one-row matrix and then to every row
  reads its own entry `a` wherever it is read. The three layers differ in their sizes only, so one statement over
  sizes `m`, `n`, `p` serves all of them, and the column of logits at row `b` is the three of them composed.
-/
import proofs.«136225_j57483842290258_1_alg».proof.Proof.RefPool
import Idealize.ShloMosaic.Lib.StackMember
import Idealize.ShloMosaic.Lib.ValueLayout

noncomputable section

namespace Cert.ReferenceIdeal.RefRead

open Cert.ReferenceIdeal Cert.ReferenceIdeal.Gen Idealize.ShloMosaic Idealize.ShloMosaic.TcCoe Idealize.ShloMosaic.ValueIdx

namespace Layer

/-- A scalar word copied to every entry of an array reads, at every index, the extended real the word denotes. -/
theorem splat_apply {t : Shape} (dims : Fin 0 → Fin t.rank) (h : (⟨0, ![]⟩ : Shape).BroadcastsInDim t dims)
    (w : BitVec 32) (j : t.Idx) :
    broadcastInDim t dims h (constant (F := Ideal) ⟨0, ![]⟩ .f32 w) j = Ideal.ofBits .f32 w :=
  broadcastInDim_apply dims h _ j ix0 (fun a => a.elim0)

/-- The word `0x3F800000` (sign 0, biased exponent 127, mantissa 0) denotes `1`. -/
theorem ofBits_one : Ideal.ofBits .f32 0x3F800000#32 = 1 := by
  simp [Ideal.ofBits, Ideal.ieee, -EReal.coe_mul]; norm_num

/-- One dense layer read at row `b`, column `a`: `relu x · Wᵀ + bias` there is `(Σ_κ max (x b κ) 0 · W a κ) + bias a`.
    The contraction runs over the input's columns, which are the transposed weight's rows; a bias entry `a` is read
    back unchanged through both copies, also when `p = 1`, where the only column is column 0. -/
theorem dense_apply {m n p : ℕ} (D : DotDims ⟨2, ![m, n]⟩ ⟨2, ![n, p]⟩ ⟨2, ![m, p]⟩) (hD : D = DotDims.plain m n p)
    (hz : (⟨0, ![]⟩ : Shape).BroadcastsInDim ⟨2, ![m, n]⟩ (![] : Fin 0 → Fin 2))
    (ht : (⟨2, ![p, n]⟩ : Shape).Transposes [1, 0] ⟨2, ![n, p]⟩)
    (hb1 : (⟨1, ![p]⟩ : Shape).BroadcastsInDim ⟨2, ![1, p]⟩ (![1] : Fin 1 → Fin 2))
    (hb2 : (⟨2, ![1, p]⟩ : Shape).BroadcastsInDim ⟨2, ![m, p]⟩ (![0, 1] : Fin 2 → Fin 2))
    (x : FVec Ideal ⟨2, ![m, n]⟩ .f32) (W : FVec Ideal ⟨2, ![p, n]⟩ .f32) (β : FVec Ideal ⟨1, ![p]⟩ .f32)
    (b : Fin m) (a : Fin p) :
    addf (Host.dotGeneral (F := Ideal) D none
          (maximumf x (broadcastInDim ⟨2, ![m, n]⟩ ![] hz (constant (F := Ideal) ⟨0, ![]⟩ .f32 0x00000000#32)))
          (transpose ⟨2, ![n, p]⟩ [1, 0] W ht))
        (broadcastInDim ⟨2, ![m, p]⟩ ![0, 1] hb2 (broadcastInDim ⟨2, ![1, p]⟩ ![1] hb1 β)) (ix2 b a)
      = Cert.Knrm.dense (fun κ => x (ix2 b κ)) (fun a κ => W (ix2 a κ)) (fun a => β (ix1 a)) a := by
  subst hD
  unfold Cert.Knrm.dense
  rw [addf_apply, StackMember.dotGeneral_plain_apply]
  congr 1
  · -- the product: term κ is max (x b κ) 0 times the weight at (a, κ)
    refine Finset.sum_congr rfl fun c _ => ?_
    rw [maximumf_apply, splat_apply, Ideal.ofBits_zero_f32, transpose_ix2_apply]
  · -- the bias: entry (b, a) of the m-row copy is entry (0, a) of the one-row copy, which is entry a
    refine (broadcastInDim_apply _ hb2 _ (ix2 b a) (ix2 (0 : Fin 1) a) fun ax => ?_).trans ?_
    · match ax with
      | ⟨0, _⟩ => rfl
      | ⟨1, _⟩ =>
        show a.val = if p = 1 then 0 else a.val
        split_ifs with h1
        · have := a.isLt; omega
        · rfl
    · refine broadcastInDim_apply _ hb1 _ (ix2 (0 : Fin 1) a) (ix1 a) fun ax => ?_
      match ax with
      | ⟨0, _⟩ =>
        show a.val = if p = 1 then 0 else a.val
        split_ifs with h1
        · have := a.isLt; omega
        · rfl

end Layer

/-- Row `b` of the three dense layers is `Knrm.logit` of row `b` of the features: the last layer at (b, 0) is a dense
    layer of the second's row `b`, that one of the first's row `b`, and the first of the features' row `b`. -/
theorem mlp_apply (k : FVec Ideal S1024x21 .f32) (W1 : FVec Ideal S10x21 .f32) (b1 : FVec Ideal S10 .f32)
    (W2 : FVec Ideal S5x10 .f32) (b2 : FVec Ideal S5 .f32) (W3 : FVec Ideal S1x5 .f32) (b3 : FVec Ideal S1 .f32) (b : Fin 1024) :
    Terms.mlp (F := Ideal) k W1 b1 W2 b2 W3 b3 (ix2 b 0)
      = Cert.Knrm.logit (fun κ => k (ix2 b κ)) (fun a κ => W1 (ix2 a κ)) (fun a => b1 (ix1 a)) (fun a κ => W2 (ix2 a κ))
          (fun a => b2 (ix1 a)) (fun a κ => W3 (ix2 a κ)) (fun a => b3 (ix1 a)) := by
  unfold Terms.mlp Cert.Knrm.logit
  refine (Layer.dense_apply dot_S1024x5_S5x1_S1024x1_1_0_0_1_n_n rfl bcast_S_S1024x5 transposes_S1x5_S5x1_1_0
    bcast_S1_S1x1_1 bcast_S1x1_S1024x1_0_1 _ W3 b3 b 0).trans ?_
  refine congrArg (fun x => Cert.Knrm.dense x (fun a κ => W3 (ix2 a κ)) (fun a => b3 (ix1 a)) 0) (funext fun κ2 => ?_)
  refine (Layer.dense_apply dot_S1024x10_S10x5_S1024x5_1_0_0_1_n_n rfl bcast_S_S1024x10 transposes_S5x10_S10x5_1_0
    bcast_S5_S1x5_1 bcast_S1x5_S1024x5_0_1 _ W2 b2 b κ2).trans ?_
  refine congrArg (fun x => Cert.Knrm.dense x (fun a κ => W2 (ix2 a κ)) (fun a => b2 (ix1 a)) κ2) (funext fun κ1 => ?_)
  exact Layer.dense_apply dot_S1024x21_S21x10_S1024x10_1_0_0_1_n_n rfl bcast_S_S1024x21 transposes_S10x21_S21x10_1_0
    bcast_S10_S1x10_1 bcast_S1x10_S1024x10_0_1 k W1 b1 b κ1

/-- The program's `1 / (1 + exp (-(l1 - l2)))` is the logistic of the difference, entry by entry: both ones are the
    word of `1.0`, and the logistic is that quotient by definition. -/
theorem sigm_apply (l1 l2 : FVec Ideal S1024x1 .f32) (j : S1024x1.Idx) :
    Terms.sigm (F := Ideal) l1 l2 j = Ideal.logistic (l1 j - l2 j) := by
  unfold Terms.sigm Ideal.logistic
  show Ideal.div _ (_ + Ideal.exp (-(l1 j - l2 j))) = _
  rw [Layer.splat_apply, Layer.ofBits_one]

/-- Row `b` of one pair's logit column is `Knrm.logit` of the pair's 21 pooled features at row `b`. -/
theorem predict_apply (emb : FVec Ideal S100000x128 .f32) (qi : (⟨S1024x20, .i32⟩ : BufTy).Contents (Elt Ideal))
    (di : (⟨S1024x200, .i32⟩ : BufTy).Contents (Elt Ideal)) (W1 : FVec Ideal S10x21 .f32) (b1 : FVec Ideal S10 .f32)
    (W2 : FVec Ideal S5x10 .f32) (b2 : FVec Ideal S5 .f32) (W3 : FVec Ideal S1x5 .f32) (b3 : FVec Ideal S1 .f32) (b : Fin 1024) :
    Terms.predict (F := Ideal) emb qi di W1 b1 W2 b2 W3 b3 (ix2 b 0)
      = Cert.Knrm.logit
          (Cert.Knrm.feat (fun i e => Terms.rows20 (F := Ideal) emb qi (ix3 b i e))
            (fun j e => Terms.rows200 (F := Ideal) emb di (ix3 b j e)))
          (fun a κ => W1 (ix2 a κ)) (fun a => b1 (ix1 a)) (fun a κ => W2 (ix2 a κ)) (fun a => b2 (ix1 a))
          (fun a κ => W3 (ix2 a κ)) (fun a => b3 (ix1 a)) := by
  unfold Terms.predict
  refine (mlp_apply _ W1 b1 W2 b2 W3 b3 b).trans ?_
  exact congrArg (fun x => Cert.Knrm.logit x (fun a κ => W1 (ix2 a κ)) (fun a => b1 (ix1 a)) (fun a κ => W2 (ix2 a κ))
    (fun a => b2 (ix1 a)) (fun a κ => W3 (ix2 a κ)) (fun a => b3 (ix1 a)))
    (funext fun κ => pooled_simMat_apply _ _ b κ)

/-- The reference's result is `Knrm.G 1024` of the embedded rows and the weights: the result has one column, so an
    index is (r, 0), and there it is the logistic of the difference of the two pairs' logits at row `r`. -/
theorem out_eq_G (q1 : (⟨S1024x20, .i32⟩ : BufTy).Contents (Elt Ideal)) (d1 : (⟨S1024x200, .i32⟩ : BufTy).Contents (Elt Ideal))
    (q2 : (⟨S1024x20, .i32⟩ : BufTy).Contents (Elt Ideal)) (d2 : (⟨S1024x200, .i32⟩ : BufTy).Contents (Elt Ideal))
    (emb : FVec Ideal S100000x128 .f32) (W1 : FVec Ideal S10x21 .f32) (b1 : FVec Ideal S10 .f32)
    (W2 : FVec Ideal S5x10 .f32) (b2 : FVec Ideal S5 .f32) (W3 : FVec Ideal S1x5 .f32) (b3 : FVec Ideal S1 .f32) :
    Terms.out (F := Ideal) q1 d1 q2 d2 emb W1 b1 W2 b2 W3 b3
      = Cert.Knrm.G 1024 (Terms.rows20 (F := Ideal) emb q1) (Terms.rows200 (F := Ideal) emb d1) (Terms.rows20 (F := Ideal) emb q2)
          (Terms.rows200 (F := Ideal) emb d2) W1 b1 W2 b2 W3 b3 := by
  funext j
  obtain ⟨r, c, rfl⟩ : ∃ (r : Fin 1024) (c : Fin 1), j = ix2 r c := ⟨j 0, j 1, eq_ix2 j⟩
  obtain rfl : c = 0 := Subsingleton.elim c 0
  unfold Terms.out
  refine (sigm_apply _ _ _).trans ?_
  rw [predict_apply, predict_apply]
  rfl

end Cert.ReferenceIdeal.RefRead

end
-- ==== Proof.lean ====
/-
  Two programs score pairs of (query, document) pairs: each embeds the tokens of a query and of a document, takes the
  cosine similarities of their tokens, pools 21 Gaussian bumps of the similarities (a sum over the document, log1p, a sum
  over the query), runs the 21 features through three dense layers, and returns the logistic of the difference of the two
  pairs' logits. The kernel program gathers the embedded rows on the host and computes the rest 32 batch rows at a time,
  one bump at a time, multiplying each bump's exponent by a folded `1 / (2 σ²)`; the reference computes all rows and bumps
  at once and divides by `2 σ σ`. With the two folded reciprocals read as the exact rationals `1 / (2 σ²)` of the
  reference's own σ words, both results are `Knrm.G 1024` of the same embedded rows and weights:
    · the kernel's output block is `Knrm.G 32` of its loaded blocks (KerPieces, KerPool, KerRead), the blocks tile the
      result column (KerArray);
    · the reference's operation list folds to the named composition `Terms.out` (RefValue), which read at an index is
      `Knrm.G 1024` (RefPool, RefRead);
    · the rows both gather are one function of the table and the ids.
-/
import proofs.«136225_j57483842290258_1_alg».proof.Defs
import proofs.«136225_j57483842290258_1_alg».proof.Proof.Gen.Kernel
import proofs.«136225_j57483842290258_1_alg».proof.Proof.Gen.Kernel.Frame
import proofs.«136225_j57483842290258_1_alg».proof.Proof.Gen.KernelIdeal
import proofs.«136225_j57483842290258_1_alg».proof.Proof.Gen.KernelIdeal.Frame
import proofs.«136225_j57483842290258_1_alg».proof.Proof.Gen.ReferenceIdeal
import proofs.«136225_j57483842290258_1_alg».proof.Proof.Gen.Pre_finite_inputs
import proofs.«136225_j57483842290258_1_alg».proof.Proof.KerArray
import proofs.«136225_j57483842290258_1_alg».proof.Proof.RefValue
import proofs.«136225_j57483842290258_1_alg».proof.Proof.RefRead
import Idealize.ShloMosaic.Adequacy
import Idealize.ShloMosaic.Init

noncomputable section

namespace Cert.Proof

open Idealize.ShloMosaic Idealize.SL.Sem

/-- The rows of a query's tokens are gathered by the same operations in both programs. -/
theorem rows20_eq (emb : FVec Ideal Cert.KernelIdeal.S100000x128 .f32) (ids : (⟨Cert.KernelIdeal.S1024x20, .i32⟩ : BufTy).Contents (Elt Ideal)) :
    Cert.KernelIdeal.Terms.rows20 (F := Ideal) emb ids = Cert.ReferenceIdeal.Terms.rows20 (F := Ideal) emb ids := rfl

/-- The rows of a document's tokens likewise. -/
theorem rows200_eq (emb : FVec Ideal Cert.KernelIdeal.S100000x128 .f32) (ids : (⟨Cert.KernelIdeal.S1024x200, .i32⟩ : BufTy).Contents (Elt Ideal)) :
    Cert.KernelIdeal.Terms.rows200 (F := Ideal) emb ids = Cert.ReferenceIdeal.Terms.rows200 (F := Ideal) emb ids := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- The folded reciprocal of the twenty wide bumps denotes `2^53 / 13421773²`, by the program's table of names. -/
theorem wide : IdealRules.named_const.Statement Cert.KernelIdeal.κ "inv_two_sig2" .f32 0x42480000#32 ((9007199254740992 / 180143990463529 : ℝ) : EReal) :=
  IdealRules.named_const.statement Cert.KernelIdeal.κ "inv_two_sig2" .f32 0x42480000#32 ((9007199254740992 / 180143990463529 : ℝ) : EReal) rfl

/-- The folded reciprocal of the exact-match bump denotes `2^65 / 8589935²`. -/
theorem narrow : IdealRules.named_const.Statement Cert.KernelIdeal.κ "inv_two_exact_sig2" .f32 0x48F423FE#32 ((36893488147419103232 / 73786983304225 : ℝ) : EReal) :=
  IdealRules.named_const.statement Cert.KernelIdeal.κ "inv_two_exact_sig2" .f32 0x48F423FE#32 ((36893488147419103232 / 73786983304225 : ℝ) : EReal) rfl

/-- One conjunct per site: twenty wide bumps and the narrow one, for each of the two pairs. -/
theorem preserves : Cert.preserves_Kernel_KernelIdeal :=
  ⟨wide, wide, wide, wide, wide, wide, wide, wide, wide, wide, wide, wide, wide, wide, wide, wide, wide, wide, wide, wide, narrow, wide, wide, wide, wide, wide, wide, wide, wide, wide, wide, wide, wide, wide, wide, wide, wide, wide, wide, wide, wide, narrow⟩

theorem algebraic : Cert.algebraic_KernelIdeal_ReferenceIdeal := by
  intro m ρ m' ρ' _ hagree
  refine ⟨_, Cert.KernelIdeal.KerRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10⟩ := hagree c
  rw [Cert.ReferenceIdeal.RefRead.out_eq_G, h0, h1, h2, h3, h4, h5, h6, h7, h8, h9, h10,
    ← rows20_eq, ← rows200_eq, ← rows20_eq, ← rows200_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
